-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v31)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v31) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v140) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x3 : Shape := ⟨2, ![500000, 3]⟩
abbrev S500000 : Shape := ⟨1, ![500000]⟩
abbrev S_ : Shape := ⟨0, ![]⟩

class Facts : Prop where
  bcast_S_S500000x3 : S_.BroadcastsInDim S500000x3 (![] : Fin 0 → Fin S500000x3.rank)
  reducesTo_S500000x3_S_d0_1 : S500000x3.ReducesTo [0, 1] S_
  h_S_ : 0 < S_.numel
  bcast_S_S500000 : S_.BroadcastsInDim S500000 (![] : Fin 0 → Fin S500000.rank)
  reducesTo_S500000_S_d0 : S500000.ReducesTo [0] S_

variable [Facts]

def fn {F : FTy → Type} [FloatOps F] (main_arg0 : FVec F S500000x3 .f32) (main_arg1 : FVec F S500000x3 .f32) (main_arg2 : FVec F S500000 .f32) : IVec S_ 1 :=
  let main_v0 : FVec F S500000x3 .f32 := Host.absf main_arg0
  let main_cst : FVec F S_ .f32 := constant S_ .f32 0x7F800000#32
  let main_v1 : FVec F S500000x3 .f32 := broadcastInDim S500000x3 ![] bcast_S_S500000x3 main_cst
  let main_v2 : IVec S500000x3 1 := cmpf .olt main_v0 main_v1
  let main_c : IVec S_ 1 := constantI S_ 1 1#1
  let main_v3 : IVec S_ 1 := (fun x v => Host.reduce IntOp.andi x v reducesTo_S500000x3_S_d0_1 h_S_) main_v2 main_c
  let main_v4 : FVec F S500000x3 .f32 := Host.absf main_arg1
  let main_cst_0 : FVec F S_ .f32 := constant S_ .f32 0x7F800000#32
  let main_v5 : FVec F S500000x3 .f32 := broadcastInDim S500000x3 ![] bcast_S_S500000x3 main_cst_0
  let main_v6 : IVec S500000x3 1 := cmpf .olt main_v4 main_v5
  let main_c_1 : IVec S_ 1 := constantI S_ 1 1#1
  let main_v7 : IVec S_ 1 := (fun x v => Host.reduce IntOp.andi x v reducesTo_S500000x3_S_d0_1 h_S_) main_v6 main_c_1
  let main_v8 : IVec S_ 1 := andi main_v3 main_v7
  let main_v9 : FVec F S500000 .f32 := Host.absf main_arg2
  let main_cst_2 : FVec F S_ .f32 := constant S_ .f32 0x7F800000#32
  let main_v10 : FVec F S500000 .f32 := broadcastInDim S500000 ![] bcast_S_S500000 main_cst_2
  let main_v11 : IVec S500000 1 := cmpf .olt main_v9 main_v10
  let main_c_3 : IVec S_ 1 := constantI S_ 1 1#1
  let main_v12 : IVec S_ 1 := (fun x v => Host.reduce IntOp.andi x v reducesTo_S500000_S_d0 h_S_) main_v11 main_c_3
  let main_v13 : IVec S_ 1 := andi main_v8 main_v12
  main_v13
-- ==== Kernel.lean ====
abbrev S500000x3 : Shape := ⟨2, ![500000, 3]⟩
abbrev S500000 : Shape := ⟨1, ![500000]⟩
abbrev S_ : Shape := ⟨0, ![]⟩
abbrev S524288x3 : Shape := ⟨2, ![524288, 3]⟩
abbrev S524288 : Shape := ⟨1, ![524288]⟩
abbrev S3x524288 : Shape := ⟨2, ![3, 524288]⟩
abbrev S3x1024x512 : Shape := ⟨3, ![3, 1024, 512]⟩
abbrev S1024x512 : Shape := ⟨2, ![1024, 512]⟩
abbrev S8x1024x512 : Shape := ⟨3, ![8, 1024, 512]⟩
abbrev S4x8x1024x512 : Shape := ⟨4, ![4, 8, 1024, 512]⟩
abbrev S3x128x512 : Shape := ⟨3, ![3, 128, 512]⟩
abbrev S128x512 : Shape := ⟨2, ![128, 512]⟩
abbrev S8x128x512 : Shape := ⟨3, ![8, 128, 512]⟩
abbrev S4x8x128x512 : Shape := ⟨4, ![4, 8, 128, 512]⟩
abbrev S1x128x512 : Shape := ⟨3, ![1, 128, 512]⟩
abbrev S1x1x128x512 : Shape := ⟨4, ![1, 1, 128, 512]⟩
abbrev S4194304 : Shape := ⟨1, ![4194304]⟩
abbrev S8x1024x512x4 : Shape := ⟨4, ![8, 1024, 512, 4]⟩
abbrev S4194304x4 : Shape := ⟨2, ![4194304, 4]⟩
abbrev S2097152x4 : Shape := ⟨2, ![2097152, 4]⟩
abbrev S4194304x1 : Shape := ⟨2, ![4194304, 1]⟩
abbrev S8x1024x512x1 : Shape := ⟨4, ![8, 1024, 512, 1]⟩

abbrev nBuf : Space → Nat
  | .hbm => 48
  | .vmem => 18
  | .smem => 0
  | _ => 0

abbrev bufTy : (tb : Table) → Fin (tcTables nBuf tb) → BufTy
  | .hbm, ⟨0, _⟩ => ⟨S500000x3, .f32⟩
  | .hbm, ⟨1, _⟩ => ⟨S500000x3, .f32⟩
  | .hbm, ⟨2, _⟩ => ⟨S500000, .f32⟩
  | .hbm, ⟨3, _⟩ => ⟨S_, .i32⟩
  | .hbm, ⟨4, _⟩ => ⟨S_, .f32⟩
  | .hbm, ⟨5, _⟩ => ⟨S524288x3, .f32⟩
  | .hbm, ⟨6, _⟩ => ⟨S_, .i32⟩
  | .hbm, ⟨7, _⟩ => ⟨S_, .f32⟩
  | .hbm, ⟨8, _⟩ => ⟨S524288x3, .f32⟩
  | .hbm, ⟨9, _⟩ => ⟨S_, .i32⟩
  | .hbm, ⟨10, _⟩ => ⟨S_, .f32⟩
  | .hbm, ⟨11, _⟩ => ⟨S524288, .f32⟩
  | .hbm, ⟨12, _⟩ => ⟨S3x524288, .f32⟩
  | .hbm, ⟨13, _⟩ => ⟨S3x1024x512, .f32⟩
  | .hbm, ⟨14, _⟩ => ⟨S3x524288, .f32⟩
  | .hbm, ⟨15, _⟩ => ⟨S3x1024x512, .f32⟩
  | .hbm, ⟨16, _⟩ => ⟨S1024x512, .f32⟩
  | .hbm, ⟨17, _⟩ => ⟨S8x1024x512, .i32⟩
  | .hbm, ⟨18, _⟩ => ⟨S8x1024x512, .f32⟩
  | .hbm, ⟨19, _⟩ => ⟨S4x8x1024x512, .f32⟩
  | .hbm, ⟨20, _⟩ => ⟨S4194304, .i32⟩
  | .hbm, ⟨21, _⟩ => ⟨S8x1024x512x4, .f32⟩
  | .hbm, ⟨22, _⟩ => ⟨S4194304x4, .f32⟩
  | .hbm, ⟨23, _⟩ => ⟨S_, .f32⟩
  | .hbm, ⟨24, _⟩ => ⟨S2097152x4, .f32⟩
  | .hbm, ⟨25, _⟩ => ⟨S_, .i32⟩
  | .hbm, ⟨26, _⟩ => ⟨S4194304, .i32⟩
  | .hbm, ⟨27, _⟩ => ⟨S4194304, .i1⟩
  | .hbm, ⟨28, _⟩ => ⟨S_, .i32⟩
  | .hbm, ⟨29, _⟩ => ⟨S4194304, .i32⟩
  | .hbm, ⟨30, _⟩ => ⟨S4194304, .i32⟩
  | .hbm, ⟨31, _⟩ => ⟨S4194304, .i32⟩
  | .hbm, ⟨32, _⟩ => ⟨S4194304x1, .i32⟩
  | .hbm, ⟨33, _⟩ => ⟨S2097152x4, .f32⟩
  | .hbm, ⟨34, _⟩ => ⟨S_, .i32⟩
  | .hbm, ⟨35, _⟩ => ⟨S8x1024x512, .i32⟩
  | .hbm, ⟨36, _⟩ => ⟨S8x1024x512, .i1⟩
  | .hbm, ⟨37, _⟩ => ⟨S_, .i32⟩
  | .hbm, ⟨38, _⟩ => ⟨S8x1024x512, .i32⟩
  | .hbm, ⟨39, _⟩ => ⟨S8x1024x512, .i32⟩
  | .hbm, ⟨40, _⟩ => ⟨S8x1024x512, .i32⟩
  | .hbm, ⟨41, _⟩ => ⟨S8x1024x512x1, .i32⟩
  | .hbm, ⟨42, _⟩ => ⟨S8x1024x512x4, .f32⟩
  | .hbm, ⟨43, _⟩ => ⟨S4x8x1024x512, .f32⟩
  | .hbm, ⟨44, _⟩ => ⟨S3x1024x512, .f32⟩
  | .hbm, ⟨45, _⟩ => ⟨S3x524288, .f32⟩
  | .hbm, ⟨46, _⟩ => ⟨S524288x3, .f32⟩
  | .hbm, ⟨47, _⟩ => ⟨S500000x3, .f32⟩
  | .local _ .vmem, ⟨0, _⟩ => ⟨S3x128x512, .f32⟩
  | .local _ .vmem, ⟨1, _⟩ => ⟨S3x128x512, .f32⟩
  | .local _ .vmem, ⟨2, _⟩ => ⟨S128x512, .f32⟩
  | .local _ .vmem, ⟨3, _⟩ => ⟨S128x512, .f32⟩
  | .local _ .vmem, ⟨4, _⟩ => ⟨S3x128x512, .f32⟩
  | .local _ .vmem, ⟨5, _⟩ => ⟨S3x128x512, .f32⟩
  | .local _ .vmem, ⟨6, _⟩ => ⟨S8x128x512, .i32⟩
  | .local _ .vmem, ⟨7, _⟩ => ⟨S8x128x512, .i32⟩
  | .local _ .vmem, ⟨8, _⟩ => ⟨S8x128x512, .f32⟩
  | .local _ .vmem, ⟨9, _⟩ => ⟨S8x128x512, .f32⟩
  | .local _ .vmem, ⟨10, _⟩ => ⟨S4x8x128x512, .f32⟩
  | .local _ .vmem, ⟨11, _⟩ => ⟨S4x8x128x512, .f32⟩
  | .local _ .vmem, ⟨12, _⟩ => ⟨S8x128x512, .f32⟩
  | .local _ .vmem, ⟨13, _⟩ => ⟨S8x128x512, .f32⟩
  | .local _ .vmem, ⟨14, _⟩ => ⟨S4x8x128x512, .f32⟩
  | .local _ .vmem, ⟨15, _⟩ => ⟨S4x8x128x512, .f32⟩
  | .local _ .vmem, ⟨16, _⟩ => ⟨S3x128x512, .f32⟩
  | .local _ .vmem, ⟨17, _⟩ => ⟨S3x128x512, .f32⟩
  | _, _ => ⟨S500000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_c_0 : Ref sig .tc := ⟨.hbm, 6, rfl⟩
abbrev main_call1_v0 : Ref sig .tc := ⟨.hbm, 7, rfl⟩
abbrev main_v1 : Ref sig .tc := ⟨.hbm, 8, rfl⟩
abbrev main_c_1 : Ref sig .tc := ⟨.hbm, 9, rfl⟩
abbrev main_call2_v0 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8_0 : Ref sig .tc := ⟨.hbm, 17, rfl⟩
abbrev main_v8_1 : Ref sig .tc := ⟨.hbm, 18, rfl⟩
abbrev main_v8_2 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_cst : Ref sig .tc := ⟨.hbm, 23, rfl⟩
abbrev main_v12 : Ref sig .tc := ⟨.hbm, 24, rfl⟩
abbrev main_c_2 : Ref sig .tc := ⟨.hbm, 25, rfl⟩
abbrev main_v13 : Ref sig .tc := ⟨.hbm, 26, rfl⟩
abbrev main_v14 : Ref sig .tc := ⟨.hbm, 27, rfl⟩
abbrev main_c_3 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_c_4 : Ref sig .tc := ⟨.hbm, 34, rfl⟩
abbrev main_v20 : Ref sig .tc := ⟨.hbm, 35, rfl⟩
abbrev main_v21 : Ref sig .tc := ⟨.hbm, 36, rfl⟩
abbrev main_c_5 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_5 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

abbrev stage0_0 : Fin 2 → Memref sig .tc .vmem S3x128x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S3x128x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x128x512 .i32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S8x128x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S4x8x128x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev grid1 : Pipeline.Grid := ⟨1, ![8], ![false]⟩

def cc1_transform_0 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc1_transform_1 (i : grid1.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, arg0.toNat, c0_i32_1.toNat]

def cc1_transform_2 (i : grid1.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage1_0 : Fin 2 → Memref sig .tc .vmem S8x128x512 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S4x8x128x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S3x128x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

class Facts₀ : Prop where
  pads_S500000x3_S524288x3_0242880_000 : S500000x3.Pads (![0, 0] : Fin 2 → Nat) ![24288, 0] ![0, 0] S524288x3
  h_S_ : 0 < S_.numel
  pads_S500000_S524288_0242880 : S500000.Pads (![0] : Fin 1 → Nat) ![24288] ![0] S524288
  transposes_S524288x3_S3x524288_1_0 : S524288x3.Transposes [1, 0] S3x524288
  shapeCasts_S3x524288_S3x1024x512 : S3x524288.ShapeCasts S3x1024x512
  shapeCasts_S524288_S1024x512 : S524288.ShapeCasts S1024x512
  inb_S3x128x512_S1x128x512_0_0_0 : ∀ a, (![0, 0, 0] : Fin 3 → Nat) a + S1x128x512.size a ≤ S3x128x512.size a
  h_S1x128x512 : 0 < S1x128x512.numel
  shapeCasts_S1x128x512_S128x512 : S1x128x512.ShapeCasts S128x512
  inb_S3x128x512_S1x128x512_1_0_0 : ∀ a, (![1, 0, 0] : Fin 3 → Nat) a + S1x128x512.size a ≤ S3x128x512.size a
  inb_S3x128x512_S1x128x512_2_0_0 : ∀ a, (![2, 0, 0] : Fin 3 → Nat) a + S1x128x512.size a ≤ S3x128x512.size a
  inb_S128x512_S128x512_0_0 : ∀ a, (![0, 0] : Fin 2 → Nat) a + S128x512.size a ≤ S128x512.size a
  h_S128x512 : 0 < S128x512.numel
  shapeCasts_S128x512_S128x512 : S128x512.ShapeCasts S128x512
  iota_S128x512_d0_w32 : S128x512.Iotas .tc 32 [0]
  iota_S128x512_d1_w32 : S128x512.Iotas .tc 32 [1]
  natLt_1_32 : 1 < 32
  inb_S8x128x512_S1x128x512_0_0_0 : ∀ a, (![0, 0, 0] : Fin 3 → Nat) a + S1x128x512.size a ≤ S8x128x512.size a
  shapeCasts_S128x512_S1x128x512 : S128x512.ShapeCasts S1x128x512
  inb_S4x8x128x512_S1x1x128x512_0_0_0_0 : ∀ a, (![0, 0, 0, 0] : Fin 4 → Nat) a + S1x1x128x512.size a ≤ S4x8x128x512.size a
  h_S1x1x128x512 : 0 < S1x1x128x512.numel
  shapeCasts_S1x1x128x512_S128x512 : S1x1x128x512.ShapeCasts S128x512
  shapeCasts_S128x512_S1x1x128x512 : S128x512.ShapeCasts S1x1x128x512
  inb_S4x8x128x512_S1x1x128x512_1_0_0_0 : ∀ a, (![1, 0, 0, 0] : Fin 4 → Nat) a + S1x1x128x512.size a ≤ S4x8x128x512.size a
  inb_S4x8x128x512_S1x1x128x512_2_0_0_0 : ∀ a, (![2, 0, 0, 0] : Fin 4 → Nat) a + S1x1x128x512.size a ≤ S4x8x128x512.size a
  inb_S4x8x128x512_S1x1x128x512_3_0_0_0 : ∀ a, (![3, 0, 0, 0] : Fin 4 → Nat) a + S1x1x128x512.size a ≤ S4x8x128x512.size a
  inb_S8x128x512_S1x128x512_1_0_0 : ∀ a, (![1, 0, 0] : Fin 3 → Nat) a + S1x128x512.size a ≤ S8x128x512.size a
  inb_S4x8x128x512_S1x1x128x512_0_1_0_0 : ∀ a, (![0, 1, 0, 0] : Fin 4 → Nat) a + S1x1x128x512.size a ≤ S4x8x128x512.size a
  inb_S4x8x128x512_S1x1x128x512_1_1_0_0 : ∀ a, (![1, 1, 0, 0] : Fin 4 → Nat) a + S1x1x128x512.size a ≤ S4x8x128x512.size a
  inb_S4x8x128x512_S1x1x128x512_2_1_0_0 : ∀ a, (![2, 1, 0, 0] : Fin 4 → Nat) a + S1x1x128x512.size a ≤ S4x8x128x512.size a
  inb_S4x8x128x512_S1x1x128x512_3_1_0_0 : ∀ a, (![3, 1, 0, 0] : Fin 4 → Nat) a + S1x1x128x512.size a ≤ S4x8x128x512.size a
  inb_S8x128x512_S1x128x512_2_0_0 : ∀ a, (![2, 0, 0] : Fin 3 → Nat) a + S1x128x512.size a ≤ S8x128x512.size a
  inb_S4x8x128x512_S1x1x128x512_0_2_0_0 : ∀ a, (![0, 2, 0, 0] : Fin 4 → Nat) a + S1x1x128x512.size a ≤ S4x8x128x512.size a
  inb_S4x8x128x512_S1x1x128x512_1_2_0_0 : ∀ a, (![1, 2, 0, 0] : Fin 4 → Nat) a + S1x1x128x512.size a ≤ S4x8x128x512.size a
  inb_S4x8x128x512_S1x1x128x512_2_2_0_0 : ∀ a, (![2, 2, 0, 0] : Fin 4 → Nat) a + S1x1x128x512.size a ≤ S4x8x128x512.size a
  inb_S4x8x128x512_S1x1x128x512_3_2_0_0 : ∀ a, (![3, 2, 0, 0] : Fin 4 → Nat) a + S1x1x128x512.size a ≤ S4x8x128x512.size a
  inb_S8x128x512_S1x128x512_3_0_0 : ∀ a, (![3, 0, 0] : Fin 3 → Nat) a + S1x128x512.size a ≤ S8x128x512.size a
  inb_S4x8x128x512_S1x1x128x512_0_3_0_0 : ∀ a, (![0, 3, 0, 0] : Fin 4 → Nat) a + S1x1x128x512.size a ≤ S4x8x128x512.size a
  inb_S4x8x128x512_S1x1x128x512_1_3_0_0 : ∀ a, (![1, 3, 0, 0] : Fin 4 → Nat) a + S1x1x128x512.size a ≤ S4x8x128x512.size a
  inb_S4x8x128x512_S1x1x128x512_2_3_0_0 : ∀ a, (![2, 3, 0, 0] : Fin 4 → Nat) a + S1x1x128x512.size a ≤ S4x8x128x512.size a
  inb_S4x8x128x512_S1x1x128x512_3_3_0_0 : ∀ a, (![3, 3, 0, 0] : Fin 4 → Nat) a + S1x1x128x512.size a ≤ S4x8x128x512.size a
  inb_S8x128x512_S1x128x512_4_0_0 : ∀ a, (![4, 0, 0] : Fin 3 → Nat) a + S1x128x512.size a ≤ S8x128x512.size a
  inb_S4x8x128x512_S1x1x128x512_0_4_0_0 : ∀ a, (![0, 4, 0, 0] : Fin 4 → Nat) a + S1x1x128x512.size a ≤ S4x8x128x512.size a
  inb_S4x8x128x512_S1x1x128x512_1_4_0_0 : ∀ a, (![1, 4, 0, 0] : Fin 4 → Nat) a + S1x1x128x512.size a ≤ S4x8x128x512.size a
  inb_S4x8x128x512_S1x1x128x512_2_4_0_0 : ∀ a, (![2, 4, 0, 0] : Fin 4 → Nat) a + S1x1x128x512.size a ≤ S4x8x128x512.size a
  inb_S4x8x128x512_S1x1x128x512_3_4_0_0 : ∀ a, (![3, 4, 0, 0] : Fin 4 → Nat) a + S1x1x128x512.size a ≤ S4x8x128x512.size a
  inb_S8x128x512_S1x128x512_5_0_0 : ∀ a, (![5, 0, 0] : Fin 3 → Nat) a + S1x128x512.size a ≤ S8x128x512.size a
  inb_S4x8x128x512_S1x1x128x512_0_5_0_0 : ∀ a, (![0, 5, 0, 0] : Fin 4 → Nat) a + S1x1x128x512.size a ≤ S4x8x128x512.size a
  inb_S4x8x128x512_S1x1x128x512_1_5_0_0 : ∀ a, (![1, 5, 0, 0] : Fin 4 → Nat) a + S1x1x128x512.size a ≤ S4x8x128x512.size a
  inb_S4x8x128x512_S1x1x128x512_2_5_0_0 : ∀ a, (![2, 5, 0, 0] : Fin 4 → Nat) a + S1x1x128x512.size a ≤ S4x8x128x512.size a
  inb_S4x8x128x512_S1x1x128x512_3_5_0_0 : ∀ a, (![3, 5, 0, 0] : Fin 4 → Nat) a + S1x1x128x512.size a ≤ S4x8x128x512.size a
  inb_S8x128x512_S1x128x512_6_0_0 : ∀ a, (![6, 0, 0] : Fin 3 → Nat) a + S1x128x512.size a ≤ S8x128x512.size a
  inb_S4x8x128x512_S1x1x128x512_0_6_0_0 : ∀ a, (![0, 6, 0, 0] : Fin 4 → Nat) a + S1x1x128x512.size a ≤ S4x8x128x512.size a
  inb_S4x8x128x512_S1x1x128x512_1_6_0_0 : ∀ a, (![1, 6, 0, 0] : Fin 4 → Nat) a + S1x1x128x512.size a ≤ S4x8x128x512.size a
  inb_S4x8x128x512_S1x1x128x512_2_6_0_0 : ∀ a, (![2, 6, 0, 0] : Fin 4 → Nat) a + S1x1x128x512.size a ≤ S4x8x128x512.size a
  inb_S4x8x128x512_S1x1x128x512_3_6_0_0 : ∀ a, (![3, 6, 0, 0] : Fin 4 → Nat) a + S1x1x128x512.size a ≤ S4x8x128x512.size a
  inb_S8x128x512_S1x128x512_7_0_0 : ∀ a, (![7, 0, 0] : Fin 3 → Nat) a + S1x128x512.size a ≤ S8x128x512.size a
  inb_S4x8x128x512_S1x1x128x512_0_7_0_0 : ∀ a, (![0, 7, 0, 0] : Fin 4 → Nat) a + S1x1x128x512.size a ≤ S4x8x128x512.size a
  inb_S4x8x128x512_S1x1x128x512_1_7_0_0 : ∀ a, (![1, 7, 0, 0] : Fin 4 → Nat) a + S1x1x128x512.size a ≤ S4x8x128x512.size a
  inb_S4x8x128x512_S1x1x128x512_2_7_0_0 : ∀ a, (![2, 7, 0, 0] : Fin 4 → Nat) a + S1x1x128x512.size a ≤ S4x8x128x512.size a
  inb_S4x8x128x512_S1x1x128x512_3_7_0_0 : ∀ a, (![3, 7, 0, 0] : Fin 4 → Nat) a + S1x1x128x512.size a ≤ S4x8x128x512.size a
  shapeCasts_S8x1024x512_S4194304 : S8x1024x512.ShapeCasts S4194304
  transposes_S4x8x1024x512_S8x1024x512x4_1_2_3_0 : S4x8x1024x512.Transposes [1, 2, 3, 0] S8x1024x512x4
  shapeCasts_S8x1024x512x4_S4194304x4 : S8x1024x512x4.ShapeCasts S4194304x4
  bcast_S_S2097152x4 : S_.BroadcastsInDim S2097152x4 (![] : Fin 0 → Fin S2097152x4.rank)
  bcast_S_S4194304 : S_.BroadcastsInDim S4194304 (![] : Fin 0 → Fin S4194304.rank)
  bcast_S4194304_S4194304x1_0 : S4194304.BroadcastsInDim S4194304x1 (![0] : Fin 1 → Fin S4194304x1.rank)
  bcast_S_S8x1024x512 : S_.BroadcastsInDim S8x1024x512 (![] : Fin 0 → Fin S8x1024x512.rank)
  bcast_S8x1024x512_S8x1024x512x1_0_1_2 : S8x1024x512.BroadcastsInDim S8x1024x512x1 (![0, 1, 2] : Fin 3 → Fin S8x1024x512x1.rank)
  transposes_S8x1024x512x4_S4x8x1024x512_3_0_1_2 : S8x1024x512x4.Transposes [3, 0, 1, 2] S4x8x1024x512
  shapeCasts_S3x1024x512_S3x524288 : S3x1024x512.ShapeCasts S3x524288
  transposes_S3x524288_S524288x3_1_0 : S3x524288.Transposes [1, 0] S524288x3
  slices_S524288x3_S500000x3_0_0 : S524288x3.Slices ![0, 0] S500000x3
  scatter_S2097152x4_S4194304x1_S4194304x4_1_0_0_1_wf : ScatterDims.WF S2097152x4 S4194304x1 S4194304x4 [1] [0] [0] 1
  gather_S2097152x4_S8x1024x512x1_S8x1024x512x4_3_0_n_n_0_3_14_wf : GatherDims.WF S2097152x4 S8x1024x512x1 S8x1024x512x4 [3] [0] [] [0] [] 3 ![1, 4]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x128x512.size a ≤ S3x1024x512.size a
  hwx0_0 : ∀ i : grid0.Coords, EltTy.bits .f32 = 32 ∨ (Rect.block (s := S3x1024x512) S3x128x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x512.size a ≤ S1024x512.size a
  hwx0_1 : ∀ i : grid0.Coords, EltTy.bits .f32 = 32 ∨ (Rect.block (s := S1024x512) S128x512.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S3x128x512.size a ≤ S3x1024x512.size a
  hwx0_2 : ∀ i : grid0.Coords, EltTy.bits .f32 = 32 ∨ (Rect.block (s := S3x1024x512) S3x128x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S8x128x512.size a ≤ S8x1024x512.size a
  hwx0_3 : ∀ i : grid0.Coords, EltTy.bits .i32 = 32 ∨ (Rect.block (s := S8x1024x512) S8x128x512.size (cc0_transform_3 i) (hinb0_3 i)).WholeWords (EltTy.packing .i32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S8x128x512.size a ≤ S8x1024x512.size a
  hwx0_4 : ∀ i : grid0.Coords, EltTy.bits .f32 = 32 ∨ (Rect.block (s := S8x1024x512) S8x128x512.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S4x8x128x512.size a ≤ S4x8x1024x512.size a
  hwx0_5 : ∀ i : grid0.Coords, EltTy.bits .f32 = 32 ∨ (Rect.block (s := S4x8x1024x512) S4x8x128x512.size (cc0_transform_5 i) (hinb0_5 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S8x128x512.size a ≤ S8x1024x512.size a
  hwx1_0 : ∀ i : grid1.Coords, EltTy.bits .f32 = 32 ∨ (Rect.block (s := S8x1024x512) S8x128x512.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S4x8x128x512.size a ≤ S4x8x1024x512.size a
  hwx1_1 : ∀ i : grid1.Coords, EltTy.bits .f32 = 32 ∨ (Rect.block (s := S4x8x1024x512) S4x8x128x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S3x128x512.size a ≤ S3x1024x512.size a
  hwx1_2 : ∀ i : grid1.Coords, EltTy.bits .f32 = 32 ∨ (Rect.block (s := S3x1024x512) S3x128x512.size (cc1_transform_2 i) (hinb1_2 i)).WholeWords (EltTy.packing .f32)

variable [Facts₀]

def scatter_S2097152x4_S4194304x1_S4194304x4_1_0_0_1 : ScatterDims S2097152x4 S4194304x1 S4194304x4 where
  updateWindowDims := [1]
  insertedWindowDims := [0]
  scatterDimsToOperandDims := [0]
  indexVectorDim := 1
  wf := scatter_S2097152x4_S4194304x1_S4194304x4_1_0_0_1_wf
def gather_S2097152x4_S8x1024x512x1_S8x1024x512x4_3_0_n_n_0_3_14 : GatherDims S2097152x4 S8x1024x512x1 S8x1024x512x4 where
  offsetDims := [3]
  collapsedSliceDims := [0]
  operandBatchingDims := []
  startIndicesBatchingDims := []
  startIndexMap := [0]
  indexVectorDim := 3
  sliceSizes := ![1, 4]
  wf := gather_S2097152x4_S8x1024x512x1_S8x1024x512x4_3_0_n_n_0_3_14_wf

abbrev win0_0 : Pipeline.Window sig grid0 :=
  Pipeline.Window.ofSpec (Memref.whole main_v4) S3x128x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v7) S128x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v6) S3x128x512.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v8_0) S8x128x512.size cc0_transform_3 reads0_3 true false 2 stage0_3 sem0_3
    hrank0 hreads0_3 hinb0_3 nbuf0_3 (Memref.isWhole_whole _) hwx0_3 hstage0_3

abbrev win0_4 : Pipeline.Window sig grid0 :=
  Pipeline.Window.ofSpec (Memref.whole main_v8_1) S8x128x512.size cc0_transform_4 reads0_4 true false 2 stage0_4 sem0_4
    hrank0 hreads0_4 hinb0_4 nbuf0_4 (Memref.isWhole_whole _) hwx0_4 hstage0_4

abbrev win0_5 : Pipeline.Window sig grid0 :=
  Pipeline.Window.ofSpec (Memref.whole main_v8_2) S4x8x128x512.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev win1_0 : Pipeline.Window sig grid1 :=
  Pipeline.Window.ofSpec (Memref.whole main_v8_1) S8x128x512.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v27) S4x8x128x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v28) S3x128x512.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

class Facts : Prop extends Facts₀ where

variable [Facts]
-- ==== ReferenceIdeal.lean ====
abbrev S500000x3 : Shape := ⟨2, ![500000, 3]⟩
abbrev S500000 : Shape := ⟨1, ![500000]⟩
abbrev S2 : Shape := ⟨1, ![2]⟩
abbrev S2x2x2 : Shape := ⟨3, ![2, 2, 2]⟩
abbrev S2x2x2x1 : Shape := ⟨4, ![2, 2, 2, 1]⟩
abbrev S2x2x2x3 : Shape := ⟨4, ![2, 2, 2, 3]⟩
abbrev S8x3 : Shape := ⟨2, ![8, 3]⟩
abbrev S_ : Shape := ⟨0, ![]⟩
abbrev S500000x1x3 : Shape := ⟨3, ![500000, 1, 3]⟩
abbrev S1x8x3 : Shape := ⟨3, ![1, 8, 3]⟩
abbrev S500000x8x3 : Shape := ⟨3, ![500000, 8, 3]⟩
abbrev S500000x8 : Shape := ⟨2, ![500000, 8]⟩
abbrev S500000x8x1 : Shape := ⟨3, ![500000, 8, 1]⟩
abbrev S4000000 : Shape := ⟨1, ![4000000]⟩
abbrev S500000x1 : Shape := ⟨2, ![500000, 1]⟩
abbrev S4000000x3 : Shape := ⟨2, ![4000000, 3]⟩
abbrev S4000000x1 : Shape := ⟨2, ![4000000, 1]⟩
abbrev S2097152x3 : Shape := ⟨2, ![2097152, 3]⟩
abbrev S2097152 : Shape := ⟨1, ![2097152]⟩
abbrev S2097152x1 : Shape := ⟨2, ![2097152, 1]⟩

abbrev nBuf : Space → Nat
  | .hbm => 178
  | .vmem => 0
  | .smem => 0
  | _ => 0

abbrev hbmTy0_0 (i : Nat) : BufTy := match i % 128 with
  | 0 => ⟨S500000x3, .f32⟩
  | 1 => ⟨S500000x3, .f32⟩
  | 2 => ⟨S500000, .f32⟩
  | 3 => ⟨S2, .i32⟩
  | 4 => ⟨S2x2x2, .i32⟩
  | 5 => ⟨S2x2x2, .i32⟩
  | 6 => ⟨S2x2x2, .i32⟩
  | 7 => ⟨S2x2x2x1, .i32⟩
  | 8 => ⟨S2x2x2x1, .i32⟩
  | 9 => ⟨S2x2x2x1, .i32⟩
  | 10 => ⟨S2x2x2x3, .i32⟩
  | 11 => ⟨S8x3, .i32⟩
  | 12 => ⟨S_, .f32⟩
  | 13 => ⟨S500000x3, .f32⟩
  | 14 => ⟨S500000x3, .f32⟩
  | 15 => ⟨S500000x3, .f32⟩
  | 16 => ⟨S500000x3, .i32⟩
  | 17 => ⟨S500000x1x3, .i32⟩
  | 18 => ⟨S1x8x3, .i32⟩
  | 19 => ⟨S500000x8x3, .i32⟩
  | 20 => ⟨S500000x8x3, .i32⟩
  | 21 => ⟨S500000x8x3, .i32⟩
  | 22 => ⟨S_, .i32⟩
  | 23 => ⟨S500000x8x3, .i32⟩
  | 24 => ⟨S500000x8x3, .i1⟩
  | 25 => ⟨S_, .i32⟩
  | 26 => ⟨S500000x8x3, .i32⟩
  | 27 => ⟨S500000x8x3, .i1⟩
  | 28 => ⟨S500000x8x3, .i1⟩
  | 29 => ⟨S_, .i1⟩
  | 30 => ⟨S500000x8, .i1⟩
  | 31 => ⟨S_, .i32⟩
  | 32 => ⟨S_, .i32⟩
  | 33 => ⟨S_, .i32⟩
  | 34 => ⟨S500000x8x3, .i32⟩
  | 35 => ⟨S500000x8x3, .i32⟩
  | 36 => ⟨S_, .i32⟩
  | 37 => ⟨S500000x8x3, .i32⟩
  | 38 => ⟨S500000x8x3, .i32⟩
  | 39 => ⟨S500000x8x1, .i32⟩
  | 40 => ⟨S500000x8, .i32⟩
  | 41 => ⟨S_, .i32⟩
  | 42 => ⟨S500000x8, .i32⟩
  | 43 => ⟨S500000x8, .i32⟩
  | 44 => ⟨S500000x8x1, .i32⟩
  | 45 => ⟨S500000x8, .i32⟩
  | 46 => ⟨S500000x8, .i32⟩
  | 47 => ⟨S_, .i32⟩
  | 48 => ⟨S500000x8, .i32⟩
  | 49 => ⟨S500000x8, .i32⟩
  | 50 => ⟨S500000x8x1, .i32⟩
  | 51 => ⟨S500000x8, .i32⟩
  | 52 => ⟨S500000x8, .i32⟩
  | 53 => ⟨S500000x1x3, .f32⟩
  | 54 => ⟨S500000x8x3, .f32⟩
  | 55 => ⟨S500000x8x3, .f32⟩
  | 56 => ⟨S500000x8x3, .f32⟩
  | 57 => ⟨S500000x8x3, .f32⟩
  | 58 => ⟨S_, .f32⟩
  | 59 => ⟨S500000x8x3, .f32⟩
  | 60 => ⟨S500000x8x3, .f32⟩
  | 61 => ⟨S_, .f32⟩
  | 62 => ⟨S500000x8x3, .f32⟩
  | 63 => ⟨S500000x8x3, .f32⟩
  | 64 => ⟨S500000x8x3, .f32⟩
  | 65 => ⟨S500000x8x3, .f32⟩
  | 66 => ⟨S500000x8x3, .f32⟩
  | 67 => ⟨S_, .f32⟩
  | 68 => ⟨S500000x8x3, .f32⟩
  | 69 => ⟨S500000x8x3, .i1⟩
  | 70 => ⟨S500000x8x3, .f32⟩
  | 71 => ⟨S500000x8x3, .f32⟩
  | 72 => ⟨S500000x8x1, .f32⟩
  | 73 => ⟨S500000x8, .f32⟩
  | 74 => ⟨S500000x8x1, .f32⟩
  | 75 => ⟨S500000x8, .f32⟩
  | 76 => ⟨S500000x8, .f32⟩
  | 77 => ⟨S500000x8x1, .f32⟩
  | 78 => ⟨S500000x8, .f32⟩
  | 79 => ⟨S500000x8, .f32⟩
  | 80 => ⟨S500000x8x1, .f32⟩
  | 81 => ⟨S500000x8, .f32⟩
  | 82 => ⟨S500000x8x1, .f32⟩
  | 83 => ⟨S500000x8, .f32⟩
  | 84 => ⟨S500000x8, .f32⟩
  | 85 => ⟨S500000x8x1, .f32⟩
  | 86 => ⟨S500000x8, .f32⟩
  | 87 => ⟨S500000x8, .f32⟩
  | 88 => ⟨S500000x8x1, .f32⟩
  | 89 => ⟨S500000x8, .f32⟩
  | 90 => ⟨S500000x8x1, .f32⟩
  | 91 => ⟨S500000x8, .f32⟩
  | 92 => ⟨S500000x8, .f32⟩
  | 93 => ⟨S500000x8x1, .f32⟩
  | 94 => ⟨S500000x8, .f32⟩
  | 95 => ⟨S500000x8, .f32⟩
  | 96 => ⟨S500000x8x1, .f32⟩
  | 97 => ⟨S500000x8, .f32⟩
  | 98 => ⟨S500000x8x1, .f32⟩
  | 99 => ⟨S500000x8, .f32⟩
  | 100 => ⟨S500000x8, .f32⟩
  | 101 => ⟨S500000x8x1, .f32⟩
  | 102 => ⟨S500000x8, .f32⟩
  | 103 => ⟨S500000x8, .f32⟩
  | 104 => ⟨S500000x8x1, .f32⟩
  | 105 => ⟨S500000x8x1, .f32⟩
  | 106 => ⟨S500000x8x1, .f32⟩
  | 107 => ⟨S500000x8x3, .f32⟩
  | 108 => ⟨S_, .f32⟩
  | 109 => ⟨S500000x8x3, .f32⟩
  | 110 => ⟨S500000x8x3, .f32⟩
  | 111 => ⟨S500000x8, .f32⟩
  | 112 => ⟨S500000x8, .f32⟩
  | 113 => ⟨S500000x8x1, .f32⟩
  | 114 => ⟨S500000x8x3, .f32⟩
  | 115 => ⟨S500000x8x3, .f32⟩
  | 116 => ⟨S4000000, .i32⟩
  | 117 => ⟨S500000x1, .f32⟩
  | 118 => ⟨S500000x8, .f32⟩
  | 119 => ⟨S500000x8, .f32⟩
  | 120 => ⟨S4000000, .f32⟩
  | 121 => ⟨S500000x8x3, .f32⟩
  | 122 => ⟨S4000000x3, .f32⟩
  | 123 => ⟨S4000000x1, .f32⟩
  | 124 => ⟨S4000000x3, .f32⟩
  | 125 => ⟨S4000000x3, .f32⟩
  | 126 => ⟨S_, .f32⟩
  | 127 => ⟨S2097152x3, .f32⟩
  | _ => ⟨S500000x3, .f32⟩

abbrev hbmTy0_1 (i : Nat) : BufTy := match i % 128 with
  | 0 => ⟨S_, .i32⟩
  | 1 => ⟨S4000000, .i32⟩
  | 2 => ⟨S4000000, .i1⟩
  | 3 => ⟨S_, .i32⟩
  | 4 => ⟨S4000000, .i32⟩
  | 5 => ⟨S4000000, .i32⟩
  | 6 => ⟨S4000000, .i32⟩
  | 7 => ⟨S4000000x1, .i32⟩
  | 8 => ⟨S2097152x3, .f32⟩
  | 9 => ⟨S_, .f32⟩
  | 10 => ⟨S2097152, .f32⟩
  | 11 => ⟨S_, .i32⟩
  | 12 => ⟨S4000000, .i32⟩
  | 13 => ⟨S4000000, .i1⟩
  | 14 => ⟨S_, .i32⟩
  | 15 => ⟨S4000000, .i32⟩
  | 16 => ⟨S4000000, .i32⟩
  | 17 => ⟨S4000000, .i32⟩
  | 18 => ⟨S4000000x1, .i32⟩
  | 19 => ⟨S2097152, .f32⟩
  | 20 => ⟨S_, .f32⟩
  | 21 => ⟨S2097152, .f32⟩
  | 22 => ⟨S2097152, .i1⟩
  | 23 => ⟨S_, .f32⟩
  | 24 => ⟨S_, .f32⟩
  | 25 => ⟨S2097152, .f32⟩
  | 26 => ⟨S2097152, .f32⟩
  | 27 => ⟨S2097152x1, .i1⟩
  | 28 => ⟨S2097152x1, .f32⟩
  | 29 => ⟨S2097152x3, .f32⟩
  | 30 => ⟨S2097152x3, .f32⟩
  | 31 => ⟨S_, .f32⟩
  | 32 => ⟨S_, .f32⟩
  | 33 => ⟨S2097152x3, .i1⟩
  | 34 => ⟨S2097152x3, .f32⟩
  | 35 => ⟨S2097152x3, .f32⟩
  | 36 => ⟨S_, .i32⟩
  | 37 => ⟨S500000x8, .i32⟩
  | 38 => ⟨S500000x8, .i1⟩
  | 39 => ⟨S_, .i32⟩
  | 40 => ⟨S500000x8, .i32⟩
  | 41 => ⟨S500000x8, .i32⟩
  | 42 => ⟨S500000x8, .i32⟩
  | 43 => ⟨S500000x8x1, .i32⟩
  | 44 => ⟨S500000x8x3, .f32⟩
  | 45 => ⟨S500000x8x1, .f32⟩
  | 46 => ⟨S500000x8x3, .f32⟩
  | 47 => ⟨S500000x8x3, .f32⟩
  | 48 => ⟨S_, .f32⟩
  | 49 => ⟨S500000x3, .f32⟩
  | _ => ⟨S500000x3, .f32⟩

abbrev hbmTy (i : Nat) : BufTy := match i / 128 with
  | 0 => hbmTy0_0 i
  | 1 => hbmTy0_1 i
  | _ => ⟨S500000x3, .f32⟩

abbrev bufTy : (tb : Table) → Fin (tcTables nBuf tb) → BufTy
  | .hbm, ⟨i, _⟩ => hbmTy i
  | _, _ => ⟨S500000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_c : Ref sig .tc := ⟨.hbm, 22, rfl⟩
abbrev main_v18 : Ref sig .tc := ⟨.hbm, 23, rfl⟩
abbrev main_v19 : Ref sig .tc := ⟨.hbm, 24, rfl⟩
abbrev main_c_0 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_c_1 : Ref sig .tc := ⟨.hbm, 29, rfl⟩
abbrev main_v23 : Ref sig .tc := ⟨.hbm, 30, rfl⟩
abbrev main_c_2 : Ref sig .tc := ⟨.hbm, 31, rfl⟩
abbrev main_c_3 : Ref sig .tc := ⟨.hbm, 32, rfl⟩
abbrev main_call0_v0 : Ref sig .tc := ⟨.hbm, 33, rfl⟩
abbrev main_call0_v1 : Ref sig .tc := ⟨.hbm, 34, rfl⟩
abbrev main_call0_v2 : Ref sig .tc := ⟨.hbm, 35, rfl⟩
abbrev main_call0_v3 : Ref sig .tc := ⟨.hbm, 36, rfl⟩
abbrev main_call0_v4 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_c_4 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_c_5 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_v36 : Ref sig .tc := ⟨.hbm, 52, rfl⟩
abbrev main_v37 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_cst_6 : Ref sig .tc := ⟨.hbm, 58, rfl⟩
abbrev main_v42 : Ref sig .tc := ⟨.hbm, 59, rfl⟩
abbrev main_v43 : Ref sig .tc := ⟨.hbm, 60, rfl⟩
abbrev main_cst_7 : Ref sig .tc := ⟨.hbm, 61, rfl⟩
abbrev main_v44 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_cst_8 : Ref sig .tc := ⟨.hbm, 67, rfl⟩
abbrev main_v49 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_v74 : Ref sig .tc := ⟨.hbm, 93, rfl⟩
abbrev main_v75 : Ref sig .tc := ⟨.hbm, 94, rfl⟩
abbrev main_v76 : Ref sig .tc := ⟨.hbm, 95, rfl⟩
abbrev main_v77 : Ref sig .tc := ⟨.hbm, 96, rfl⟩
abbrev main_v78 : Ref sig .tc := ⟨.hbm, 97, rfl⟩
abbrev main_v79 : Ref sig .tc := ⟨.hbm, 98, rfl⟩
abbrev main_v80 : Ref sig .tc := ⟨.hbm, 99, rfl⟩
abbrev main_v81 : Ref sig .tc := ⟨.hbm, 100, rfl⟩
abbrev main_v82 : Ref sig .tc := ⟨.hbm, 101, rfl⟩
abbrev main_v83 : Ref sig .tc := ⟨.hbm, 102, rfl⟩
abbrev main_v84 : Ref sig .tc := ⟨.hbm, 103, rfl⟩
abbrev main_v85 : Ref sig .tc := ⟨.hbm, 104, rfl⟩
abbrev main_v86 : Ref sig .tc := ⟨.hbm, 105, rfl⟩
abbrev main_v87 : Ref sig .tc := ⟨.hbm, 106, rfl⟩
abbrev main_v88 : Ref sig .tc := ⟨.hbm, 107, rfl⟩
abbrev main_cst_9 : Ref sig .tc := ⟨.hbm, 108, rfl⟩
abbrev main_v89 : Ref sig .tc := ⟨.hbm, 109, rfl⟩
abbrev main_v90 : Ref sig .tc := ⟨.hbm, 110, rfl⟩
abbrev main_v91 : Ref sig .tc := ⟨.hbm, 111, rfl⟩
abbrev main_v92 : Ref sig .tc := ⟨.hbm, 112, rfl⟩
abbrev main_v93 : Ref sig .tc := ⟨.hbm, 113, rfl⟩
abbrev main_v94 : Ref sig .tc := ⟨.hbm, 114, rfl⟩
abbrev main_v95 : Ref sig .tc := ⟨.hbm, 115, rfl⟩
abbrev main_v96 : Ref sig .tc := ⟨.hbm, 116, rfl⟩
abbrev main_v97 : Ref sig .tc := ⟨.hbm, 117, rfl⟩
abbrev main_v98 : Ref sig .tc := ⟨.hbm, 118, rfl⟩
abbrev main_v99 : Ref sig .tc := ⟨.hbm, 119, rfl⟩
abbrev main_v100 : Ref sig .tc := ⟨.hbm, 120, rfl⟩
abbrev main_v101 : Ref sig .tc := ⟨.hbm, 121, rfl⟩
abbrev main_v102 : Ref sig .tc := ⟨.hbm, 122, rfl⟩
abbrev main_v103 : Ref sig .tc := ⟨.hbm, 123, rfl⟩
abbrev main_v104 : Ref sig .tc := ⟨.hbm, 124, rfl⟩
abbrev main_v105 : Ref sig .tc := ⟨.hbm, 125, rfl⟩
abbrev main_cst_10 : Ref sig .tc := ⟨.hbm, 126, rfl⟩
abbrev main_v106 : Ref sig .tc := ⟨.hbm, 127, rfl⟩
abbrev main_c_11 : Ref sig .tc := ⟨.hbm, 128, rfl⟩
abbrev main_v107 : Ref sig .tc := ⟨.hbm, 129, rfl⟩
abbrev main_v108 : Ref sig .tc := ⟨.hbm, 130, rfl⟩
abbrev main_c_12 : Ref sig .tc := ⟨.hbm, 131, rfl⟩
abbrev main_v109 : Ref sig .tc := ⟨.hbm, 132, rfl⟩
abbrev main_v110 : Ref sig .tc := ⟨.hbm, 133, rfl⟩
abbrev main_v111 : Ref sig .tc := ⟨.hbm, 134, rfl⟩
abbrev main_v112 : Ref sig .tc := ⟨.hbm, 135, rfl⟩
abbrev main_v113 : Ref sig .tc := ⟨.hbm, 136, rfl⟩
abbrev main_cst_13 : Ref sig .tc := ⟨.hbm, 137, rfl⟩
abbrev main_v114 : Ref sig .tc := ⟨.hbm, 138, rfl⟩
abbrev main_c_14 : Ref sig .tc := ⟨.hbm, 139, rfl⟩
abbrev main_v115 : Ref sig .tc := ⟨.hbm, 140, rfl⟩
abbrev main_v116 : Ref sig .tc := ⟨.hbm, 141, rfl⟩
abbrev main_c_15 : Ref sig .tc := ⟨.hbm, 142, rfl⟩
abbrev main_v117 : Ref sig .tc := ⟨.hbm, 143, rfl⟩
abbrev main_v118 : Ref sig .tc := ⟨.hbm, 144, rfl⟩
abbrev main_v119 : Ref sig .tc := ⟨.hbm, 145, rfl⟩
abbrev main_v120 : Ref sig .tc := ⟨.hbm, 146, rfl⟩
abbrev main_v121 : Ref sig .tc := ⟨.hbm, 147, rfl⟩
abbrev main_cst_16 : Ref sig .tc := ⟨.hbm, 148, rfl⟩
abbrev main_v122 : Ref sig .tc := ⟨.hbm, 149, rfl⟩
abbrev main_v123 : Ref sig .tc := ⟨.hbm, 150, rfl⟩
abbrev main_cst_17 : Ref sig .tc := ⟨.hbm, 151, rfl⟩
abbrev main_call1_v0 : Ref sig .tc := ⟨.hbm, 152, rfl⟩
abbrev main_call1_v1 : Ref sig .tc := ⟨.hbm, 153, rfl⟩
abbrev main_v124 : Ref sig .tc := ⟨.hbm, 154, rfl⟩
abbrev main_v125 : Ref sig .tc := ⟨.hbm, 155, rfl⟩
abbrev main_v126 : Ref sig .tc := ⟨.hbm, 156, rfl⟩
abbrev main_v127 : Ref sig .tc := ⟨.hbm, 157, rfl⟩
abbrev main_v128 : Ref sig .tc := ⟨.hbm, 158, rfl⟩
abbrev main_cst_18 : Ref sig .tc := ⟨.hbm, 159, rfl⟩
abbrev main_call2_v0 : Ref sig .tc := ⟨.hbm, 160, rfl⟩
abbrev main_call2_v1 : Ref sig .tc := ⟨.hbm, 161, rfl⟩
abbrev main_call2_v2 : Ref sig .tc := ⟨.hbm, 162, rfl⟩
abbrev main_v129 : Ref sig .tc := ⟨.hbm, 163, rfl⟩
abbrev main_c_19 : Ref sig .tc := ⟨.hbm, 164, rfl⟩
abbrev main_v130 : Ref sig .tc := ⟨.hbm, 165, rfl⟩
abbrev main_v131 : Ref sig .tc := ⟨.hbm, 166, rfl⟩
abbrev main_c_20 : Ref sig .tc := ⟨.hbm, 167, rfl⟩
abbrev main_v132 : Ref sig .tc := ⟨.hbm, 168, rfl⟩
abbrev main_v133 : Ref sig .tc := ⟨.hbm, 169, rfl⟩
abbrev main_v134 : Ref sig .tc := ⟨.hbm, 170, rfl⟩
abbrev main_v135 : Ref sig .tc := ⟨.hbm, 171, rfl⟩
abbrev main_v136 : Ref sig .tc := ⟨.hbm, 172, rfl⟩
abbrev main_v137 : Ref sig .tc := ⟨.hbm, 173, rfl⟩
abbrev main_v138 : Ref sig .tc := ⟨.hbm, 174, rfl⟩
abbrev main_v139 : Ref sig .tc := ⟨.hbm, 175, rfl⟩
abbrev main_cst_21 : Ref sig .tc := ⟨.hbm, 176, rfl⟩
abbrev main_v140 : Ref sig .tc := ⟨.hbm, 177, rfl⟩

abbrev nD : Nat := 1
abbrev τ : Topo := Topo.v7x

variable {F : FTy → Type} [FloatOps F]

class Facts₀ : Prop where
  bcast_S2_S2x2x2_0 : S2.BroadcastsInDim S2x2x2 (![0] : Fin 1 → Fin S2x2x2.rank)
  bcast_S2_S2x2x2_1 : S2.BroadcastsInDim S2x2x2 (![1] : Fin 1 → Fin S2x2x2.rank)
  bcast_S2_S2x2x2_2 : S2.BroadcastsInDim S2x2x2 (![2] : Fin 1 → Fin S2x2x2.rank)
  bcast_S2x2x2_S2x2x2x1_0_1_2 : S2x2x2.BroadcastsInDim S2x2x2x1 (![0, 1, 2] : Fin 3 → Fin S2x2x2x1.rank)
  concatenates_S2x2x2x1_S2x2x2x1_S2x2x2x1_S2x2x2x3_d3 : Shape.Concatenates [S2x2x2x1, S2x2x2x1, S2x2x2x1] S2x2x2x3 3
  shapeCasts_S2x2x2x3_S8x3 : S2x2x2x3.ShapeCasts S8x3
  bcast_S_S500000x3 : S_.BroadcastsInDim S500000x3 (![] : Fin 0 → Fin S500000x3.rank)
  bcast_S500000x3_S500000x1x3_0_2 : S500000x3.BroadcastsInDim S500000x1x3 (![0, 2] : Fin 2 → Fin S500000x1x3.rank)
  bcast_S8x3_S1x8x3_1_2 : S8x3.BroadcastsInDim S1x8x3 (![1, 2] : Fin 2 → Fin S1x8x3.rank)
  bcast_S500000x1x3_S500000x8x3_0_1_2 : S500000x1x3.BroadcastsInDim S500000x8x3 (![0, 1, 2] : Fin 3 → Fin S500000x8x3.rank)
  bcast_S1x8x3_S500000x8x3_0_1_2 : S1x8x3.BroadcastsInDim S500000x8x3 (![0, 1, 2] : Fin 3 → Fin S500000x8x3.rank)
  bcast_S_S500000x8x3 : S_.BroadcastsInDim S500000x8x3 (![] : Fin 0 → Fin S500000x8x3.rank)
  reducesTo_S500000x8x3_S500000x8_d2 : S500000x8x3.ReducesTo [2] S500000x8
  h_S_ : 0 < S_.numel
  slices_S500000x8x3_S500000x8x1_0_0_0 : S500000x8x3.Slices ![0, 0, 0] S500000x8x1
  shapeCasts_S500000x8x1_S500000x8 : S500000x8x1.ShapeCasts S500000x8
  bcast_S_S500000x8 : S_.BroadcastsInDim S500000x8 (![] : Fin 0 → Fin S500000x8.rank)
  slices_S500000x8x3_S500000x8x1_0_0_1 : S500000x8x3.Slices ![0, 0, 1] S500000x8x1
  slices_S500000x8x3_S500000x8x1_0_0_2 : S500000x8x3.Slices ![0, 0, 2] S500000x8x1
  bcast_S500000x8_S500000x8x1_0_1 : S500000x8.BroadcastsInDim S500000x8x1 (![0, 1] : Fin 2 → Fin S500000x8x1.rank)
  concatenates_S500000x8x1_S500000x8x1_S500000x8x1_S500000x8x3_d2 : Shape.Concatenates [S500000x8x1, S500000x8x1, S500000x8x1] S500000x8x3 2
  bcast_S500000x8x1_S500000x8x3_0_1_2 : S500000x8x1.BroadcastsInDim S500000x8x3 (![0, 1, 2] : Fin 3 → Fin S500000x8x3.rank)
  shapeCasts_S500000x8_S4000000 : S500000x8.ShapeCasts S4000000
  bcast_S500000_S500000x1_0 : S500000.BroadcastsInDim S500000x1 (![0] : Fin 1 → Fin S500000x1.rank)
  bcast_S500000x1_S500000x8_0_1 : S500000x1.BroadcastsInDim S500000x8 (![0, 1] : Fin 2 → Fin S500000x8.rank)
  bcast_S500000x3_S500000x8x3_0_2 : S500000x3.BroadcastsInDim S500000x8x3 (![0, 2] : Fin 2 → Fin S500000x8x3.rank)
  shapeCasts_S500000x8x3_S4000000x3 : S500000x8x3.ShapeCasts S4000000x3
  bcast_S4000000_S4000000x1_0 : S4000000.BroadcastsInDim S4000000x1 (![0] : Fin 1 → Fin S4000000x1.rank)
  bcast_S4000000x1_S4000000x3_0_1 : S4000000x1.BroadcastsInDim S4000000x3 (![0, 1] : Fin 2 → Fin S4000000x3.rank)
  bcast_S_S2097152x3 : S_.BroadcastsInDim S2097152x3 (![] : Fin 0 → Fin S2097152x3.rank)
  bcast_S_S4000000 : S_.BroadcastsInDim S4000000 (![] : Fin 0 → Fin S4000000.rank)
  bcast_S_S2097152 : S_.BroadcastsInDim S2097152 (![] : Fin 0 → Fin S2097152.rank)
  bcast_S2097152_S2097152x1_0 : S2097152.BroadcastsInDim S2097152x1 (![0] : Fin 1 → Fin S2097152x1.rank)
  bcast_S2097152x1_S2097152x3_0_1 : S2097152x1.BroadcastsInDim S2097152x3 (![0, 1] : Fin 2 → Fin S2097152x3.rank)
  reducesTo_S500000x8x3_S500000x3_d1 : S500000x8x3.ReducesTo [1] S500000x3
  scatter_S2097152x3_S4000000x1_S4000000x3_1_0_0_1_wf : ScatterDims.WF S2097152x3 S4000000x1 S4000000x3 [1] [0] [0] 1
  scatter_S2097152_S4000000x1_S4000000_n_0_0_1_wf : ScatterDims.WF S2097152 S4000000x1 S4000000 [] [0] [0] 1
  gather_S2097152x3_S500000x8x1_S500000x8x3_2_0_n_n_0_2_13_wf : GatherDims.WF S2097152x3 S500000x8x1 S500000x8x3 [2] [0] [] [0] [] 2 ![1, 3]

variable [Facts₀]

def scatter_S2097152x3_S4000000x1_S4000000x3_1_0_0_1 : ScatterDims S2097152x3 S4000000x1 S4000000x3 where
  updateWindowDims := [1]
  insertedWindowDims := [0]
  scatterDimsToOperandDims := [0]
  indexVectorDim := 1
  wf := scatter_S2097152x3_S4000000x1_S4000000x3_1_0_0_1_wf
def scatter_S2097152_S4000000x1_S4000000_n_0_0_1 : ScatterDims S2097152 S4000000x1 S4000000 where
  updateWindowDims := []
  insertedWindowDims := [0]
  scatterDimsToOperandDims := [0]
  indexVectorDim := 1
  wf := scatter_S2097152_S4000000x1_S4000000_n_0_0_1_wf
def gather_S2097152x3_S500000x8x1_S500000x8x3_2_0_n_n_0_2_13 : GatherDims S2097152x3 S500000x8x1 S500000x8x3 where
  offsetDims := [2]
  collapsedSliceDims := [0]
  operandBatchingDims := []
  startIndicesBatchingDims := []
  startIndexMap := [0]
  indexVectorDim := 2
  sliceSizes := ![1, 3]
  wf := gather_S2097152x3_S500000x8x1_S500000x8x3_2_0_n_n_0_2_13_wf

class Facts : Prop extends Facts₀ where

variable [Facts]
-- ==== Proof.Spec.lean ====
/-
  The mathematics of the particle-to-grid-to-particle transfer, stated once over the extended reals.

  A particle at position (x, y, z) in the unit cube touches the 2 x 2 x 2 nodes around it on a grid of 128 nodes per axis.
  With b = 127 * x on each axis, the base node is floor b; slot k of the stencil (k = 4 ox + 2 oy + oz) is the node
  base + (ox, oy, oz); its weight is the product over the axes of the hat function max(0, 1 - |b - node|), times 1 when the
  node lies inside the grid and 0 otherwise. The node's cell number is ((cx * 128) + cy) * 128 + cz with every coordinate
  clamped into [0, 127].

  Particle to grid: every cell sums, over all (particle, slot) pairs that name it, the weight times the particle's mass
  (the cell's mass) and that times each of the particle's three data channels. A cell's data is its channel sum divided by
  its mass where the mass exceeds a cutoff, and 0 elsewhere.
  Grid to particle: a particle's result in channel j is the sum over its eight slots of the slot's weight times the data of
  the slot's cell.

  Two arrangements of this computation are written below, over the same lane-level functions:
  * "R": particle-major, the cell sums ranging over the 500000 x 8 (particle, slot) pairs;
  * "K": the particles laid out in a 1024 x 512 tile (524288 lanes, the last 24288 of them padding with position, data and
    mass 0), each lane's weight multiplied by 1 on a real particle and 0 on a padding lane, the cell sums ranging over the
    8 x 1024 x 512 (slot, row, column) triples and carrying four channels (three data channels and the mass), the division
    done after the cell's row is fetched.
  That the two give one array is proved elsewhere; here are only the definitions.
-/
import Idealize.ShloMosaic.PureOps.Ideal
import Idealize.ShloMosaic.PureOps.Ideal.Laws
import Idealize.ShloMosaic.Lib.ValueIdx

noncomputable section

namespace Cert.Spec

open Idealize.ShloMosaic Idealize.ShloMosaic.ValueIdx

/-- An ideal float: an extended real. -/
abbrev Fl : Type := Ideal .f32

/-! ## Shapes and arrays given by their coordinates -/

abbrev P3 : Shape := ⟨2, ![500000, 3]⟩
abbrev P1 : Shape := ⟨1, ![500000]⟩
abbrev T3 : Shape := ⟨3, ![3, 1024, 512]⟩
abbrev T2 : Shape := ⟨2, ![1024, 512]⟩
abbrev T8 : Shape := ⟨3, ![8, 1024, 512]⟩
abbrev T48 : Shape := ⟨4, ![4, 8, 1024, 512]⟩

/-- An array of rank 2 from a function of its two coordinates. -/
def arr2 {α : Type} {a b : Nat} (f : Fin a → Fin b → α) : (⟨2, ![a, b]⟩ : Shape).Idx → α := fun y => f (y 0) (y 1)
/-- An array of rank 3 from a function of its three coordinates. -/
def arr3 {α : Type} {a b c : Nat} (f : Fin a → Fin b → Fin c → α) : (⟨3, ![a, b, c]⟩ : Shape).Idx → α :=
  fun y => f (y 0) (y 1) (y 2)
/-- An array of rank 4 from a function of its four coordinates. -/
def arr4 {α : Type} {a b c d : Nat} (f : Fin a → Fin b → Fin c → Fin d → α) : (⟨4, ![a, b, c, d]⟩ : Shape).Idx → α :=
  fun y => f (y 0) (y 1) (y 2) (y 3)

theorem arr2_ix2 {α : Type} {a b : Nat} (f : Fin a → Fin b → α) (i : Fin a) (j : Fin b) : arr2 f (ix2 i j) = f i j := rfl
theorem arr3_ix3 {α : Type} {a b c : Nat} (f : Fin a → Fin b → Fin c → α) (i : Fin a) (j : Fin b) (k : Fin c) :
    arr3 f (ix3 i j k) = f i j k := rfl
theorem arr4_ix4 {α : Type} {a b c d : Nat} (f : Fin a → Fin b → Fin c → Fin d → α) (i : Fin a) (j : Fin b) (k : Fin c)
    (l : Fin d) : arr4 f (ix4 i j k l) = f i j k l := rfl

/-! ## Constants -/

/-- 127: the number of cells per axis. -/
def c127 : Fl := FloatOps.ofBits .f32 0x42FE0000#32
/-- 1. -/
def one : Fl := FloatOps.ofBits .f32 0x3F800000#32
/-- 0. -/
def zero : Fl := FloatOps.ofBits .f32 0x00000000#32
/-- The mass cutoff (the binary32 number nearest 1e-9): the same word in both arrangements, never evaluated. -/
def eps : Fl := FloatOps.ofBits .f32 0x3089705F#32

/-! ## One lane: a particle position's stencil -/

/-- A coordinate in cell units. -/
def bpos (x : Fl) : Fl := FloatOps.mulf x c127
/-- The base node on one axis, as a 32-bit word. -/
def bidx (x : Fl) : BitVec 32 := FloatOps.fptosi 32 (FloatOps.floor (bpos x))
/-- Slot k's offset on axis a: bit (2 - a) of k. -/
def off (k : Fin 8) (a : Fin 3) : BitVec 32 := BitVec.ofNat 32 ((k.val >>> (2 - a.val)) % 2)
/-- Slot k's node on axis a, from the coordinate on that axis. -/
def node (x : Fl) (k : Fin 8) (a : Fin 3) : BitVec 32 := IntOp.addi (bidx x) (off k a)
/-- A node coordinate clamped into the grid. -/
def clip (n : BitVec 32) : BitVec 32 := IntOp.minsi 127#32 (IntOp.maxsi 0#32 n)
/-- The cell number of three node coordinates. -/
def hash3 (n0 n1 n2 : BitVec 32) : BitVec 32 :=
  IntOp.addi (IntOp.muli (IntOp.addi (IntOp.muli (clip n0) 128#32) (clip n1)) 128#32) (clip n2)
/-- Slot k's cell number. -/
def laneHash (x y z : Fl) (k : Fin 8) : BitVec 32 := hash3 (node x k 0) (node y k 1) (node z k 2)
/-- The hat function of one axis at a node. -/
def hat (x : Fl) (n : BitVec 32) : Fl :=
  FloatOps.maximumf zero (FloatOps.subf one (FloatOps.absf (FloatOps.subf (bpos x) (FloatOps.sitofp .f32 n))))
/-- The product of the three axes' hat functions at slot k. -/
def laneHat (x y z : Fl) (k : Fin 8) : Fl :=
  FloatOps.mulf (FloatOps.mulf (hat x (node x k 0)) (hat y (node y k 1))) (hat z (node z k 2))
/-- One axis inside the grid: 0 <= n and n < 128. -/
def inb (n : BitVec 32) : BitVec 1 := IntOp.andi (IntOp.cmpi .sge n 0#32) (IntOp.cmpi .slt n 128#32)
/-- A cell number as the scatter and the gather see it: a negative one is counted from the end. -/
def wrap (h : BitVec 32) : BitVec 32 := Scalar.select (IntOp.cmpi .slt h 0#32) (IntOp.addi h 2097152#32) h
/-- The cell sum of cell c takes the pairs whose (wrapped) cell number, read signed, is c; one outside the table is dropped. -/
def Hit (h : BitVec 32) (c : Fin 2097152) : Prop :=
  0 ≤ (wrap h).toInt ∧ (wrap h).toInt < 2097152 ∧ (wrap h).toInt.toNat = c.val
instance (h : BitVec 32) (c : Fin 2097152) : Decidable (Hit h c) := by unfold Hit; infer_instance
/-- The cell a fetch reads: the (wrapped) cell number read signed and clamped into the table. -/
def gidx (h : BitVec 32) : Fin 2097152 := ⟨min (wrap h).toInt.toNat 2097151, by omega⟩
/-- A cell's channel sum divided by its mass where the mass exceeds the cutoff, 0 elsewhere. -/
def norm (acc wk : Fl) : Fl :=
  Scalar.select (FloatOps.cmpf .ogt wk eps)
    (FloatOps.divf acc (Scalar.select (FloatOps.cmpf .ogt wk eps) wk one)) zero

/-! ## The tiled arrangement ("K") -/

namespace K

/-- Inside the grid on all three axes, the six tests joined in the order x, x, y, y, z, z. -/
def laneValid (x y z : Fl) (k : Fin 8) : BitVec 1 :=
  IntOp.andi (IntOp.andi (IntOp.andi (IntOp.andi (IntOp.andi (IntOp.cmpi .sge (node x k 0) 0#32) (IntOp.cmpi .slt (node x k 0) 128#32))
    (IntOp.cmpi .sge (node y k 1) 0#32)) (IntOp.cmpi .slt (node y k 1) 128#32))
    (IntOp.cmpi .sge (node z k 2) 0#32)) (IntOp.cmpi .slt (node z k 2) 128#32)
/-- The lane number of row r, column cc of the tile, as the body computes it: (row-in-block + block * 128) * 512 + cc. -/
def flat (r : Fin 1024) (cc : Fin 512) : BitVec 32 :=
  IntOp.addi (IntOp.muli (IntOp.addi (BitVec.ofNat 32 (r.val % 128)) (IntOp.muli (BitVec.ofNat 32 (r.val / 128)) 128#32)) 512#32)
    (BitVec.ofNat 32 cc.val)
/-- 1 on a real particle's lane (lane number below 500000), 0 on a padding lane. -/
def real (fl : BitVec 32) : Fl := FloatOps.sitofp .f32 ((IntOp.cmpi .slt fl 500000#32).setWidth 32)
/-- Slot k's weight on a lane. -/
def laneVal (x y z : Fl) (fl : BitVec 32) (k : Fin 8) : Fl :=
  FloatOps.mulf (FloatOps.mulf (laneHat x y z k) (FloatOps.sitofp .f32 ((laneValid x y z k).setWidth 32))) (real fl)
/-- Slot k's weight times the lane's mass. -/
def laneW (x y z : Fl) (fl : BitVec 32) (ms : Fl) (k : Fin 8) : Fl := FloatOps.mulf (laneVal x y z fl k) ms

/-- The cell numbers of a position tile: slot, row, column. -/
def nhArr (X : FVec Ideal T3 .f32) : IVec T8 32 :=
  arr3 fun k r cc => laneHash (X (ix3 0 r cc)) (X (ix3 1 r cc)) (X (ix3 2 r cc)) k
/-- The weights of a position tile. -/
def valArr (X : FVec Ideal T3 .f32) : FVec Ideal T8 .f32 :=
  arr3 fun k r cc => laneVal (X (ix3 0 r cc)) (X (ix3 1 r cc)) (X (ix3 2 r cc)) (flat r cc) k
/-- The four update planes: data channel j times the mass-weight for j < 3, the mass-weight itself for j = 3. -/
def dwArr (X : FVec Ideal T3 .f32) (M : FVec Ideal T2 .f32) (D : FVec Ideal T3 .f32) : FVec Ideal T48 .f32 :=
  arr4 fun j k r cc =>
    if h : j.val < 3 then
      FloatOps.mulf (D (ix3 ⟨j.val, h⟩ r cc)) (laneW (X (ix3 0 r cc)) (X (ix3 1 r cc)) (X (ix3 2 r cc)) (flat r cc) (M (ix2 r cc)) k)
    else laneW (X (ix3 0 r cc)) (X (ix3 1 r cc)) (X (ix3 2 r cc)) (flat r cc) (M (ix2 r cc)) k
/-- Channel j of cell c: 0 plus the sum of the update planes' entries over the (slot, row, column) triples naming c. -/
def cell (NH : IVec T8 32) (DW : FVec Ideal T48 .f32) (c : Fin 2097152) (j : Fin 4) : Fl :=
  zero + ∑ x ∈ Finset.univ.filter (fun x : Fin 8 × Fin 1024 × Fin 512 => Hit (NH (ix3 x.1 x.2.1 x.2.2)) c),
    DW (ix4 j x.1 x.2.1 x.2.2)
/-- The fetched rows: at (channel, slot, row, column) the channel of the cell that slot names. -/
def nvArr (NH : IVec T8 32) (DW : FVec Ideal T48 .f32) : FVec Ideal T48 .f32 :=
  arr4 fun j k r cc => cell NH DW (gidx (NH (ix3 k r cc))) j
/-- One slot's term of the weighted sum in channel j. -/
def term (VAL : FVec Ideal T8 .f32) (NV : FVec Ideal T48 .f32) (j : Fin 3) (r : Fin 1024) (cc : Fin 512) (k : Fin 8) : Fl :=
  FloatOps.mulf (VAL (ix3 k r cc)) (norm (NV (ix4 ⟨j.val, by omega⟩ k r cc)) (NV (ix4 3 k r cc)))
/-- The weighted sum over the eight slots, added in order onto 0. -/
def wsumArr (VAL : FVec Ideal T8 .f32) (NV : FVec Ideal T48 .f32) : FVec Ideal T3 .f32 :=
  arr3 fun j r cc =>
    FloatOps.addf (FloatOps.addf (FloatOps.addf (FloatOps.addf (FloatOps.addf (FloatOps.addf (FloatOps.addf (FloatOps.addf zero
      (term VAL NV j r cc 0)) (term VAL NV j r cc 1)) (term VAL NV j r cc 2)) (term VAL NV j r cc 3))
      (term VAL NV j r cc 4)) (term VAL NV j r cc 5)) (term VAL NV j r cc 6)) (term VAL NV j r cc 7)

/-- What a padding lane holds: the word 0 converted to a float. -/
def padv : Fl := FloatOps.sitofp .f32 (0#32 : BitVec 32)
/-- A per-particle array of three channels laid out channel-major in the 1024 x 512 tile, padded. -/
def tile3 (p : FVec Ideal P3 .f32) : FVec Ideal T3 .f32 :=
  arr3 fun a r cc => if h : r.val * 512 + cc.val < 500000 then p (ix2 ⟨r.val * 512 + cc.val, h⟩ a) else padv
/-- A per-particle array of one channel laid out in the tile, padded. -/
def tile1 (p : FVec Ideal P1 .f32) : FVec Ideal T2 .f32 :=
  arr2 fun r cc => if h : r.val * 512 + cc.val < 500000 then p (ix1 ⟨r.val * 512 + cc.val, h⟩) else padv
/-- The first 500000 lanes of a channel-major tile, particle-major. -/
def untile (O : FVec Ideal T3 .f32) : FVec Ideal P3 .f32 :=
  arr2 fun n j => O (ix3 j ⟨n.val / 512, by omega⟩ ⟨n.val % 512, Nat.mod_lt _ (by decide)⟩)

/-- The tiled arrangement's result. -/
def outArr (pos dat : FVec Ideal P3 .f32) (mass : FVec Ideal P1 .f32) : FVec Ideal P3 .f32 :=
  untile (wsumArr (valArr (tile3 pos))
    (nvArr (nhArr (tile3 pos)) (dwArr (tile3 pos) (tile1 mass) (tile3 dat))))

end K

/-! ## The particle-major arrangement ("R") -/

namespace R

variable (pos dat : FVec Ideal P3 .f32) (mass : FVec Ideal P1 .f32)

/-- Inside the grid on all three axes: 1 joined with the three axes' tests in order. -/
def valid (n : Fin 500000) (k : Fin 8) : BitVec 1 :=
  IntOp.andi (IntOp.andi (IntOp.andi 1#1 (inb (node (pos (ix2 n 0)) k 0))) (inb (node (pos (ix2 n 1)) k 1)))
    (inb (node (pos (ix2 n 2)) k 2))
/-- Slot k's cell number for particle n. -/
def hash (n : Fin 500000) (k : Fin 8) : BitVec 32 := laneHash (pos (ix2 n 0)) (pos (ix2 n 1)) (pos (ix2 n 2)) k
/-- Slot k's weight for particle n. -/
def val (n : Fin 500000) (k : Fin 8) : Fl :=
  FloatOps.mulf (laneHat (pos (ix2 n 0)) (pos (ix2 n 1)) (pos (ix2 n 2)) k) (FloatOps.uitofp .f32 (valid pos n k))
/-- Slot k's weight times the particle's mass. -/
def w (n : Fin 500000) (k : Fin 8) : Fl := FloatOps.mulf (val pos n k) (mass (ix1 n))
/-- The mass of cell c. -/
def cw (c : Fin 2097152) : Fl :=
  zero + ∑ x ∈ Finset.univ.filter (fun x : Fin 500000 × Fin 8 => Hit (hash pos x.1 x.2) c), w pos mass x.1 x.2
/-- Channel j's sum of cell c. -/
def ca (c : Fin 2097152) (j : Fin 3) : Fl :=
  zero + ∑ x ∈ Finset.univ.filter (fun x : Fin 500000 × Fin 8 => Hit (hash pos x.1 x.2) c),
    FloatOps.mulf (dat (ix2 x.1 j)) (w pos mass x.1 x.2)
/-- The particle-major arrangement's result. -/
def outArr : FVec Ideal P3 .f32 :=
  arr2 fun n j => zero + ∑ k : Fin 8,
    FloatOps.mulf (val pos n k) (norm (ca pos dat mass (gidx (hash pos n k)) j) (cw pos mass (gidx (hash pos n k))))

end R

end Cert.Spec

end
-- ==== Proof.K0.lean ====
/-
  The first region: what its eight grid points leave in the three output arrays.
  Block t of each array holds rows 128 t .. 128 t + 127 of the tile; inside a block every stored piece is one slot's plane, a
  lane-by-lane function of the position, mass and data blocks at the same row and column (and, for the weights, of the lane's
  number, which the body computes from the grid position). So each array after the region is one function of the entry arrays.
-/
import proofs.«425829_j66365834658392_3_alg».proof.Proof.FrameKI
import proofs.«425829_j66365834658392_3_alg».proof.Proof.Spec
import Idealize.ShloMosaic.Lib.Pipeline.Value
import Idealize.ShloMosaic.Lib.ValueIdx

noncomputable section

namespace Cert.KernelIdeal.K0

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenP Cert.Spec

variable (V : (c : Dev nD) → (b : Ref sig .tc) → Buf (Elt Ideal) ((c : Thread nD τ).loc b))

/-! ## Reading a block at one lane -/

/-- A 128 x 512 tile stored as a 1 x 128 x 512 piece reads, at (0, r, cc), the tile at (r, cc). -/
theorem up3 {α : Type} (v : S128x512.Idx → α) (h : S128x512.ShapeCasts S1x128x512) (a : Fin 1) (r : Fin 128) (cc : Fin 512) :
    shapeCast S1x128x512 v h (ix3 a r cc) = v (ix2 r cc) :=
  shapeCast_apply v h _ _ (by
    rw [Shape.rowMajor_val_two, Shape.rowMajor_val_three]
    show r.val * 512 + cc.val = (a.val * 128 + r.val) * 512 + cc.val
    have := a.isLt; omega)

/-- A 128 x 512 tile stored as a 1 x 1 x 128 x 512 piece reads, at (0, 0, r, cc), the tile at (r, cc). -/
theorem up4 {α : Type} (v : S128x512.Idx → α) (h : S128x512.ShapeCasts S1x1x128x512) (a b : Fin 1) (r : Fin 128) (cc : Fin 512) :
    shapeCast S1x1x128x512 v h (ix4 a b r cc) = v (ix2 r cc) :=
  shapeCast_apply v h _ _ (by
    rw [Shape.rowMajor_val_two, Shape.rowMajor_val_four]
    show r.val * 512 + cc.val = ((a.val * 1 + b.val) * 128 + r.val) * 512 + cc.val
    have := a.isLt; have := b.isLt; omega)

/-- Plane a of a three-plane block, viewed as a 128 x 512 tile, read at (r, cc). -/
theorem ldP0 (x : Vec Ideal S3x128x512 .f32) (h : S1x128x512.ShapeCasts S128x512) (r : Fin 128) (cc : Fin 512) :
    shapeCast S128x512 (View.ld x r0_0) h (ix2 r cc) = x (ix3 0 r cc) := by
  rw [shapeCast_dropUnit_apply]
  show x _ = x _
  congr 1; funext a; apply Fin.ext
  match a with
  | ⟨0, _⟩ => rfl
  | ⟨1, _⟩ => show 0 + 1 * r.val = r.val; omega
  | ⟨2, _⟩ => show 0 + 1 * cc.val = cc.val; omega
theorem ldP1 (x : Vec Ideal S3x128x512 .f32) (h : S1x128x512.ShapeCasts S128x512) (r : Fin 128) (cc : Fin 512) :
    shapeCast S128x512 (View.ld x r0_1) h (ix2 r cc) = x (ix3 1 r cc) := by
  rw [shapeCast_dropUnit_apply]
  show x _ = x _
  congr 1; funext a; apply Fin.ext
  match a with
  | ⟨0, _⟩ => rfl
  | ⟨1, _⟩ => show 0 + 1 * r.val = r.val; omega
  | ⟨2, _⟩ => show 0 + 1 * cc.val = cc.val; omega
theorem ldP2 (x : Vec Ideal S3x128x512 .f32) (h : S1x128x512.ShapeCasts S128x512) (r : Fin 128) (cc : Fin 512) :
    shapeCast S128x512 (View.ld x r0_2) h (ix2 r cc) = x (ix3 2 r cc) := by
  rw [shapeCast_dropUnit_apply]
  show x _ = x _
  congr 1; funext a; apply Fin.ext
  match a with
  | ⟨0, _⟩ => rfl
  | ⟨1, _⟩ => show 0 + 1 * r.val = r.val; omega
  | ⟨2, _⟩ => show 0 + 1 * cc.val = cc.val; omega

/-- The base node of each axis at a lane of the block. -/
theorem b0_at (x : Vec Ideal S3x128x512 .f32) (r : Fin 128) (cc : Fin 512) :
    k0_pay10 (View.ld x r0_0) (ix2 r cc) = bidx (x (ix3 0 r cc)) := by
  show FloatOps.fptosi 32 (FloatOps.floor (FloatOps.mulf (shapeCast S128x512 (View.ld x r0_0) shapeCasts_S1x128x512_S128x512 (ix2 r cc)) (Scalar.ofBits .f32 0x42FE0000#32 : Ideal .f32))) = _
  rw [ldP0]; rfl
theorem b1_at (x : Vec Ideal S3x128x512 .f32) (r : Fin 128) (cc : Fin 512) :
    k0_pay11 (View.ld x r0_1) (ix2 r cc) = bidx (x (ix3 1 r cc)) := by
  show FloatOps.fptosi 32 (FloatOps.floor (FloatOps.mulf (shapeCast S128x512 (View.ld x r0_1) shapeCasts_S1x128x512_S128x512 (ix2 r cc)) (Scalar.ofBits .f32 0x42FE0000#32 : Ideal .f32))) = _
  rw [ldP1]; rfl
theorem b2_at (x : Vec Ideal S3x128x512 .f32) (r : Fin 128) (cc : Fin 512) :
    k0_pay12 (View.ld x r0_2) (ix2 r cc) = bidx (x (ix3 2 r cc)) := by
  show FloatOps.fptosi 32 (FloatOps.floor (FloatOps.mulf (shapeCast S128x512 (View.ld x r0_2) shapeCasts_S1x128x512_S128x512 (ix2 r cc)) (Scalar.ofBits .f32 0x42FE0000#32 : Ideal .f32))) = _
  rw [ldP2]; rfl

/-- Slot k's piece of an 8-slot block sits at (k, r, cc). -/
theorem emb3 (k : Nat) (hk : k < 8) (inb : ∀ a, (![k, 0, 0] : Fin 3 → Nat) a + S1x128x512.size a ≤ S8x128x512.size a)
    (a : Fin 1) (r : Fin 128) (cc : Fin 512) :
    (Rect.unit (s := S8x128x512) ![k, 0, 0] S1x128x512.size inb).emb (ix3 a r cc) = ix3 (⟨k, hk⟩ : Fin 8) r cc := by
  funext d; apply Fin.ext
  match d with
  | ⟨0, _⟩ => show k + 1 * a.val = k; have := a.isLt; omega
  | ⟨1, _⟩ => show 0 + 1 * r.val = r.val; omega
  | ⟨2, _⟩ => show 0 + 1 * cc.val = cc.val; omega

/-! ## The cell numbers of a block -/

/-- The cell numbers of a position block. -/
def nhBlk (x0 : Vec Ideal S3x128x512 .f32) : Vec Ideal S8x128x512 .i32 :=
  arr3 fun k r cc => laneHash (x0 (ix3 0 r cc)) (x0 (ix3 1 r cc)) (x0 (ix3 2 r cc)) k

theorem nhBlk_at (x0 : Vec Ideal S3x128x512 .f32) (k : Fin 8) (r : Fin 128) (cc : Fin 512) :
    nhBlk x0 (ix3 k r cc) = laneHash (x0 (ix3 0 r cc)) (x0 (ix3 1 r cc)) (x0 (ix3 2 r cc)) k := rfl
theorem nh_slot0 (b0 b1 b2 : IVec S128x512 32) (a : Fin 1) (r : Fin 128) (cc : Fin 512) :
    (k0_pay23 (k0_pay19 b2) (k0_pay20 b0 b1) 128#32 : IVec S1x128x512 32) (ix3 a r cc)
      = hash3 (IntOp.addi (b0 (ix2 r cc)) 0#32) (IntOp.addi (b1 (ix2 r cc)) 0#32) (IntOp.addi (b2 (ix2 r cc)) 0#32) := by
  unfold k0_pay23
  refine (up3 _ _ a r cc).trans ?_
  rfl
theorem nh_piece0 (x0 : Vec Ideal S3x128x512 .f32) (x : S1x128x512.Idx) :
    (k0_pay23 (k0_pay19 (k0_pay12 (View.ld x0 r0_2))) (k0_pay20 (k0_pay10 (View.ld x0 r0_0)) (k0_pay11 (View.ld x0 r0_1))) 128#32 : IVec S1x128x512 32) x = nhBlk x0 (r0_4.emb x) := by
  obtain ⟨a, r, cc, rfl⟩ : ∃ a r cc, x = ix3 a r cc := ⟨x 0, x 1, x 2, eq_ix3 x⟩
  rw [nh_slot0, b0_at, b1_at, b2_at, emb3 0 (by omega), nhBlk_at]
  rfl

theorem nh_slot1 (b0 b1 b2 : IVec S128x512 32) (a : Fin 1) (r : Fin 128) (cc : Fin 512) :
    (k0_pay36 (k0_pay33 (k0_pay29 b0) (k0_pay30 b1) (k0_pay31 b2) 0#32 127#32) : IVec S1x128x512 32) (ix3 a r cc)
      = hash3 (IntOp.addi (b0 (ix2 r cc)) 0#32) (IntOp.addi (b1 (ix2 r cc)) 0#32) (IntOp.addi (b2 (ix2 r cc)) 1#32) := by
  unfold k0_pay36
  refine (up3 _ _ a r cc).trans ?_
  rfl
theorem nh_piece1 (x0 : Vec Ideal S3x128x512 .f32) (x : S1x128x512.Idx) :
    (k0_pay36 (k0_pay33 (k0_pay29 (k0_pay10 (View.ld x0 r0_0))) (k0_pay30 (k0_pay11 (View.ld x0 r0_1))) (k0_pay31 (k0_pay12 (View.ld x0 r0_2))) 0#32 127#32) : IVec S1x128x512 32) x = nhBlk x0 (r0_9.emb x) := by
  obtain ⟨a, r, cc, rfl⟩ : ∃ a r cc, x = ix3 a r cc := ⟨x 0, x 1, x 2, eq_ix3 x⟩
  rw [nh_slot1, b0_at, b1_at, b2_at, emb3 1 (by omega), nhBlk_at]
  rfl

theorem nh_slot2 (b0 b1 b2 : IVec S128x512 32) (a : Fin 1) (r : Fin 128) (cc : Fin 512) :
    (k0_pay53 (k0_pay47 (k0_pay42 b0) (k0_pay43 b1) (k0_pay44 b2)) : IVec S1x128x512 32) (ix3 a r cc)
      = hash3 (IntOp.addi (b0 (ix2 r cc)) 0#32) (IntOp.addi (b1 (ix2 r cc)) 1#32) (IntOp.addi (b2 (ix2 r cc)) 0#32) := by
  unfold k0_pay53
  refine (up3 _ _ a r cc).trans ?_
  rfl
theorem nh_piece2 (x0 : Vec Ideal S3x128x512 .f32) (x : S1x128x512.Idx) :
    (k0_pay53 (k0_pay47 (k0_pay42 (k0_pay10 (View.ld x0 r0_0))) (k0_pay43 (k0_pay11 (View.ld x0 r0_1))) (k0_pay44 (k0_pay12 (View.ld x0 r0_2)))) : IVec S1x128x512 32) x = nhBlk x0 (r0_14.emb x) := by
  obtain ⟨a, r, cc, rfl⟩ : ∃ a r cc, x = ix3 a r cc := ⟨x 0, x 1, x 2, eq_ix3 x⟩
  rw [nh_slot2, b0_at, b1_at, b2_at, emb3 2 (by omega), nhBlk_at]
  rfl

theorem nh_slot3 (b0 b1 b2 : IVec S128x512 32) (a : Fin 1) (r : Fin 128) (cc : Fin 512) :
    (k0_pay69 (k0_pay63 b0) (k0_pay64 b1) (k0_pay65 b2) k0_pay66 : IVec S1x128x512 32) (ix3 a r cc)
      = hash3 (IntOp.addi (b0 (ix2 r cc)) 0#32) (IntOp.addi (b1 (ix2 r cc)) 1#32) (IntOp.addi (b2 (ix2 r cc)) 1#32) := by
  unfold k0_pay69
  refine (up3 _ _ a r cc).trans ?_
  rfl
theorem nh_piece3 (x0 : Vec Ideal S3x128x512 .f32) (x : S1x128x512.Idx) :
    (k0_pay69 (k0_pay63 (k0_pay10 (View.ld x0 r0_0))) (k0_pay64 (k0_pay11 (View.ld x0 r0_1))) (k0_pay65 (k0_pay12 (View.ld x0 r0_2))) k0_pay66 : IVec S1x128x512 32) x = nhBlk x0 (r0_19.emb x) := by
  obtain ⟨a, r, cc, rfl⟩ : ∃ a r cc, x = ix3 a r cc := ⟨x 0, x 1, x 2, eq_ix3 x⟩
  rw [nh_slot3, b0_at, b1_at, b2_at, emb3 3 (by omega), nhBlk_at]
  rfl

theorem nh_slot4 (b0 b1 b2 : IVec S128x512 32) (a : Fin 1) (r : Fin 128) (cc : Fin 512) :
    (k0_pay84 (k0_pay81 (k0_pay76 b0) (k0_pay77 b1) (k0_pay78 b2)) : IVec S1x128x512 32) (ix3 a r cc)
      = hash3 (IntOp.addi (b0 (ix2 r cc)) 1#32) (IntOp.addi (b1 (ix2 r cc)) 0#32) (IntOp.addi (b2 (ix2 r cc)) 0#32) := by
  unfold k0_pay84
  refine (up3 _ _ a r cc).trans ?_
  rfl
theorem nh_piece4 (x0 : Vec Ideal S3x128x512 .f32) (x : S1x128x512.Idx) :
    (k0_pay84 (k0_pay81 (k0_pay76 (k0_pay10 (View.ld x0 r0_0))) (k0_pay77 (k0_pay11 (View.ld x0 r0_1))) (k0_pay78 (k0_pay12 (View.ld x0 r0_2)))) : IVec S1x128x512 32) x = nhBlk x0 (r0_24.emb x) := by
  obtain ⟨a, r, cc, rfl⟩ : ∃ a r cc, x = ix3 a r cc := ⟨x 0, x 1, x 2, eq_ix3 x⟩
  rw [nh_slot4, b0_at, b1_at, b2_at, emb3 4 (by omega), nhBlk_at]
  rfl

theorem nh_slot5 (b0 b1 b2 : IVec S128x512 32) (a : Fin 1) (r : Fin 128) (cc : Fin 512) :
    (k0_pay101 (k0_pay94 (k0_pay90 b0) (k0_pay91 b1) (k0_pay92 b2)) : IVec S1x128x512 32) (ix3 a r cc)
      = hash3 (IntOp.addi (b0 (ix2 r cc)) 1#32) (IntOp.addi (b1 (ix2 r cc)) 0#32) (IntOp.addi (b2 (ix2 r cc)) 1#32) := by
  unfold k0_pay101
  refine (up3 _ _ a r cc).trans ?_
  rfl
theorem nh_piece5 (x0 : Vec Ideal S3x128x512 .f32) (x : S1x128x512.Idx) :
    (k0_pay101 (k0_pay94 (k0_pay90 (k0_pay10 (View.ld x0 r0_0))) (k0_pay91 (k0_pay11 (View.ld x0 r0_1))) (k0_pay92 (k0_pay12 (View.ld x0 r0_2)))) : IVec S1x128x512 32) x = nhBlk x0 (r0_29.emb x) := by
  obtain ⟨a, r, cc, rfl⟩ : ∃ a r cc, x = ix3 a r cc := ⟨x 0, x 1, x 2, eq_ix3 x⟩
  rw [nh_slot5, b0_at, b1_at, b2_at, emb3 5 (by omega), nhBlk_at]
  rfl

theorem nh_slot6 (b0 b1 b2 : IVec S128x512 32) (a : Fin 1) (r : Fin 128) (cc : Fin 512) :
    (k0_pay118 (k0_pay112 b0) (k0_pay113 b1) (k0_pay114 b2) k0_pay115 : IVec S1x128x512 32) (ix3 a r cc)
      = hash3 (IntOp.addi (b0 (ix2 r cc)) 1#32) (IntOp.addi (b1 (ix2 r cc)) 1#32) (IntOp.addi (b2 (ix2 r cc)) 0#32) := by
  unfold k0_pay118
  refine (up3 _ _ a r cc).trans ?_
  rfl
theorem nh_piece6 (x0 : Vec Ideal S3x128x512 .f32) (x : S1x128x512.Idx) :
    (k0_pay118 (k0_pay112 (k0_pay10 (View.ld x0 r0_0))) (k0_pay113 (k0_pay11 (View.ld x0 r0_1))) (k0_pay114 (k0_pay12 (View.ld x0 r0_2))) k0_pay115 : IVec S1x128x512 32) x = nhBlk x0 (r0_34.emb x) := by
  obtain ⟨a, r, cc, rfl⟩ : ∃ a r cc, x = ix3 a r cc := ⟨x 0, x 1, x 2, eq_ix3 x⟩
  rw [nh_slot6, b0_at, b1_at, b2_at, emb3 6 (by omega), nhBlk_at]
  rfl

theorem nh_slot7 (b0 b1 b2 : IVec S128x512 32) (a : Fin 1) (r : Fin 128) (cc : Fin 512) :
    (k0_pay134 (k0_pay129 (k0_pay125 b0) (k0_pay126 b1) (k0_pay127 b2)) : IVec S1x128x512 32) (ix3 a r cc)
      = hash3 (IntOp.addi (b0 (ix2 r cc)) 1#32) (IntOp.addi (b1 (ix2 r cc)) 1#32) (IntOp.addi (b2 (ix2 r cc)) 1#32) := by
  unfold k0_pay134
  refine (up3 _ _ a r cc).trans ?_
  rfl
theorem nh_piece7 (x0 : Vec Ideal S3x128x512 .f32) (x : S1x128x512.Idx) :
    (k0_pay134 (k0_pay129 (k0_pay125 (k0_pay10 (View.ld x0 r0_0))) (k0_pay126 (k0_pay11 (View.ld x0 r0_1))) (k0_pay127 (k0_pay12 (View.ld x0 r0_2)))) : IVec S1x128x512 32) x = nhBlk x0 (r0_39.emb x) := by
  obtain ⟨a, r, cc, rfl⟩ : ∃ a r cc, x = ix3 a r cc := ⟨x 0, x 1, x 2, eq_ix3 x⟩
  rw [nh_slot7, b0_at, b1_at, b2_at, emb3 7 (by omega), nhBlk_at]
  rfl

/-- The cell-number buffer after the body is the block's cell numbers. -/
theorem out3_eq (x0 : Vec Ideal S3x128x512 .f32) (x1 : Vec Ideal S128x512 .f32) (x2 : Vec Ideal S3x128x512 .f32) :
    out0_3 x0 x1 x2 = nhBlk x0 := by
  funext y
  unfold out0_3
  refine View.canon_apply_of_pieces (nhBlk x0) _ ?_ y (cover0_3 _ _ _ _ _ _ _ _ y)
  intro p hp x
  simp only [List.mem_cons, List.not_mem_nil, or_false] at hp
  rcases hp with rfl | rfl | rfl | rfl | rfl | rfl | rfl | rfl
  exacts [nh_piece7 x0 x, nh_piece6 x0 x, nh_piece5 x0 x, nh_piece4 x0 x, nh_piece3 x0 x, nh_piece2 x0 x, nh_piece1 x0 x, nh_piece0 x0 x]

/-! ## The weights of a block -/

/-- The cell-unit coordinate of each axis at a lane of the block. -/
theorem f0_at (x : Vec Ideal S3x128x512 .f32) (r : Fin 128) (cc : Fin 512) :
    k0_pay7 (View.ld x r0_0) (ix2 r cc) = bpos (x (ix3 0 r cc)) := by
  show FloatOps.mulf (shapeCast S128x512 (View.ld x r0_0) shapeCasts_S1x128x512_S128x512 (ix2 r cc)) (Scalar.ofBits .f32 0x42FE0000#32 : Ideal .f32) = _
  rw [ldP0]; rfl
theorem f1_at (x : Vec Ideal S3x128x512 .f32) (r : Fin 128) (cc : Fin 512) :
    k0_pay8 (View.ld x r0_1) (ix2 r cc) = bpos (x (ix3 1 r cc)) := by
  show FloatOps.mulf (shapeCast S128x512 (View.ld x r0_1) shapeCasts_S1x128x512_S128x512 (ix2 r cc)) (Scalar.ofBits .f32 0x42FE0000#32 : Ideal .f32) = _
  rw [ldP1]; rfl
theorem f2_at (x : Vec Ideal S3x128x512 .f32) (r : Fin 128) (cc : Fin 512) :
    k0_pay9 (View.ld x r0_2) (ix2 r cc) = bpos (x (ix3 2 r cc)) := by
  show FloatOps.mulf (shapeCast S128x512 (View.ld x r0_2) shapeCasts_S1x128x512_S128x512 (ix2 r cc)) (Scalar.ofBits .f32 0x42FE0000#32 : Ideal .f32) = _
  rw [ldP2]; rfl

/-- The lane number the body computes at row r, column cc of the block of grid coordinate tt. -/
def flatB (tt : Nat) (r : Fin 128) (cc : Fin 512) : BitVec 32 :=
  IntOp.addi (IntOp.muli (IntOp.addi (BitVec.ofNat 32 r.val) (IntOp.muli (BitVec.ofNat 32 tt) 128#32)) 512#32) (BitVec.ofNat 32 cc.val)

/-- The real-particle factor at a lane of the block. -/
theorem m_at (i : grid0.Coords) (r : Fin 128) (cc : Fin 512) :
    k0_pay14 (F := Ideal) (k0_pay13 i) (ix2 r cc) = K.real (flatB (i 0).val r cc) := by
  show FloatOps.sitofp .f32 ((IntOp.cmpi .slt (IntOp.addi (IntOp.muli (IntOp.addi (iota .tc S128x512 32 [0] iota_S128x512_d0_w32 (ix2 r cc))
    (Scalar.muli (BitVec.ofNat 32 (i 0).val) 128#32)) 512#32) (iota .tc S128x512 32 [1] iota_S128x512_d1_w32 (ix2 r cc))) 500000#32).setWidth 32) = _
  rw [iota_single_apply, iota_single_apply]
  rfl

/-- The hat function of one axis, from the coordinate in cell units. -/
def hatB (b : Fl) (n : BitVec 32) : Fl :=
  FloatOps.maximumf zero (FloatOps.subf one (FloatOps.absf (FloatOps.subf b (FloatOps.sitofp .f32 n))))
/-- Three nodes inside the grid: the six tests joined in the order x, x, y, y, z, z. -/
def validG (n0 n1 n2 : BitVec 32) : BitVec 1 :=
  IntOp.andi (IntOp.andi (IntOp.andi (IntOp.andi (IntOp.andi (IntOp.cmpi .sge n0 0#32) (IntOp.cmpi .slt n0 128#32))
    (IntOp.cmpi .sge n1 0#32)) (IntOp.cmpi .slt n1 128#32)) (IntOp.cmpi .sge n2 0#32)) (IntOp.cmpi .slt n2 128#32)
/-- A slot's weight from the three cell-unit coordinates, the three nodes and the real-particle factor. -/
def valG (bx by' bz : Fl) (n0 n1 n2 : BitVec 32) (re : Fl) : Fl :=
  FloatOps.mulf (FloatOps.mulf (FloatOps.mulf (FloatOps.mulf (hatB bx n0) (hatB by' n1)) (hatB bz n2))
    (FloatOps.sitofp .f32 ((validG n0 n1 n2).setWidth 32))) re

/-- The weights of a position block at grid coordinate tt. -/
def valBlk (tt : Nat) (x0 : Vec Ideal S3x128x512 .f32) : Vec Ideal S8x128x512 .f32 :=
  arr3 fun k r cc => K.laneVal (x0 (ix3 0 r cc)) (x0 (ix3 1 r cc)) (x0 (ix3 2 r cc)) (flatB tt r cc) k
theorem valBlk_at (tt : Nat) (x0 : Vec Ideal S3x128x512 .f32) (k : Fin 8) (r : Fin 128) (cc : Fin 512) :
    valBlk tt x0 (ix3 k r cc) = K.laneVal (x0 (ix3 0 r cc)) (x0 (ix3 1 r cc)) (x0 (ix3 2 r cc)) (flatB tt r cc) k := rfl
theorem val_slot0 (f0 f1 f2 m : FVec Ideal S128x512 .f32) (b0 b1 b2 : IVec S128x512 32) (a : Fin 1) (r : Fin 128) (cc : Fin 512) :
    (k0_pay24 f0 f1 f2 m (k0_pay15 b0) (k0_pay16 b1) (k0_pay17 b2) (k0_pay18 b0 b1 b2) : FVec Ideal S1x128x512 .f32) (ix3 a r cc)
      = valG (f0 (ix2 r cc)) (f1 (ix2 r cc)) (f2 (ix2 r cc)) (IntOp.addi (b0 (ix2 r cc)) 0#32) (IntOp.addi (b1 (ix2 r cc)) 0#32) (IntOp.addi (b2 (ix2 r cc)) 0#32) (m (ix2 r cc)) := by
  unfold k0_pay24
  refine (up3 _ _ a r cc).trans ?_
  rfl
theorem val_piece0 (i : grid0.Coords) (x0 : Vec Ideal S3x128x512 .f32) (x : S1x128x512.Idx) :
    (k0_pay24 (k0_pay7 (View.ld x0 r0_0)) (k0_pay8 (View.ld x0 r0_1)) (k0_pay9 (View.ld x0 r0_2)) (k0_pay14 (F := Ideal) (k0_pay13 i)) (k0_pay15 (k0_pay10 (View.ld x0 r0_0))) (k0_pay16 (k0_pay11 (View.ld x0 r0_1))) (k0_pay17 (k0_pay12 (View.ld x0 r0_2))) (k0_pay18 (k0_pay10 (View.ld x0 r0_0)) (k0_pay11 (View.ld x0 r0_1)) (k0_pay12 (View.ld x0 r0_2))) : FVec Ideal S1x128x512 .f32) x = valBlk (i 0).val x0 (r0_4.emb x) := by
  obtain ⟨a, r, cc, rfl⟩ : ∃ a r cc, x = ix3 a r cc := ⟨x 0, x 1, x 2, eq_ix3 x⟩
  rw [val_slot0, f0_at, f1_at, f2_at, b0_at, b1_at, b2_at, m_at, emb3 0 (by omega), valBlk_at]
  rfl

theorem val_slot1 (f0 f1 f2 m : FVec Ideal S128x512 .f32) (b0 b1 b2 : IVec S128x512 32) (a : Fin 1) (r : Fin 128) (cc : Fin 512) :
    (k0_pay37 (k0_pay34 f0 f1 f2 m (k0_pay29 b0) (k0_pay30 b1) (k0_pay31 b2) (k0_pay32 b0 b1 b2)) : FVec Ideal S1x128x512 .f32) (ix3 a r cc)
      = valG (f0 (ix2 r cc)) (f1 (ix2 r cc)) (f2 (ix2 r cc)) (IntOp.addi (b0 (ix2 r cc)) 0#32) (IntOp.addi (b1 (ix2 r cc)) 0#32) (IntOp.addi (b2 (ix2 r cc)) 1#32) (m (ix2 r cc)) := by
  unfold k0_pay37
  refine (up3 _ _ a r cc).trans ?_
  rfl
theorem val_piece1 (i : grid0.Coords) (x0 : Vec Ideal S3x128x512 .f32) (x : S1x128x512.Idx) :
    (k0_pay37 (k0_pay34 (k0_pay7 (View.ld x0 r0_0)) (k0_pay8 (View.ld x0 r0_1)) (k0_pay9 (View.ld x0 r0_2)) (k0_pay14 (F := Ideal) (k0_pay13 i)) (k0_pay29 (k0_pay10 (View.ld x0 r0_0))) (k0_pay30 (k0_pay11 (View.ld x0 r0_1))) (k0_pay31 (k0_pay12 (View.ld x0 r0_2))) (k0_pay32 (k0_pay10 (View.ld x0 r0_0)) (k0_pay11 (View.ld x0 r0_1)) (k0_pay12 (View.ld x0 r0_2)))) : FVec Ideal S1x128x512 .f32) x = valBlk (i 0).val x0 (r0_9.emb x) := by
  obtain ⟨a, r, cc, rfl⟩ : ∃ a r cc, x = ix3 a r cc := ⟨x 0, x 1, x 2, eq_ix3 x⟩
  rw [val_slot1, f0_at, f1_at, f2_at, b0_at, b1_at, b2_at, m_at, emb3 1 (by omega), valBlk_at]
  rfl

theorem val_slot2 (f0 f1 f2 m : FVec Ideal S128x512 .f32) (b0 b1 b2 : IVec S128x512 32) (a : Fin 1) (r : Fin 128) (cc : Fin 512) :
    (k0_pay54 m (k0_pay46 (k0_pay42 b0) (k0_pay43 b1) (k0_pay44 b2) (k0_pay45 b0) 128#32) (k0_pay48 f2 (k0_pay44 b2)) (k0_pay49 f0 (k0_pay42 b0)) (k0_pay50 f1 (k0_pay43 b1)) (Scalar.ofBits .f32 0x3F800000#32) : FVec Ideal S1x128x512 .f32) (ix3 a r cc)
      = valG (f0 (ix2 r cc)) (f1 (ix2 r cc)) (f2 (ix2 r cc)) (IntOp.addi (b0 (ix2 r cc)) 0#32) (IntOp.addi (b1 (ix2 r cc)) 1#32) (IntOp.addi (b2 (ix2 r cc)) 0#32) (m (ix2 r cc)) := by
  unfold k0_pay54
  refine (up3 _ _ a r cc).trans ?_
  rfl
theorem val_piece2 (i : grid0.Coords) (x0 : Vec Ideal S3x128x512 .f32) (x : S1x128x512.Idx) :
    (k0_pay54 (k0_pay14 (F := Ideal) (k0_pay13 i)) (k0_pay46 (k0_pay42 (k0_pay10 (View.ld x0 r0_0))) (k0_pay43 (k0_pay11 (View.ld x0 r0_1))) (k0_pay44 (k0_pay12 (View.ld x0 r0_2))) (k0_pay45 (k0_pay10 (View.ld x0 r0_0))) 128#32) (k0_pay48 (k0_pay9 (View.ld x0 r0_2)) (k0_pay44 (k0_pay12 (View.ld x0 r0_2)))) (k0_pay49 (k0_pay7 (View.ld x0 r0_0)) (k0_pay42 (k0_pay10 (View.ld x0 r0_0)))) (k0_pay50 (k0_pay8 (View.ld x0 r0_1)) (k0_pay43 (k0_pay11 (View.ld x0 r0_1)))) (Scalar.ofBits .f32 0x3F800000#32) : FVec Ideal S1x128x512 .f32) x = valBlk (i 0).val x0 (r0_14.emb x) := by
  obtain ⟨a, r, cc, rfl⟩ : ∃ a r cc, x = ix3 a r cc := ⟨x 0, x 1, x 2, eq_ix3 x⟩
  rw [val_slot2, f0_at, f1_at, f2_at, b0_at, b1_at, b2_at, m_at, emb3 2 (by omega), valBlk_at]
  rfl

theorem val_slot3 (f0 f1 f2 m : FVec Ideal S128x512 .f32) (b0 b1 b2 : IVec S128x512 32) (a : Fin 1) (r : Fin 128) (cc : Fin 512) :
    (k0_pay70 f0 f1 f2 m (k0_pay59 b0) (k0_pay60 b1) (k0_pay61 b2) (k0_pay62 b0 b1 b2) : FVec Ideal S1x128x512 .f32) (ix3 a r cc)
      = valG (f0 (ix2 r cc)) (f1 (ix2 r cc)) (f2 (ix2 r cc)) (IntOp.addi (b0 (ix2 r cc)) 0#32) (IntOp.addi (b1 (ix2 r cc)) 1#32) (IntOp.addi (b2 (ix2 r cc)) 1#32) (m (ix2 r cc)) := by
  unfold k0_pay70
  refine (up3 _ _ a r cc).trans ?_
  rfl
theorem val_piece3 (i : grid0.Coords) (x0 : Vec Ideal S3x128x512 .f32) (x : S1x128x512.Idx) :
    (k0_pay70 (k0_pay7 (View.ld x0 r0_0)) (k0_pay8 (View.ld x0 r0_1)) (k0_pay9 (View.ld x0 r0_2)) (k0_pay14 (F := Ideal) (k0_pay13 i)) (k0_pay59 (k0_pay10 (View.ld x0 r0_0))) (k0_pay60 (k0_pay11 (View.ld x0 r0_1))) (k0_pay61 (k0_pay12 (View.ld x0 r0_2))) (k0_pay62 (k0_pay10 (View.ld x0 r0_0)) (k0_pay11 (View.ld x0 r0_1)) (k0_pay12 (View.ld x0 r0_2))) : FVec Ideal S1x128x512 .f32) x = valBlk (i 0).val x0 (r0_19.emb x) := by
  obtain ⟨a, r, cc, rfl⟩ : ∃ a r cc, x = ix3 a r cc := ⟨x 0, x 1, x 2, eq_ix3 x⟩
  rw [val_slot3, f0_at, f1_at, f2_at, b0_at, b1_at, b2_at, m_at, emb3 3 (by omega), valBlk_at]
  rfl

theorem val_slot4 (f0 f1 f2 m : FVec Ideal S128x512 .f32) (b0 b1 b2 : IVec S128x512 32) (a : Fin 1) (r : Fin 128) (cc : Fin 512) :
    (k0_pay85 (k0_pay82 f0 f1 f2 m (k0_pay76 b0) (k0_pay77 b1) (k0_pay78 b2) (k0_pay79 b0 b1 b2) (k0_pay80 b2)) : FVec Ideal S1x128x512 .f32) (ix3 a r cc)
      = valG (f0 (ix2 r cc)) (f1 (ix2 r cc)) (f2 (ix2 r cc)) (IntOp.addi (b0 (ix2 r cc)) 1#32) (IntOp.addi (b1 (ix2 r cc)) 0#32) (IntOp.addi (b2 (ix2 r cc)) 0#32) (m (ix2 r cc)) := by
  unfold k0_pay85
  refine (up3 _ _ a r cc).trans ?_
  rfl
theorem val_piece4 (i : grid0.Coords) (x0 : Vec Ideal S3x128x512 .f32) (x : S1x128x512.Idx) :
    (k0_pay85 (k0_pay82 (k0_pay7 (View.ld x0 r0_0)) (k0_pay8 (View.ld x0 r0_1)) (k0_pay9 (View.ld x0 r0_2)) (k0_pay14 (F := Ideal) (k0_pay13 i)) (k0_pay76 (k0_pay10 (View.ld x0 r0_0))) (k0_pay77 (k0_pay11 (View.ld x0 r0_1))) (k0_pay78 (k0_pay12 (View.ld x0 r0_2))) (k0_pay79 (k0_pay10 (View.ld x0 r0_0)) (k0_pay11 (View.ld x0 r0_1)) (k0_pay12 (View.ld x0 r0_2))) (k0_pay80 (k0_pay12 (View.ld x0 r0_2)))) : FVec Ideal S1x128x512 .f32) x = valBlk (i 0).val x0 (r0_24.emb x) := by
  obtain ⟨a, r, cc, rfl⟩ : ∃ a r cc, x = ix3 a r cc := ⟨x 0, x 1, x 2, eq_ix3 x⟩
  rw [val_slot4, f0_at, f1_at, f2_at, b0_at, b1_at, b2_at, m_at, emb3 4 (by omega), valBlk_at]
  rfl

theorem val_slot5 (f0 f1 f2 m : FVec Ideal S128x512 .f32) (b0 b1 b2 : IVec S128x512 32) (a : Fin 1) (r : Fin 128) (cc : Fin 512) :
    (k0_pay102 m (k0_pay93 (k0_pay90 b0) (k0_pay91 b1) (k0_pay92 b2) 0#32) (k0_pay95 f1 (k0_pay91 b1)) (k0_pay96 f2 (k0_pay92 b2)) (k0_pay97 f0 (k0_pay90 b0)) (k0_pay98 (F := Ideal)) : FVec Ideal S1x128x512 .f32) (ix3 a r cc)
      = valG (f0 (ix2 r cc)) (f1 (ix2 r cc)) (f2 (ix2 r cc)) (IntOp.addi (b0 (ix2 r cc)) 1#32) (IntOp.addi (b1 (ix2 r cc)) 0#32) (IntOp.addi (b2 (ix2 r cc)) 1#32) (m (ix2 r cc)) := by
  unfold k0_pay102
  refine (up3 _ _ a r cc).trans ?_
  rfl
theorem val_piece5 (i : grid0.Coords) (x0 : Vec Ideal S3x128x512 .f32) (x : S1x128x512.Idx) :
    (k0_pay102 (k0_pay14 (F := Ideal) (k0_pay13 i)) (k0_pay93 (k0_pay90 (k0_pay10 (View.ld x0 r0_0))) (k0_pay91 (k0_pay11 (View.ld x0 r0_1))) (k0_pay92 (k0_pay12 (View.ld x0 r0_2))) 0#32) (k0_pay95 (k0_pay8 (View.ld x0 r0_1)) (k0_pay91 (k0_pay11 (View.ld x0 r0_1)))) (k0_pay96 (k0_pay9 (View.ld x0 r0_2)) (k0_pay92 (k0_pay12 (View.ld x0 r0_2)))) (k0_pay97 (k0_pay7 (View.ld x0 r0_0)) (k0_pay90 (k0_pay10 (View.ld x0 r0_0)))) (k0_pay98 (F := Ideal)) : FVec Ideal S1x128x512 .f32) x = valBlk (i 0).val x0 (r0_29.emb x) := by
  obtain ⟨a, r, cc, rfl⟩ : ∃ a r cc, x = ix3 a r cc := ⟨x 0, x 1, x 2, eq_ix3 x⟩
  rw [val_slot5, f0_at, f1_at, f2_at, b0_at, b1_at, b2_at, m_at, emb3 5 (by omega), valBlk_at]
  rfl

theorem val_slot6 (f0 f1 f2 m : FVec Ideal S128x512 .f32) (b0 b1 b2 : IVec S128x512 32) (a : Fin 1) (r : Fin 128) (cc : Fin 512) :
    (k0_pay119 f0 f1 f2 m (k0_pay108 b0) (k0_pay109 b1) (k0_pay110 b2) (k0_pay111 b0 b1 b2) : FVec Ideal S1x128x512 .f32) (ix3 a r cc)
      = valG (f0 (ix2 r cc)) (f1 (ix2 r cc)) (f2 (ix2 r cc)) (IntOp.addi (b0 (ix2 r cc)) 1#32) (IntOp.addi (b1 (ix2 r cc)) 1#32) (IntOp.addi (b2 (ix2 r cc)) 0#32) (m (ix2 r cc)) := by
  unfold k0_pay119
  refine (up3 _ _ a r cc).trans ?_
  rfl
theorem val_piece6 (i : grid0.Coords) (x0 : Vec Ideal S3x128x512 .f32) (x : S1x128x512.Idx) :
    (k0_pay119 (k0_pay7 (View.ld x0 r0_0)) (k0_pay8 (View.ld x0 r0_1)) (k0_pay9 (View.ld x0 r0_2)) (k0_pay14 (F := Ideal) (k0_pay13 i)) (k0_pay108 (k0_pay10 (View.ld x0 r0_0))) (k0_pay109 (k0_pay11 (View.ld x0 r0_1))) (k0_pay110 (k0_pay12 (View.ld x0 r0_2))) (k0_pay111 (k0_pay10 (View.ld x0 r0_0)) (k0_pay11 (View.ld x0 r0_1)) (k0_pay12 (View.ld x0 r0_2))) : FVec Ideal S1x128x512 .f32) x = valBlk (i 0).val x0 (r0_34.emb x) := by
  obtain ⟨a, r, cc, rfl⟩ : ∃ a r cc, x = ix3 a r cc := ⟨x 0, x 1, x 2, eq_ix3 x⟩
  rw [val_slot6, f0_at, f1_at, f2_at, b0_at, b1_at, b2_at, m_at, emb3 6 (by omega), valBlk_at]
  rfl

theorem val_slot7 (f0 f1 f2 m : FVec Ideal S128x512 .f32) (b0 b1 b2 : IVec S128x512 32) (a : Fin 1) (r : Fin 128) (cc : Fin 512) :
    (k0_pay135 m (k0_pay130 f0 f1 f2 (k0_pay125 b0) (k0_pay126 b1) (k0_pay127 b2)) (k0_pay131 (k0_pay127 b2) (k0_pay128 b0 b1 b2)) : FVec Ideal S1x128x512 .f32) (ix3 a r cc)
      = valG (f0 (ix2 r cc)) (f1 (ix2 r cc)) (f2 (ix2 r cc)) (IntOp.addi (b0 (ix2 r cc)) 1#32) (IntOp.addi (b1 (ix2 r cc)) 1#32) (IntOp.addi (b2 (ix2 r cc)) 1#32) (m (ix2 r cc)) := by
  unfold k0_pay135
  refine (up3 _ _ a r cc).trans ?_
  rfl
theorem val_piece7 (i : grid0.Coords) (x0 : Vec Ideal S3x128x512 .f32) (x : S1x128x512.Idx) :
    (k0_pay135 (k0_pay14 (F := Ideal) (k0_pay13 i)) (k0_pay130 (k0_pay7 (View.ld x0 r0_0)) (k0_pay8 (View.ld x0 r0_1)) (k0_pay9 (View.ld x0 r0_2)) (k0_pay125 (k0_pay10 (View.ld x0 r0_0))) (k0_pay126 (k0_pay11 (View.ld x0 r0_1))) (k0_pay127 (k0_pay12 (View.ld x0 r0_2)))) (k0_pay131 (k0_pay127 (k0_pay12 (View.ld x0 r0_2))) (k0_pay128 (k0_pay10 (View.ld x0 r0_0)) (k0_pay11 (View.ld x0 r0_1)) (k0_pay12 (View.ld x0 r0_2)))) : FVec Ideal S1x128x512 .f32) x = valBlk (i 0).val x0 (r0_39.emb x) := by
  obtain ⟨a, r, cc, rfl⟩ : ∃ a r cc, x = ix3 a r cc := ⟨x 0, x 1, x 2, eq_ix3 x⟩
  rw [val_slot7, f0_at, f1_at, f2_at, b0_at, b1_at, b2_at, m_at, emb3 7 (by omega), valBlk_at]
  rfl

/-- The weight buffer after the body is the block's weights. -/
theorem out4_eq (i : grid0.Coords) (x0 : Vec Ideal S3x128x512 .f32) (x1 : Vec Ideal S128x512 .f32) (x2 : Vec Ideal S3x128x512 .f32) :
    out0_4 i x0 x1 x2 = valBlk (i 0).val x0 := by
  funext y
  unfold out0_4
  refine View.canon_apply_of_pieces (valBlk (i 0).val x0) _ ?_ y (cover0_4 _ _ _ _ _ _ _ _ y)
  intro p hp x
  simp only [List.mem_cons, List.not_mem_nil, or_false] at hp
  rcases hp with rfl | rfl | rfl | rfl | rfl | rfl | rfl | rfl
  exacts [val_piece7 i x0 x, val_piece6 i x0 x, val_piece5 i x0 x, val_piece4 i x0 x, val_piece3 i x0 x, val_piece2 i x0 x, val_piece1 i x0 x, val_piece0 i x0 x]

/-! ## The update planes of a block -/

/-- The mass at a lane of the block. -/
theorem ms_at (x : Vec Ideal S128x512 .f32) (r : Fin 128) (cc : Fin 512) :
    k0_pay3 (View.ld x r0_3) (ix2 r cc) = x (ix2 r cc) := by
  refine (shapeCast_apply (View.ld x r0_3) shapeCasts_S128x512_S128x512 (ix2 r cc) (ix2 r cc) rfl).trans ?_
  show x _ = x _
  congr 1; funext a; apply Fin.ext
  match a with
  | ⟨0, _⟩ => show 0 + 1 * r.val = r.val; omega
  | ⟨1, _⟩ => show 0 + 1 * cc.val = cc.val; omega
/-- The data channels at a lane of the block. -/
theorem d0_at (x : Vec Ideal S3x128x512 .f32) (r : Fin 128) (cc : Fin 512) :
    k0_pay4 (View.ld x r0_0) (ix2 r cc) = x (ix3 0 r cc) := ldP0 x _ r cc
theorem d1_at (x : Vec Ideal S3x128x512 .f32) (r : Fin 128) (cc : Fin 512) :
    k0_pay5 (View.ld x r0_1) (ix2 r cc) = x (ix3 1 r cc) := ldP1 x _ r cc
theorem d2_at (x : Vec Ideal S3x128x512 .f32) (r : Fin 128) (cc : Fin 512) :
    k0_pay6 (View.ld x r0_2) (ix2 r cc) = x (ix3 2 r cc) := ldP2 x _ r cc

/-- Channel j, slot k's piece of the update block sits at (j, k, r, cc). -/
theorem emb4 (j k : Nat) (hj : j < 4) (hk : k < 8)
    (inb : ∀ a, (![j, k, 0, 0] : Fin 4 → Nat) a + S1x1x128x512.size a ≤ S4x8x128x512.size a)
    (a b : Fin 1) (r : Fin 128) (cc : Fin 512) :
    (Rect.unit (s := S4x8x128x512) ![j, k, 0, 0] S1x1x128x512.size inb).emb (ix4 a b r cc)
      = ix4 (⟨j, hj⟩ : Fin 4) (⟨k, hk⟩ : Fin 8) r cc := by
  funext d; apply Fin.ext
  match d with
  | ⟨0, _⟩ => show j + 1 * a.val = j; have := a.isLt; omega
  | ⟨1, _⟩ => show k + 1 * b.val = k; have := b.isLt; omega
  | ⟨2, _⟩ => show 0 + 1 * r.val = r.val; omega
  | ⟨3, _⟩ => show 0 + 1 * cc.val = cc.val; omega

/-- The update planes of a block at grid coordinate tt. -/
def dwBlk (tt : Nat) (x0 : Vec Ideal S3x128x512 .f32) (x1 : Vec Ideal S128x512 .f32) (x2 : Vec Ideal S3x128x512 .f32) :
    Vec Ideal S4x8x128x512 .f32 :=
  arr4 fun j k r cc =>
    if h : j.val < 3 then
      FloatOps.mulf (x2 (ix3 ⟨j.val, h⟩ r cc))
        (K.laneW (x0 (ix3 0 r cc)) (x0 (ix3 1 r cc)) (x0 (ix3 2 r cc)) (flatB tt r cc) (x1 (ix2 r cc)) k)
    else K.laneW (x0 (ix3 0 r cc)) (x0 (ix3 1 r cc)) (x0 (ix3 2 r cc)) (flatB tt r cc) (x1 (ix2 r cc)) k
theorem dwBlk_at (tt : Nat) (x0 : Vec Ideal S3x128x512 .f32) (x1 : Vec Ideal S128x512 .f32) (x2 : Vec Ideal S3x128x512 .f32)
    (j : Fin 4) (k : Fin 8) (r : Fin 128) (cc : Fin 512) :
    dwBlk tt x0 x1 x2 (ix4 j k r cc) = if h : j.val < 3 then
      FloatOps.mulf (x2 (ix3 ⟨j.val, h⟩ r cc))
        (K.laneW (x0 (ix3 0 r cc)) (x0 (ix3 1 r cc)) (x0 (ix3 2 r cc)) (flatB tt r cc) (x1 (ix2 r cc)) k)
    else K.laneW (x0 (ix3 0 r cc)) (x0 (ix3 1 r cc)) (x0 (ix3 2 r cc)) (flatB tt r cc) (x1 (ix2 r cc)) k := rfl
theorem dw_slot0_0 (f0 f1 f2 m ms d0 : FVec Ideal S128x512 .f32) (b0 b1 b2 : IVec S128x512 32) (a b : Fin 1) (r : Fin 128) (cc : Fin 512) :
    (k0_pay25 ms d0 f0 f1 f2 m (k0_pay15 b0) (k0_pay16 b1) (k0_pay17 b2) (k0_pay18 b0 b1 b2) : FVec Ideal S1x1x128x512 .f32) (ix4 a b r cc)
      = FloatOps.mulf (d0 (ix2 r cc)) (FloatOps.mulf (valG (f0 (ix2 r cc)) (f1 (ix2 r cc)) (f2 (ix2 r cc)) (IntOp.addi (b0 (ix2 r cc)) 0#32) (IntOp.addi (b1 (ix2 r cc)) 0#32) (IntOp.addi (b2 (ix2 r cc)) 0#32) (m (ix2 r cc))) (ms (ix2 r cc))) := by
  unfold k0_pay25
  refine (up4 _ _ a b r cc).trans ?_
  rfl
theorem dw_piece0_0 (i : grid0.Coords) (x0 : Vec Ideal S3x128x512 .f32) (x1 : Vec Ideal S128x512 .f32) (x2 : Vec Ideal S3x128x512 .f32) (x : S1x1x128x512.Idx) :
    (k0_pay25 (k0_pay3 (View.ld x1 r0_3)) (k0_pay4 (View.ld x2 r0_0)) (k0_pay7 (View.ld x0 r0_0)) (k0_pay8 (View.ld x0 r0_1)) (k0_pay9 (View.ld x0 r0_2)) (k0_pay14 (F := Ideal) (k0_pay13 i)) (k0_pay15 (k0_pay10 (View.ld x0 r0_0))) (k0_pay16 (k0_pay11 (View.ld x0 r0_1))) (k0_pay17 (k0_pay12 (View.ld x0 r0_2))) (k0_pay18 (k0_pay10 (View.ld x0 r0_0)) (k0_pay11 (View.ld x0 r0_1)) (k0_pay12 (View.ld x0 r0_2))) : FVec Ideal S1x1x128x512 .f32) x = dwBlk (i 0).val x0 x1 x2 (r0_5.emb x) := by
  obtain ⟨a, b, r, cc, rfl⟩ : ∃ a b r cc, x = ix4 a b r cc := ⟨x 0, x 1, x 2, x 3, eq_ix4 x⟩
  rw [dw_slot0_0, f0_at, f1_at, f2_at, b0_at, b1_at, b2_at, m_at, ms_at, d0_at, emb4 0 0 (by omega) (by omega), dwBlk_at, dif_pos (show ((⟨0, by omega⟩ : Fin 4)).val < 3 by decide)]
  rfl

theorem dw_slot1_0 (f0 f1 f2 m ms d1 : FVec Ideal S128x512 .f32) (b0 b1 b2 : IVec S128x512 32) (a b : Fin 1) (r : Fin 128) (cc : Fin 512) :
    (k0_pay26 d1 (k0_pay22 ms f0 f1 f2 m (k0_pay15 b0) (k0_pay16 b1) (k0_pay17 b2) (k0_pay18 b0 b1 b2)) : FVec Ideal S1x1x128x512 .f32) (ix4 a b r cc)
      = FloatOps.mulf (d1 (ix2 r cc)) (FloatOps.mulf (valG (f0 (ix2 r cc)) (f1 (ix2 r cc)) (f2 (ix2 r cc)) (IntOp.addi (b0 (ix2 r cc)) 0#32) (IntOp.addi (b1 (ix2 r cc)) 0#32) (IntOp.addi (b2 (ix2 r cc)) 0#32) (m (ix2 r cc))) (ms (ix2 r cc))) := by
  unfold k0_pay26
  refine (up4 _ _ a b r cc).trans ?_
  rfl
theorem dw_piece1_0 (i : grid0.Coords) (x0 : Vec Ideal S3x128x512 .f32) (x1 : Vec Ideal S128x512 .f32) (x2 : Vec Ideal S3x128x512 .f32) (x : S1x1x128x512.Idx) :
    (k0_pay26 (k0_pay5 (View.ld x2 r0_1)) (k0_pay22 (k0_pay3 (View.ld x1 r0_3)) (k0_pay7 (View.ld x0 r0_0)) (k0_pay8 (View.ld x0 r0_1)) (k0_pay9 (View.ld x0 r0_2)) (k0_pay14 (F := Ideal) (k0_pay13 i)) (k0_pay15 (k0_pay10 (View.ld x0 r0_0))) (k0_pay16 (k0_pay11 (View.ld x0 r0_1))) (k0_pay17 (k0_pay12 (View.ld x0 r0_2))) (k0_pay18 (k0_pay10 (View.ld x0 r0_0)) (k0_pay11 (View.ld x0 r0_1)) (k0_pay12 (View.ld x0 r0_2)))) : FVec Ideal S1x1x128x512 .f32) x = dwBlk (i 0).val x0 x1 x2 (r0_6.emb x) := by
  obtain ⟨a, b, r, cc, rfl⟩ : ∃ a b r cc, x = ix4 a b r cc := ⟨x 0, x 1, x 2, x 3, eq_ix4 x⟩
  rw [dw_slot1_0, f0_at, f1_at, f2_at, b0_at, b1_at, b2_at, m_at, ms_at, d1_at, emb4 1 0 (by omega) (by omega), dwBlk_at, dif_pos (show ((⟨1, by omega⟩ : Fin 4)).val < 3 by decide)]
  rfl

theorem dw_slot2_0 (f0 f1 f2 m ms d2 : FVec Ideal S128x512 .f32) (b0 b1 b2 : IVec S128x512 32) (a b : Fin 1) (r : Fin 128) (cc : Fin 512) :
    (k0_pay27 d2 (k0_pay22 ms f0 f1 f2 m (k0_pay15 b0) (k0_pay16 b1) (k0_pay17 b2) (k0_pay18 b0 b1 b2)) : FVec Ideal S1x1x128x512 .f32) (ix4 a b r cc)
      = FloatOps.mulf (d2 (ix2 r cc)) (FloatOps.mulf (valG (f0 (ix2 r cc)) (f1 (ix2 r cc)) (f2 (ix2 r cc)) (IntOp.addi (b0 (ix2 r cc)) 0#32) (IntOp.addi (b1 (ix2 r cc)) 0#32) (IntOp.addi (b2 (ix2 r cc)) 0#32) (m (ix2 r cc))) (ms (ix2 r cc))) := by
  unfold k0_pay27
  refine (up4 _ _ a b r cc).trans ?_
  rfl
theorem dw_piece2_0 (i : grid0.Coords) (x0 : Vec Ideal S3x128x512 .f32) (x1 : Vec Ideal S128x512 .f32) (x2 : Vec Ideal S3x128x512 .f32) (x : S1x1x128x512.Idx) :
    (k0_pay27 (k0_pay6 (View.ld x2 r0_2)) (k0_pay22 (k0_pay3 (View.ld x1 r0_3)) (k0_pay7 (View.ld x0 r0_0)) (k0_pay8 (View.ld x0 r0_1)) (k0_pay9 (View.ld x0 r0_2)) (k0_pay14 (F := Ideal) (k0_pay13 i)) (k0_pay15 (k0_pay10 (View.ld x0 r0_0))) (k0_pay16 (k0_pay11 (View.ld x0 r0_1))) (k0_pay17 (k0_pay12 (View.ld x0 r0_2))) (k0_pay18 (k0_pay10 (View.ld x0 r0_0)) (k0_pay11 (View.ld x0 r0_1)) (k0_pay12 (View.ld x0 r0_2)))) : FVec Ideal S1x1x128x512 .f32) x = dwBlk (i 0).val x0 x1 x2 (r0_7.emb x) := by
  obtain ⟨a, b, r, cc, rfl⟩ : ∃ a b r cc, x = ix4 a b r cc := ⟨x 0, x 1, x 2, x 3, eq_ix4 x⟩
  rw [dw_slot2_0, f0_at, f1_at, f2_at, b0_at, b1_at, b2_at, m_at, ms_at, d2_at, emb4 2 0 (by omega) (by omega), dwBlk_at, dif_pos (show ((⟨2, by omega⟩ : Fin 4)).val < 3 by decide)]
  rfl

theorem dw_slot3_0 (f0 f1 f2 m ms : FVec Ideal S128x512 .f32) (b0 b1 b2 : IVec S128x512 32) (a b : Fin 1) (r : Fin 128) (cc : Fin 512) :
    (k0_pay28 (k0_pay22 ms f0 f1 f2 m (k0_pay15 b0) (k0_pay16 b1) (k0_pay17 b2) (k0_pay18 b0 b1 b2)) : FVec Ideal S1x1x128x512 .f32) (ix4 a b r cc)
      = FloatOps.mulf (valG (f0 (ix2 r cc)) (f1 (ix2 r cc)) (f2 (ix2 r cc)) (IntOp.addi (b0 (ix2 r cc)) 0#32) (IntOp.addi (b1 (ix2 r cc)) 0#32) (IntOp.addi (b2 (ix2 r cc)) 0#32) (m (ix2 r cc))) (ms (ix2 r cc)) := by
  unfold k0_pay28
  refine (up4 _ _ a b r cc).trans ?_
  rfl
theorem dw_piece3_0 (i : grid0.Coords) (x0 : Vec Ideal S3x128x512 .f32) (x1 : Vec Ideal S128x512 .f32) (x2 : Vec Ideal S3x128x512 .f32) (x : S1x1x128x512.Idx) :
    (k0_pay28 (k0_pay22 (k0_pay3 (View.ld x1 r0_3)) (k0_pay7 (View.ld x0 r0_0)) (k0_pay8 (View.ld x0 r0_1)) (k0_pay9 (View.ld x0 r0_2)) (k0_pay14 (F := Ideal) (k0_pay13 i)) (k0_pay15 (k0_pay10 (View.ld x0 r0_0))) (k0_pay16 (k0_pay11 (View.ld x0 r0_1))) (k0_pay17 (k0_pay12 (View.ld x0 r0_2))) (k0_pay18 (k0_pay10 (View.ld x0 r0_0)) (k0_pay11 (View.ld x0 r0_1)) (k0_pay12 (View.ld x0 r0_2)))) : FVec Ideal S1x1x128x512 .f32) x = dwBlk (i 0).val x0 x1 x2 (r0_8.emb x) := by
  obtain ⟨a, b, r, cc, rfl⟩ : ∃ a b r cc, x = ix4 a b r cc := ⟨x 0, x 1, x 2, x 3, eq_ix4 x⟩
  rw [dw_slot3_0, f0_at, f1_at, f2_at, b0_at, b1_at, b2_at, m_at, ms_at, emb4 3 0 (by omega) (by omega), dwBlk_at, dif_neg (show ¬ ((⟨3, by omega⟩ : Fin 4)).val < 3 by decide)]
  rfl

theorem dw_slot0_1 (f0 f1 f2 m ms d0 : FVec Ideal S128x512 .f32) (b0 b1 b2 : IVec S128x512 32) (a b : Fin 1) (r : Fin 128) (cc : Fin 512) :
    (k0_pay38 d0 (k0_pay35 ms f0 f1 f2 m (k0_pay29 b0) (k0_pay30 b1) (k0_pay31 b2) (k0_pay32 b0 b1 b2)) : FVec Ideal S1x1x128x512 .f32) (ix4 a b r cc)
      = FloatOps.mulf (d0 (ix2 r cc)) (FloatOps.mulf (valG (f0 (ix2 r cc)) (f1 (ix2 r cc)) (f2 (ix2 r cc)) (IntOp.addi (b0 (ix2 r cc)) 0#32) (IntOp.addi (b1 (ix2 r cc)) 0#32) (IntOp.addi (b2 (ix2 r cc)) 1#32) (m (ix2 r cc))) (ms (ix2 r cc))) := by
  unfold k0_pay38
  refine (up4 _ _ a b r cc).trans ?_
  rfl
theorem dw_piece0_1 (i : grid0.Coords) (x0 : Vec Ideal S3x128x512 .f32) (x1 : Vec Ideal S128x512 .f32) (x2 : Vec Ideal S3x128x512 .f32) (x : S1x1x128x512.Idx) :
    (k0_pay38 (k0_pay4 (View.ld x2 r0_0)) (k0_pay35 (k0_pay3 (View.ld x1 r0_3)) (k0_pay7 (View.ld x0 r0_0)) (k0_pay8 (View.ld x0 r0_1)) (k0_pay9 (View.ld x0 r0_2)) (k0_pay14 (F := Ideal) (k0_pay13 i)) (k0_pay29 (k0_pay10 (View.ld x0 r0_0))) (k0_pay30 (k0_pay11 (View.ld x0 r0_1))) (k0_pay31 (k0_pay12 (View.ld x0 r0_2))) (k0_pay32 (k0_pay10 (View.ld x0 r0_0)) (k0_pay11 (View.ld x0 r0_1)) (k0_pay12 (View.ld x0 r0_2)))) : FVec Ideal S1x1x128x512 .f32) x = dwBlk (i 0).val x0 x1 x2 (r0_10.emb x) := by
  obtain ⟨a, b, r, cc, rfl⟩ : ∃ a b r cc, x = ix4 a b r cc := ⟨x 0, x 1, x 2, x 3, eq_ix4 x⟩
  rw [dw_slot0_1, f0_at, f1_at, f2_at, b0_at, b1_at, b2_at, m_at, ms_at, d0_at, emb4 0 1 (by omega) (by omega), dwBlk_at, dif_pos (show ((⟨0, by omega⟩ : Fin 4)).val < 3 by decide)]
  rfl

theorem dw_slot1_1 (f0 f1 f2 m ms d1 : FVec Ideal S128x512 .f32) (b0 b1 b2 : IVec S128x512 32) (a b : Fin 1) (r : Fin 128) (cc : Fin 512) :
    (k0_pay39 d1 (k0_pay35 ms f0 f1 f2 m (k0_pay29 b0) (k0_pay30 b1) (k0_pay31 b2) (k0_pay32 b0 b1 b2)) : FVec Ideal S1x1x128x512 .f32) (ix4 a b r cc)
      = FloatOps.mulf (d1 (ix2 r cc)) (FloatOps.mulf (valG (f0 (ix2 r cc)) (f1 (ix2 r cc)) (f2 (ix2 r cc)) (IntOp.addi (b0 (ix2 r cc)) 0#32) (IntOp.addi (b1 (ix2 r cc)) 0#32) (IntOp.addi (b2 (ix2 r cc)) 1#32) (m (ix2 r cc))) (ms (ix2 r cc))) := by
  unfold k0_pay39
  refine (up4 _ _ a b r cc).trans ?_
  rfl
theorem dw_piece1_1 (i : grid0.Coords) (x0 : Vec Ideal S3x128x512 .f32) (x1 : Vec Ideal S128x512 .f32) (x2 : Vec Ideal S3x128x512 .f32) (x : S1x1x128x512.Idx) :
    (k0_pay39 (k0_pay5 (View.ld x2 r0_1)) (k0_pay35 (k0_pay3 (View.ld x1 r0_3)) (k0_pay7 (View.ld x0 r0_0)) (k0_pay8 (View.ld x0 r0_1)) (k0_pay9 (View.ld x0 r0_2)) (k0_pay14 (F := Ideal) (k0_pay13 i)) (k0_pay29 (k0_pay10 (View.ld x0 r0_0))) (k0_pay30 (k0_pay11 (View.ld x0 r0_1))) (k0_pay31 (k0_pay12 (View.ld x0 r0_2))) (k0_pay32 (k0_pay10 (View.ld x0 r0_0)) (k0_pay11 (View.ld x0 r0_1)) (k0_pay12 (View.ld x0 r0_2)))) : FVec Ideal S1x1x128x512 .f32) x = dwBlk (i 0).val x0 x1 x2 (r0_11.emb x) := by
  obtain ⟨a, b, r, cc, rfl⟩ : ∃ a b r cc, x = ix4 a b r cc := ⟨x 0, x 1, x 2, x 3, eq_ix4 x⟩
  rw [dw_slot1_1, f0_at, f1_at, f2_at, b0_at, b1_at, b2_at, m_at, ms_at, d1_at, emb4 1 1 (by omega) (by omega), dwBlk_at, dif_pos (show ((⟨1, by omega⟩ : Fin 4)).val < 3 by decide)]
  rfl

theorem dw_slot2_1 (f0 f1 f2 m ms d2 : FVec Ideal S128x512 .f32) (b0 b1 b2 : IVec S128x512 32) (a b : Fin 1) (r : Fin 128) (cc : Fin 512) :
    (k0_pay40 d2 (k0_pay35 ms f0 f1 f2 m (k0_pay29 b0) (k0_pay30 b1) (k0_pay31 b2) (k0_pay32 b0 b1 b2)) : FVec Ideal S1x1x128x512 .f32) (ix4 a b r cc)
      = FloatOps.mulf (d2 (ix2 r cc)) (FloatOps.mulf (valG (f0 (ix2 r cc)) (f1 (ix2 r cc)) (f2 (ix2 r cc)) (IntOp.addi (b0 (ix2 r cc)) 0#32) (IntOp.addi (b1 (ix2 r cc)) 0#32) (IntOp.addi (b2 (ix2 r cc)) 1#32) (m (ix2 r cc))) (ms (ix2 r cc))) := by
  unfold k0_pay40
  refine (up4 _ _ a b r cc).trans ?_
  rfl
theorem dw_piece2_1 (i : grid0.Coords) (x0 : Vec Ideal S3x128x512 .f32) (x1 : Vec Ideal S128x512 .f32) (x2 : Vec Ideal S3x128x512 .f32) (x : S1x1x128x512.Idx) :
    (k0_pay40 (k0_pay6 (View.ld x2 r0_2)) (k0_pay35 (k0_pay3 (View.ld x1 r0_3)) (k0_pay7 (View.ld x0 r0_0)) (k0_pay8 (View.ld x0 r0_1)) (k0_pay9 (View.ld x0 r0_2)) (k0_pay14 (F := Ideal) (k0_pay13 i)) (k0_pay29 (k0_pay10 (View.ld x0 r0_0))) (k0_pay30 (k0_pay11 (View.ld x0 r0_1))) (k0_pay31 (k0_pay12 (View.ld x0 r0_2))) (k0_pay32 (k0_pay10 (View.ld x0 r0_0)) (k0_pay11 (View.ld x0 r0_1)) (k0_pay12 (View.ld x0 r0_2)))) : FVec Ideal S1x1x128x512 .f32) x = dwBlk (i 0).val x0 x1 x2 (r0_12.emb x) := by
  obtain ⟨a, b, r, cc, rfl⟩ : ∃ a b r cc, x = ix4 a b r cc := ⟨x 0, x 1, x 2, x 3, eq_ix4 x⟩
  rw [dw_slot2_1, f0_at, f1_at, f2_at, b0_at, b1_at, b2_at, m_at, ms_at, d2_at, emb4 2 1 (by omega) (by omega), dwBlk_at, dif_pos (show ((⟨2, by omega⟩ : Fin 4)).val < 3 by decide)]
  rfl

theorem dw_slot3_1 (f0 f1 f2 m ms : FVec Ideal S128x512 .f32) (b0 b1 b2 : IVec S128x512 32) (a b : Fin 1) (r : Fin 128) (cc : Fin 512) :
    (k0_pay41 (k0_pay35 ms f0 f1 f2 m (k0_pay29 b0) (k0_pay30 b1) (k0_pay31 b2) (k0_pay32 b0 b1 b2)) : FVec Ideal S1x1x128x512 .f32) (ix4 a b r cc)
      = FloatOps.mulf (valG (f0 (ix2 r cc)) (f1 (ix2 r cc)) (f2 (ix2 r cc)) (IntOp.addi (b0 (ix2 r cc)) 0#32) (IntOp.addi (b1 (ix2 r cc)) 0#32) (IntOp.addi (b2 (ix2 r cc)) 1#32) (m (ix2 r cc))) (ms (ix2 r cc)) := by
  unfold k0_pay41
  refine (up4 _ _ a b r cc).trans ?_
  rfl
theorem dw_piece3_1 (i : grid0.Coords) (x0 : Vec Ideal S3x128x512 .f32) (x1 : Vec Ideal S128x512 .f32) (x2 : Vec Ideal S3x128x512 .f32) (x : S1x1x128x512.Idx) :
    (k0_pay41 (k0_pay35 (k0_pay3 (View.ld x1 r0_3)) (k0_pay7 (View.ld x0 r0_0)) (k0_pay8 (View.ld x0 r0_1)) (k0_pay9 (View.ld x0 r0_2)) (k0_pay14 (F := Ideal) (k0_pay13 i)) (k0_pay29 (k0_pay10 (View.ld x0 r0_0))) (k0_pay30 (k0_pay11 (View.ld x0 r0_1))) (k0_pay31 (k0_pay12 (View.ld x0 r0_2))) (k0_pay32 (k0_pay10 (View.ld x0 r0_0)) (k0_pay11 (View.ld x0 r0_1)) (k0_pay12 (View.ld x0 r0_2)))) : FVec Ideal S1x1x128x512 .f32) x = dwBlk (i 0).val x0 x1 x2 (r0_13.emb x) := by
  obtain ⟨a, b, r, cc, rfl⟩ : ∃ a b r cc, x = ix4 a b r cc := ⟨x 0, x 1, x 2, x 3, eq_ix4 x⟩
  rw [dw_slot3_1, f0_at, f1_at, f2_at, b0_at, b1_at, b2_at, m_at, ms_at, emb4 3 1 (by omega) (by omega), dwBlk_at, dif_neg (show ¬ ((⟨3, by omega⟩ : Fin 4)).val < 3 by decide)]
  rfl

theorem dw_slot0_2 (f0 f1 f2 m ms d0 : FVec Ideal S128x512 .f32) (b0 b1 b2 : IVec S128x512 32) (a b : Fin 1) (r : Fin 128) (cc : Fin 512) :
    (k0_pay55 ms d0 m (k0_pay46 (k0_pay42 b0) (k0_pay43 b1) (k0_pay44 b2) (k0_pay45 b0) 128#32) (k0_pay48 f2 (k0_pay44 b2)) (k0_pay49 f0 (k0_pay42 b0)) (k0_pay50 f1 (k0_pay43 b1)) (Scalar.ofBits .f32 0x3F800000#32) : FVec Ideal S1x1x128x512 .f32) (ix4 a b r cc)
      = FloatOps.mulf (d0 (ix2 r cc)) (FloatOps.mulf (valG (f0 (ix2 r cc)) (f1 (ix2 r cc)) (f2 (ix2 r cc)) (IntOp.addi (b0 (ix2 r cc)) 0#32) (IntOp.addi (b1 (ix2 r cc)) 1#32) (IntOp.addi (b2 (ix2 r cc)) 0#32) (m (ix2 r cc))) (ms (ix2 r cc))) := by
  unfold k0_pay55
  refine (up4 _ _ a b r cc).trans ?_
  rfl
theorem dw_piece0_2 (i : grid0.Coords) (x0 : Vec Ideal S3x128x512 .f32) (x1 : Vec Ideal S128x512 .f32) (x2 : Vec Ideal S3x128x512 .f32) (x : S1x1x128x512.Idx) :
    (k0_pay55 (k0_pay3 (View.ld x1 r0_3)) (k0_pay4 (View.ld x2 r0_0)) (k0_pay14 (F := Ideal) (k0_pay13 i)) (k0_pay46 (k0_pay42 (k0_pay10 (View.ld x0 r0_0))) (k0_pay43 (k0_pay11 (View.ld x0 r0_1))) (k0_pay44 (k0_pay12 (View.ld x0 r0_2))) (k0_pay45 (k0_pay10 (View.ld x0 r0_0))) 128#32) (k0_pay48 (k0_pay9 (View.ld x0 r0_2)) (k0_pay44 (k0_pay12 (View.ld x0 r0_2)))) (k0_pay49 (k0_pay7 (View.ld x0 r0_0)) (k0_pay42 (k0_pay10 (View.ld x0 r0_0)))) (k0_pay50 (k0_pay8 (View.ld x0 r0_1)) (k0_pay43 (k0_pay11 (View.ld x0 r0_1)))) (Scalar.ofBits .f32 0x3F800000#32) : FVec Ideal S1x1x128x512 .f32) x = dwBlk (i 0).val x0 x1 x2 (r0_15.emb x) := by
  obtain ⟨a, b, r, cc, rfl⟩ : ∃ a b r cc, x = ix4 a b r cc := ⟨x 0, x 1, x 2, x 3, eq_ix4 x⟩
  rw [dw_slot0_2, f0_at, f1_at, f2_at, b0_at, b1_at, b2_at, m_at, ms_at, d0_at, emb4 0 2 (by omega) (by omega), dwBlk_at, dif_pos (show ((⟨0, by omega⟩ : Fin 4)).val < 3 by decide)]
  rfl

theorem dw_slot1_2 (f0 f1 f2 m ms d1 : FVec Ideal S128x512 .f32) (b0 b1 b2 : IVec S128x512 32) (a b : Fin 1) (r : Fin 128) (cc : Fin 512) :
    (k0_pay56 ms d1 m (k0_pay46 (k0_pay42 b0) (k0_pay43 b1) (k0_pay44 b2) (k0_pay45 b0) 128#32) (k0_pay48 f2 (k0_pay44 b2)) (k0_pay49 f0 (k0_pay42 b0)) (k0_pay50 f1 (k0_pay43 b1)) (Scalar.ofBits .f32 0x3F800000#32) : FVec Ideal S1x1x128x512 .f32) (ix4 a b r cc)
      = FloatOps.mulf (d1 (ix2 r cc)) (FloatOps.mulf (valG (f0 (ix2 r cc)) (f1 (ix2 r cc)) (f2 (ix2 r cc)) (IntOp.addi (b0 (ix2 r cc)) 0#32) (IntOp.addi (b1 (ix2 r cc)) 1#32) (IntOp.addi (b2 (ix2 r cc)) 0#32) (m (ix2 r cc))) (ms (ix2 r cc))) := by
  unfold k0_pay56
  refine (up4 _ _ a b r cc).trans ?_
  rfl
theorem dw_piece1_2 (i : grid0.Coords) (x0 : Vec Ideal S3x128x512 .f32) (x1 : Vec Ideal S128x512 .f32) (x2 : Vec Ideal S3x128x512 .f32) (x : S1x1x128x512.Idx) :
    (k0_pay56 (k0_pay3 (View.ld x1 r0_3)) (k0_pay5 (View.ld x2 r0_1)) (k0_pay14 (F := Ideal) (k0_pay13 i)) (k0_pay46 (k0_pay42 (k0_pay10 (View.ld x0 r0_0))) (k0_pay43 (k0_pay11 (View.ld x0 r0_1))) (k0_pay44 (k0_pay12 (View.ld x0 r0_2))) (k0_pay45 (k0_pay10 (View.ld x0 r0_0))) 128#32) (k0_pay48 (k0_pay9 (View.ld x0 r0_2)) (k0_pay44 (k0_pay12 (View.ld x0 r0_2)))) (k0_pay49 (k0_pay7 (View.ld x0 r0_0)) (k0_pay42 (k0_pay10 (View.ld x0 r0_0)))) (k0_pay50 (k0_pay8 (View.ld x0 r0_1)) (k0_pay43 (k0_pay11 (View.ld x0 r0_1)))) (Scalar.ofBits .f32 0x3F800000#32) : FVec Ideal S1x1x128x512 .f32) x = dwBlk (i 0).val x0 x1 x2 (r0_16.emb x) := by
  obtain ⟨a, b, r, cc, rfl⟩ : ∃ a b r cc, x = ix4 a b r cc := ⟨x 0, x 1, x 2, x 3, eq_ix4 x⟩
  rw [dw_slot1_2, f0_at, f1_at, f2_at, b0_at, b1_at, b2_at, m_at, ms_at, d1_at, emb4 1 2 (by omega) (by omega), dwBlk_at, dif_pos (show ((⟨1, by omega⟩ : Fin 4)).val < 3 by decide)]
  rfl

theorem dw_slot2_2 (f0 f1 f2 m ms d2 : FVec Ideal S128x512 .f32) (b0 b1 b2 : IVec S128x512 32) (a b : Fin 1) (r : Fin 128) (cc : Fin 512) :
    (k0_pay57 ms d2 m (k0_pay46 (k0_pay42 b0) (k0_pay43 b1) (k0_pay44 b2) (k0_pay45 b0) 128#32) (k0_pay48 f2 (k0_pay44 b2)) (k0_pay49 f0 (k0_pay42 b0)) (k0_pay50 f1 (k0_pay43 b1)) (Scalar.ofBits .f32 0x3F800000#32) : FVec Ideal S1x1x128x512 .f32) (ix4 a b r cc)
      = FloatOps.mulf (d2 (ix2 r cc)) (FloatOps.mulf (valG (f0 (ix2 r cc)) (f1 (ix2 r cc)) (f2 (ix2 r cc)) (IntOp.addi (b0 (ix2 r cc)) 0#32) (IntOp.addi (b1 (ix2 r cc)) 1#32) (IntOp.addi (b2 (ix2 r cc)) 0#32) (m (ix2 r cc))) (ms (ix2 r cc))) := by
  unfold k0_pay57
  refine (up4 _ _ a b r cc).trans ?_
  rfl
theorem dw_piece2_2 (i : grid0.Coords) (x0 : Vec Ideal S3x128x512 .f32) (x1 : Vec Ideal S128x512 .f32) (x2 : Vec Ideal S3x128x512 .f32) (x : S1x1x128x512.Idx) :
    (k0_pay57 (k0_pay3 (View.ld x1 r0_3)) (k0_pay6 (View.ld x2 r0_2)) (k0_pay14 (F := Ideal) (k0_pay13 i)) (k0_pay46 (k0_pay42 (k0_pay10 (View.ld x0 r0_0))) (k0_pay43 (k0_pay11 (View.ld x0 r0_1))) (k0_pay44 (k0_pay12 (View.ld x0 r0_2))) (k0_pay45 (k0_pay10 (View.ld x0 r0_0))) 128#32) (k0_pay48 (k0_pay9 (View.ld x0 r0_2)) (k0_pay44 (k0_pay12 (View.ld x0 r0_2)))) (k0_pay49 (k0_pay7 (View.ld x0 r0_0)) (k0_pay42 (k0_pay10 (View.ld x0 r0_0)))) (k0_pay50 (k0_pay8 (View.ld x0 r0_1)) (k0_pay43 (k0_pay11 (View.ld x0 r0_1)))) (Scalar.ofBits .f32 0x3F800000#32) : FVec Ideal S1x1x128x512 .f32) x = dwBlk (i 0).val x0 x1 x2 (r0_17.emb x) := by
  obtain ⟨a, b, r, cc, rfl⟩ : ∃ a b r cc, x = ix4 a b r cc := ⟨x 0, x 1, x 2, x 3, eq_ix4 x⟩
  rw [dw_slot2_2, f0_at, f1_at, f2_at, b0_at, b1_at, b2_at, m_at, ms_at, d2_at, emb4 2 2 (by omega) (by omega), dwBlk_at, dif_pos (show ((⟨2, by omega⟩ : Fin 4)).val < 3 by decide)]
  rfl

theorem dw_slot3_2 (f0 f1 f2 m ms : FVec Ideal S128x512 .f32) (b0 b1 b2 : IVec S128x512 32) (a b : Fin 1) (r : Fin 128) (cc : Fin 512) :
    (k0_pay58 (k0_pay52 ms m (k0_pay46 (k0_pay42 b0) (k0_pay43 b1) (k0_pay44 b2) (k0_pay45 b0) 128#32) (k0_pay48 f2 (k0_pay44 b2)) (k0_pay49 f0 (k0_pay42 b0)) (k0_pay50 f1 (k0_pay43 b1)) (Scalar.ofBits .f32 0x3F800000#32)) : FVec Ideal S1x1x128x512 .f32) (ix4 a b r cc)
      = FloatOps.mulf (valG (f0 (ix2 r cc)) (f1 (ix2 r cc)) (f2 (ix2 r cc)) (IntOp.addi (b0 (ix2 r cc)) 0#32) (IntOp.addi (b1 (ix2 r cc)) 1#32) (IntOp.addi (b2 (ix2 r cc)) 0#32) (m (ix2 r cc))) (ms (ix2 r cc)) := by
  unfold k0_pay58
  refine (up4 _ _ a b r cc).trans ?_
  rfl
theorem dw_piece3_2 (i : grid0.Coords) (x0 : Vec Ideal S3x128x512 .f32) (x1 : Vec Ideal S128x512 .f32) (x2 : Vec Ideal S3x128x512 .f32) (x : S1x1x128x512.Idx) :
    (k0_pay58 (k0_pay52 (k0_pay3 (View.ld x1 r0_3)) (k0_pay14 (F := Ideal) (k0_pay13 i)) (k0_pay46 (k0_pay42 (k0_pay10 (View.ld x0 r0_0))) (k0_pay43 (k0_pay11 (View.ld x0 r0_1))) (k0_pay44 (k0_pay12 (View.ld x0 r0_2))) (k0_pay45 (k0_pay10 (View.ld x0 r0_0))) 128#32) (k0_pay48 (k0_pay9 (View.ld x0 r0_2)) (k0_pay44 (k0_pay12 (View.ld x0 r0_2)))) (k0_pay49 (k0_pay7 (View.ld x0 r0_0)) (k0_pay42 (k0_pay10 (View.ld x0 r0_0)))) (k0_pay50 (k0_pay8 (View.ld x0 r0_1)) (k0_pay43 (k0_pay11 (View.ld x0 r0_1)))) (Scalar.ofBits .f32 0x3F800000#32)) : FVec Ideal S1x1x128x512 .f32) x = dwBlk (i 0).val x0 x1 x2 (r0_18.emb x) := by
  obtain ⟨a, b, r, cc, rfl⟩ : ∃ a b r cc, x = ix4 a b r cc := ⟨x 0, x 1, x 2, x 3, eq_ix4 x⟩
  rw [dw_slot3_2, f0_at, f1_at, f2_at, b0_at, b1_at, b2_at, m_at, ms_at, emb4 3 2 (by omega) (by omega), dwBlk_at, dif_neg (show ¬ ((⟨3, by omega⟩ : Fin 4)).val < 3 by decide)]
  rfl

theorem dw_slot0_3 (f0 f1 f2 m ms d0 : FVec Ideal S128x512 .f32) (b0 b1 b2 : IVec S128x512 32) (a b : Fin 1) (r : Fin 128) (cc : Fin 512) :
    (k0_pay72 (k0_pay71 ms d0 f0 f1 f2 m (k0_pay59 b0) (k0_pay60 b1) (k0_pay61 b2) (k0_pay62 b0 b1 b2)) : FVec Ideal S1x1x128x512 .f32) (ix4 a b r cc)
      = FloatOps.mulf (d0 (ix2 r cc)) (FloatOps.mulf (valG (f0 (ix2 r cc)) (f1 (ix2 r cc)) (f2 (ix2 r cc)) (IntOp.addi (b0 (ix2 r cc)) 0#32) (IntOp.addi (b1 (ix2 r cc)) 1#32) (IntOp.addi (b2 (ix2 r cc)) 1#32) (m (ix2 r cc))) (ms (ix2 r cc))) := by
  unfold k0_pay72
  refine (up4 _ _ a b r cc).trans ?_
  rfl
theorem dw_piece0_3 (i : grid0.Coords) (x0 : Vec Ideal S3x128x512 .f32) (x1 : Vec Ideal S128x512 .f32) (x2 : Vec Ideal S3x128x512 .f32) (x : S1x1x128x512.Idx) :
    (k0_pay72 (k0_pay71 (k0_pay3 (View.ld x1 r0_3)) (k0_pay4 (View.ld x2 r0_0)) (k0_pay7 (View.ld x0 r0_0)) (k0_pay8 (View.ld x0 r0_1)) (k0_pay9 (View.ld x0 r0_2)) (k0_pay14 (F := Ideal) (k0_pay13 i)) (k0_pay59 (k0_pay10 (View.ld x0 r0_0))) (k0_pay60 (k0_pay11 (View.ld x0 r0_1))) (k0_pay61 (k0_pay12 (View.ld x0 r0_2))) (k0_pay62 (k0_pay10 (View.ld x0 r0_0)) (k0_pay11 (View.ld x0 r0_1)) (k0_pay12 (View.ld x0 r0_2)))) : FVec Ideal S1x1x128x512 .f32) x = dwBlk (i 0).val x0 x1 x2 (r0_20.emb x) := by
  obtain ⟨a, b, r, cc, rfl⟩ : ∃ a b r cc, x = ix4 a b r cc := ⟨x 0, x 1, x 2, x 3, eq_ix4 x⟩
  rw [dw_slot0_3, f0_at, f1_at, f2_at, b0_at, b1_at, b2_at, m_at, ms_at, d0_at, emb4 0 3 (by omega) (by omega), dwBlk_at, dif_pos (show ((⟨0, by omega⟩ : Fin 4)).val < 3 by decide)]
  rfl

theorem dw_slot1_3 (f0 f1 f2 m ms d1 : FVec Ideal S128x512 .f32) (b0 b1 b2 : IVec S128x512 32) (a b : Fin 1) (r : Fin 128) (cc : Fin 512) :
    (k0_pay73 d1 (k0_pay68 ms f0 f1 f2 m (k0_pay59 b0) (k0_pay60 b1) (k0_pay61 b2) (k0_pay62 b0 b1 b2)) : FVec Ideal S1x1x128x512 .f32) (ix4 a b r cc)
      = FloatOps.mulf (d1 (ix2 r cc)) (FloatOps.mulf (valG (f0 (ix2 r cc)) (f1 (ix2 r cc)) (f2 (ix2 r cc)) (IntOp.addi (b0 (ix2 r cc)) 0#32) (IntOp.addi (b1 (ix2 r cc)) 1#32) (IntOp.addi (b2 (ix2 r cc)) 1#32) (m (ix2 r cc))) (ms (ix2 r cc))) := by
  unfold k0_pay73
  refine (up4 _ _ a b r cc).trans ?_
  rfl
theorem dw_piece1_3 (i : grid0.Coords) (x0 : Vec Ideal S3x128x512 .f32) (x1 : Vec Ideal S128x512 .f32) (x2 : Vec Ideal S3x128x512 .f32) (x : S1x1x128x512.Idx) :
    (k0_pay73 (k0_pay5 (View.ld x2 r0_1)) (k0_pay68 (k0_pay3 (View.ld x1 r0_3)) (k0_pay7 (View.ld x0 r0_0)) (k0_pay8 (View.ld x0 r0_1)) (k0_pay9 (View.ld x0 r0_2)) (k0_pay14 (F := Ideal) (k0_pay13 i)) (k0_pay59 (k0_pay10 (View.ld x0 r0_0))) (k0_pay60 (k0_pay11 (View.ld x0 r0_1))) (k0_pay61 (k0_pay12 (View.ld x0 r0_2))) (k0_pay62 (k0_pay10 (View.ld x0 r0_0)) (k0_pay11 (View.ld x0 r0_1)) (k0_pay12 (View.ld x0 r0_2)))) : FVec Ideal S1x1x128x512 .f32) x = dwBlk (i 0).val x0 x1 x2 (r0_21.emb x) := by
  obtain ⟨a, b, r, cc, rfl⟩ : ∃ a b r cc, x = ix4 a b r cc := ⟨x 0, x 1, x 2, x 3, eq_ix4 x⟩
  rw [dw_slot1_3, f0_at, f1_at, f2_at, b0_at, b1_at, b2_at, m_at, ms_at, d1_at, emb4 1 3 (by omega) (by omega), dwBlk_at, dif_pos (show ((⟨1, by omega⟩ : Fin 4)).val < 3 by decide)]
  rfl

theorem dw_slot2_3 (f0 f1 f2 m ms d2 : FVec Ideal S128x512 .f32) (b0 b1 b2 : IVec S128x512 32) (a b : Fin 1) (r : Fin 128) (cc : Fin 512) :
    (k0_pay74 d2 (k0_pay68 ms f0 f1 f2 m (k0_pay59 b0) (k0_pay60 b1) (k0_pay61 b2) (k0_pay62 b0 b1 b2)) : FVec Ideal S1x1x128x512 .f32) (ix4 a b r cc)
      = FloatOps.mulf (d2 (ix2 r cc)) (FloatOps.mulf (valG (f0 (ix2 r cc)) (f1 (ix2 r cc)) (f2 (ix2 r cc)) (IntOp.addi (b0 (ix2 r cc)) 0#32) (IntOp.addi (b1 (ix2 r cc)) 1#32) (IntOp.addi (b2 (ix2 r cc)) 1#32) (m (ix2 r cc))) (ms (ix2 r cc))) := by
  unfold k0_pay74
  refine (up4 _ _ a b r cc).trans ?_
  rfl
theorem dw_piece2_3 (i : grid0.Coords) (x0 : Vec Ideal S3x128x512 .f32) (x1 : Vec Ideal S128x512 .f32) (x2 : Vec Ideal S3x128x512 .f32) (x : S1x1x128x512.Idx) :
    (k0_pay74 (k0_pay6 (View.ld x2 r0_2)) (k0_pay68 (k0_pay3 (View.ld x1 r0_3)) (k0_pay7 (View.ld x0 r0_0)) (k0_pay8 (View.ld x0 r0_1)) (k0_pay9 (View.ld x0 r0_2)) (k0_pay14 (F := Ideal) (k0_pay13 i)) (k0_pay59 (k0_pay10 (View.ld x0 r0_0))) (k0_pay60 (k0_pay11 (View.ld x0 r0_1))) (k0_pay61 (k0_pay12 (View.ld x0 r0_2))) (k0_pay62 (k0_pay10 (View.ld x0 r0_0)) (k0_pay11 (View.ld x0 r0_1)) (k0_pay12 (View.ld x0 r0_2)))) : FVec Ideal S1x1x128x512 .f32) x = dwBlk (i 0).val x0 x1 x2 (r0_22.emb x) := by
  obtain ⟨a, b, r, cc, rfl⟩ : ∃ a b r cc, x = ix4 a b r cc := ⟨x 0, x 1, x 2, x 3, eq_ix4 x⟩
  rw [dw_slot2_3, f0_at, f1_at, f2_at, b0_at, b1_at, b2_at, m_at, ms_at, d2_at, emb4 2 3 (by omega) (by omega), dwBlk_at, dif_pos (show ((⟨2, by omega⟩ : Fin 4)).val < 3 by decide)]
  rfl

theorem dw_slot3_3 (f0 f1 f2 m ms : FVec Ideal S128x512 .f32) (b0 b1 b2 : IVec S128x512 32) (a b : Fin 1) (r : Fin 128) (cc : Fin 512) :
    (k0_pay75 (k0_pay68 ms f0 f1 f2 m (k0_pay59 b0) (k0_pay60 b1) (k0_pay61 b2) (k0_pay62 b0 b1 b2)) : FVec Ideal S1x1x128x512 .f32) (ix4 a b r cc)
      = FloatOps.mulf (valG (f0 (ix2 r cc)) (f1 (ix2 r cc)) (f2 (ix2 r cc)) (IntOp.addi (b0 (ix2 r cc)) 0#32) (IntOp.addi (b1 (ix2 r cc)) 1#32) (IntOp.addi (b2 (ix2 r cc)) 1#32) (m (ix2 r cc))) (ms (ix2 r cc)) := by
  unfold k0_pay75
  refine (up4 _ _ a b r cc).trans ?_
  rfl
theorem dw_piece3_3 (i : grid0.Coords) (x0 : Vec Ideal S3x128x512 .f32) (x1 : Vec Ideal S128x512 .f32) (x2 : Vec Ideal S3x128x512 .f32) (x : S1x1x128x512.Idx) :
    (k0_pay75 (k0_pay68 (k0_pay3 (View.ld x1 r0_3)) (k0_pay7 (View.ld x0 r0_0)) (k0_pay8 (View.ld x0 r0_1)) (k0_pay9 (View.ld x0 r0_2)) (k0_pay14 (F := Ideal) (k0_pay13 i)) (k0_pay59 (k0_pay10 (View.ld x0 r0_0))) (k0_pay60 (k0_pay11 (View.ld x0 r0_1))) (k0_pay61 (k0_pay12 (View.ld x0 r0_2))) (k0_pay62 (k0_pay10 (View.ld x0 r0_0)) (k0_pay11 (View.ld x0 r0_1)) (k0_pay12 (View.ld x0 r0_2)))) : FVec Ideal S1x1x128x512 .f32) x = dwBlk (i 0).val x0 x1 x2 (r0_23.emb x) := by
  obtain ⟨a, b, r, cc, rfl⟩ : ∃ a b r cc, x = ix4 a b r cc := ⟨x 0, x 1, x 2, x 3, eq_ix4 x⟩
  rw [dw_slot3_3, f0_at, f1_at, f2_at, b0_at, b1_at, b2_at, m_at, ms_at, emb4 3 3 (by omega) (by omega), dwBlk_at, dif_neg (show ¬ ((⟨3, by omega⟩ : Fin 4)).val < 3 by decide)]
  rfl

theorem dw_slot0_4 (f0 f1 f2 m ms d0 : FVec Ideal S128x512 .f32) (b0 b1 b2 : IVec S128x512 32) (a b : Fin 1) (r : Fin 128) (cc : Fin 512) :
    (k0_pay86 ms d0 (k0_pay82 f0 f1 f2 m (k0_pay76 b0) (k0_pay77 b1) (k0_pay78 b2) (k0_pay79 b0 b1 b2) (k0_pay80 b2)) : FVec Ideal S1x1x128x512 .f32) (ix4 a b r cc)
      = FloatOps.mulf (d0 (ix2 r cc)) (FloatOps.mulf (valG (f0 (ix2 r cc)) (f1 (ix2 r cc)) (f2 (ix2 r cc)) (IntOp.addi (b0 (ix2 r cc)) 1#32) (IntOp.addi (b1 (ix2 r cc)) 0#32) (IntOp.addi (b2 (ix2 r cc)) 0#32) (m (ix2 r cc))) (ms (ix2 r cc))) := by
  unfold k0_pay86
  refine (up4 _ _ a b r cc).trans ?_
  rfl
theorem dw_piece0_4 (i : grid0.Coords) (x0 : Vec Ideal S3x128x512 .f32) (x1 : Vec Ideal S128x512 .f32) (x2 : Vec Ideal S3x128x512 .f32) (x : S1x1x128x512.Idx) :
    (k0_pay86 (k0_pay3 (View.ld x1 r0_3)) (k0_pay4 (View.ld x2 r0_0)) (k0_pay82 (k0_pay7 (View.ld x0 r0_0)) (k0_pay8 (View.ld x0 r0_1)) (k0_pay9 (View.ld x0 r0_2)) (k0_pay14 (F := Ideal) (k0_pay13 i)) (k0_pay76 (k0_pay10 (View.ld x0 r0_0))) (k0_pay77 (k0_pay11 (View.ld x0 r0_1))) (k0_pay78 (k0_pay12 (View.ld x0 r0_2))) (k0_pay79 (k0_pay10 (View.ld x0 r0_0)) (k0_pay11 (View.ld x0 r0_1)) (k0_pay12 (View.ld x0 r0_2))) (k0_pay80 (k0_pay12 (View.ld x0 r0_2)))) : FVec Ideal S1x1x128x512 .f32) x = dwBlk (i 0).val x0 x1 x2 (r0_25.emb x) := by
  obtain ⟨a, b, r, cc, rfl⟩ : ∃ a b r cc, x = ix4 a b r cc := ⟨x 0, x 1, x 2, x 3, eq_ix4 x⟩
  rw [dw_slot0_4, f0_at, f1_at, f2_at, b0_at, b1_at, b2_at, m_at, ms_at, d0_at, emb4 0 4 (by omega) (by omega), dwBlk_at, dif_pos (show ((⟨0, by omega⟩ : Fin 4)).val < 3 by decide)]
  rfl

theorem dw_slot1_4 (f0 f1 f2 m ms d1 : FVec Ideal S128x512 .f32) (b0 b1 b2 : IVec S128x512 32) (a b : Fin 1) (r : Fin 128) (cc : Fin 512) :
    (k0_pay87 ms d1 (k0_pay82 f0 f1 f2 m (k0_pay76 b0) (k0_pay77 b1) (k0_pay78 b2) (k0_pay79 b0 b1 b2) (k0_pay80 b2)) : FVec Ideal S1x1x128x512 .f32) (ix4 a b r cc)
      = FloatOps.mulf (d1 (ix2 r cc)) (FloatOps.mulf (valG (f0 (ix2 r cc)) (f1 (ix2 r cc)) (f2 (ix2 r cc)) (IntOp.addi (b0 (ix2 r cc)) 1#32) (IntOp.addi (b1 (ix2 r cc)) 0#32) (IntOp.addi (b2 (ix2 r cc)) 0#32) (m (ix2 r cc))) (ms (ix2 r cc))) := by
  unfold k0_pay87
  refine (up4 _ _ a b r cc).trans ?_
  rfl
theorem dw_piece1_4 (i : grid0.Coords) (x0 : Vec Ideal S3x128x512 .f32) (x1 : Vec Ideal S128x512 .f32) (x2 : Vec Ideal S3x128x512 .f32) (x : S1x1x128x512.Idx) :
    (k0_pay87 (k0_pay3 (View.ld x1 r0_3)) (k0_pay5 (View.ld x2 r0_1)) (k0_pay82 (k0_pay7 (View.ld x0 r0_0)) (k0_pay8 (View.ld x0 r0_1)) (k0_pay9 (View.ld x0 r0_2)) (k0_pay14 (F := Ideal) (k0_pay13 i)) (k0_pay76 (k0_pay10 (View.ld x0 r0_0))) (k0_pay77 (k0_pay11 (View.ld x0 r0_1))) (k0_pay78 (k0_pay12 (View.ld x0 r0_2))) (k0_pay79 (k0_pay10 (View.ld x0 r0_0)) (k0_pay11 (View.ld x0 r0_1)) (k0_pay12 (View.ld x0 r0_2))) (k0_pay80 (k0_pay12 (View.ld x0 r0_2)))) : FVec Ideal S1x1x128x512 .f32) x = dwBlk (i 0).val x0 x1 x2 (r0_26.emb x) := by
  obtain ⟨a, b, r, cc, rfl⟩ : ∃ a b r cc, x = ix4 a b r cc := ⟨x 0, x 1, x 2, x 3, eq_ix4 x⟩
  rw [dw_slot1_4, f0_at, f1_at, f2_at, b0_at, b1_at, b2_at, m_at, ms_at, d1_at, emb4 1 4 (by omega) (by omega), dwBlk_at, dif_pos (show ((⟨1, by omega⟩ : Fin 4)).val < 3 by decide)]
  rfl

theorem dw_slot2_4 (f0 f1 f2 m ms d2 : FVec Ideal S128x512 .f32) (b0 b1 b2 : IVec S128x512 32) (a b : Fin 1) (r : Fin 128) (cc : Fin 512) :
    (k0_pay88 ms d2 (k0_pay82 f0 f1 f2 m (k0_pay76 b0) (k0_pay77 b1) (k0_pay78 b2) (k0_pay79 b0 b1 b2) (k0_pay80 b2)) : FVec Ideal S1x1x128x512 .f32) (ix4 a b r cc)
      = FloatOps.mulf (d2 (ix2 r cc)) (FloatOps.mulf (valG (f0 (ix2 r cc)) (f1 (ix2 r cc)) (f2 (ix2 r cc)) (IntOp.addi (b0 (ix2 r cc)) 1#32) (IntOp.addi (b1 (ix2 r cc)) 0#32) (IntOp.addi (b2 (ix2 r cc)) 0#32) (m (ix2 r cc))) (ms (ix2 r cc))) := by
  unfold k0_pay88
  refine (up4 _ _ a b r cc).trans ?_
  rfl
theorem dw_piece2_4 (i : grid0.Coords) (x0 : Vec Ideal S3x128x512 .f32) (x1 : Vec Ideal S128x512 .f32) (x2 : Vec Ideal S3x128x512 .f32) (x : S1x1x128x512.Idx) :
    (k0_pay88 (k0_pay3 (View.ld x1 r0_3)) (k0_pay6 (View.ld x2 r0_2)) (k0_pay82 (k0_pay7 (View.ld x0 r0_0)) (k0_pay8 (View.ld x0 r0_1)) (k0_pay9 (View.ld x0 r0_2)) (k0_pay14 (F := Ideal) (k0_pay13 i)) (k0_pay76 (k0_pay10 (View.ld x0 r0_0))) (k0_pay77 (k0_pay11 (View.ld x0 r0_1))) (k0_pay78 (k0_pay12 (View.ld x0 r0_2))) (k0_pay79 (k0_pay10 (View.ld x0 r0_0)) (k0_pay11 (View.ld x0 r0_1)) (k0_pay12 (View.ld x0 r0_2))) (k0_pay80 (k0_pay12 (View.ld x0 r0_2)))) : FVec Ideal S1x1x128x512 .f32) x = dwBlk (i 0).val x0 x1 x2 (r0_27.emb x) := by
  obtain ⟨a, b, r, cc, rfl⟩ : ∃ a b r cc, x = ix4 a b r cc := ⟨x 0, x 1, x 2, x 3, eq_ix4 x⟩
  rw [dw_slot2_4, f0_at, f1_at, f2_at, b0_at, b1_at, b2_at, m_at, ms_at, d2_at, emb4 2 4 (by omega) (by omega), dwBlk_at, dif_pos (show ((⟨2, by omega⟩ : Fin 4)).val < 3 by decide)]
  rfl

theorem dw_slot3_4 (f0 f1 f2 m ms : FVec Ideal S128x512 .f32) (b0 b1 b2 : IVec S128x512 32) (a b : Fin 1) (r : Fin 128) (cc : Fin 512) :
    (k0_pay89 ms (k0_pay82 f0 f1 f2 m (k0_pay76 b0) (k0_pay77 b1) (k0_pay78 b2) (k0_pay79 b0 b1 b2) (k0_pay80 b2)) : FVec Ideal S1x1x128x512 .f32) (ix4 a b r cc)
      = FloatOps.mulf (valG (f0 (ix2 r cc)) (f1 (ix2 r cc)) (f2 (ix2 r cc)) (IntOp.addi (b0 (ix2 r cc)) 1#32) (IntOp.addi (b1 (ix2 r cc)) 0#32) (IntOp.addi (b2 (ix2 r cc)) 0#32) (m (ix2 r cc))) (ms (ix2 r cc)) := by
  unfold k0_pay89
  refine (up4 _ _ a b r cc).trans ?_
  rfl
theorem dw_piece3_4 (i : grid0.Coords) (x0 : Vec Ideal S3x128x512 .f32) (x1 : Vec Ideal S128x512 .f32) (x2 : Vec Ideal S3x128x512 .f32) (x : S1x1x128x512.Idx) :
    (k0_pay89 (k0_pay3 (View.ld x1 r0_3)) (k0_pay82 (k0_pay7 (View.ld x0 r0_0)) (k0_pay8 (View.ld x0 r0_1)) (k0_pay9 (View.ld x0 r0_2)) (k0_pay14 (F := Ideal) (k0_pay13 i)) (k0_pay76 (k0_pay10 (View.ld x0 r0_0))) (k0_pay77 (k0_pay11 (View.ld x0 r0_1))) (k0_pay78 (k0_pay12 (View.ld x0 r0_2))) (k0_pay79 (k0_pay10 (View.ld x0 r0_0)) (k0_pay11 (View.ld x0 r0_1)) (k0_pay12 (View.ld x0 r0_2))) (k0_pay80 (k0_pay12 (View.ld x0 r0_2)))) : FVec Ideal S1x1x128x512 .f32) x = dwBlk (i 0).val x0 x1 x2 (r0_28.emb x) := by
  obtain ⟨a, b, r, cc, rfl⟩ : ∃ a b r cc, x = ix4 a b r cc := ⟨x 0, x 1, x 2, x 3, eq_ix4 x⟩
  rw [dw_slot3_4, f0_at, f1_at, f2_at, b0_at, b1_at, b2_at, m_at, ms_at, emb4 3 4 (by omega) (by omega), dwBlk_at, dif_neg (show ¬ ((⟨3, by omega⟩ : Fin 4)).val < 3 by decide)]
  rfl

theorem dw_slot0_5 (f0 f1 f2 m ms d0 : FVec Ideal S128x512 .f32) (b0 b1 b2 : IVec S128x512 32) (a b : Fin 1) (r : Fin 128) (cc : Fin 512) :
    (k0_pay103 ms d0 m (k0_pay93 (k0_pay90 b0) (k0_pay91 b1) (k0_pay92 b2) 0#32) (k0_pay95 f1 (k0_pay91 b1)) (k0_pay96 f2 (k0_pay92 b2)) (k0_pay97 f0 (k0_pay90 b0)) (k0_pay98 (F := Ideal)) : FVec Ideal S1x1x128x512 .f32) (ix4 a b r cc)
      = FloatOps.mulf (d0 (ix2 r cc)) (FloatOps.mulf (valG (f0 (ix2 r cc)) (f1 (ix2 r cc)) (f2 (ix2 r cc)) (IntOp.addi (b0 (ix2 r cc)) 1#32) (IntOp.addi (b1 (ix2 r cc)) 0#32) (IntOp.addi (b2 (ix2 r cc)) 1#32) (m (ix2 r cc))) (ms (ix2 r cc))) := by
  unfold k0_pay103
  refine (up4 _ _ a b r cc).trans ?_
  rfl
theorem dw_piece0_5 (i : grid0.Coords) (x0 : Vec Ideal S3x128x512 .f32) (x1 : Vec Ideal S128x512 .f32) (x2 : Vec Ideal S3x128x512 .f32) (x : S1x1x128x512.Idx) :
    (k0_pay103 (k0_pay3 (View.ld x1 r0_3)) (k0_pay4 (View.ld x2 r0_0)) (k0_pay14 (F := Ideal) (k0_pay13 i)) (k0_pay93 (k0_pay90 (k0_pay10 (View.ld x0 r0_0))) (k0_pay91 (k0_pay11 (View.ld x0 r0_1))) (k0_pay92 (k0_pay12 (View.ld x0 r0_2))) 0#32) (k0_pay95 (k0_pay8 (View.ld x0 r0_1)) (k0_pay91 (k0_pay11 (View.ld x0 r0_1)))) (k0_pay96 (k0_pay9 (View.ld x0 r0_2)) (k0_pay92 (k0_pay12 (View.ld x0 r0_2)))) (k0_pay97 (k0_pay7 (View.ld x0 r0_0)) (k0_pay90 (k0_pay10 (View.ld x0 r0_0)))) (k0_pay98 (F := Ideal)) : FVec Ideal S1x1x128x512 .f32) x = dwBlk (i 0).val x0 x1 x2 (r0_30.emb x) := by
  obtain ⟨a, b, r, cc, rfl⟩ : ∃ a b r cc, x = ix4 a b r cc := ⟨x 0, x 1, x 2, x 3, eq_ix4 x⟩
  rw [dw_slot0_5, f0_at, f1_at, f2_at, b0_at, b1_at, b2_at, m_at, ms_at, d0_at, emb4 0 5 (by omega) (by omega), dwBlk_at, dif_pos (show ((⟨0, by omega⟩ : Fin 4)).val < 3 by decide)]
  rfl

theorem dw_slot1_5 (f0 f1 f2 m ms d1 : FVec Ideal S128x512 .f32) (b0 b1 b2 : IVec S128x512 32) (a b : Fin 1) (r : Fin 128) (cc : Fin 512) :
    (k0_pay104 ms d1 m (k0_pay93 (k0_pay90 b0) (k0_pay91 b1) (k0_pay92 b2) 0#32) (k0_pay95 f1 (k0_pay91 b1)) (k0_pay96 f2 (k0_pay92 b2)) (k0_pay97 f0 (k0_pay90 b0)) (k0_pay98 (F := Ideal)) : FVec Ideal S1x1x128x512 .f32) (ix4 a b r cc)
      = FloatOps.mulf (d1 (ix2 r cc)) (FloatOps.mulf (valG (f0 (ix2 r cc)) (f1 (ix2 r cc)) (f2 (ix2 r cc)) (IntOp.addi (b0 (ix2 r cc)) 1#32) (IntOp.addi (b1 (ix2 r cc)) 0#32) (IntOp.addi (b2 (ix2 r cc)) 1#32) (m (ix2 r cc))) (ms (ix2 r cc))) := by
  unfold k0_pay104
  refine (up4 _ _ a b r cc).trans ?_
  rfl
theorem dw_piece1_5 (i : grid0.Coords) (x0 : Vec Ideal S3x128x512 .f32) (x1 : Vec Ideal S128x512 .f32) (x2 : Vec Ideal S3x128x512 .f32) (x : S1x1x128x512.Idx) :
    (k0_pay104 (k0_pay3 (View.ld x1 r0_3)) (k0_pay5 (View.ld x2 r0_1)) (k0_pay14 (F := Ideal) (k0_pay13 i)) (k0_pay93 (k0_pay90 (k0_pay10 (View.ld x0 r0_0))) (k0_pay91 (k0_pay11 (View.ld x0 r0_1))) (k0_pay92 (k0_pay12 (View.ld x0 r0_2))) 0#32) (k0_pay95 (k0_pay8 (View.ld x0 r0_1)) (k0_pay91 (k0_pay11 (View.ld x0 r0_1)))) (k0_pay96 (k0_pay9 (View.ld x0 r0_2)) (k0_pay92 (k0_pay12 (View.ld x0 r0_2)))) (k0_pay97 (k0_pay7 (View.ld x0 r0_0)) (k0_pay90 (k0_pay10 (View.ld x0 r0_0)))) (k0_pay98 (F := Ideal)) : FVec Ideal S1x1x128x512 .f32) x = dwBlk (i 0).val x0 x1 x2 (r0_31.emb x) := by
  obtain ⟨a, b, r, cc, rfl⟩ : ∃ a b r cc, x = ix4 a b r cc := ⟨x 0, x 1, x 2, x 3, eq_ix4 x⟩
  rw [dw_slot1_5, f0_at, f1_at, f2_at, b0_at, b1_at, b2_at, m_at, ms_at, d1_at, emb4 1 5 (by omega) (by omega), dwBlk_at, dif_pos (show ((⟨1, by omega⟩ : Fin 4)).val < 3 by decide)]
  rfl

theorem dw_slot2_5 (f0 f1 f2 m ms d2 : FVec Ideal S128x512 .f32) (b0 b1 b2 : IVec S128x512 32) (a b : Fin 1) (r : Fin 128) (cc : Fin 512) :
    (k0_pay106 (k0_pay105 ms d2 m (k0_pay93 (k0_pay90 b0) (k0_pay91 b1) (k0_pay92 b2) 0#32) (k0_pay95 f1 (k0_pay91 b1)) (k0_pay96 f2 (k0_pay92 b2)) (k0_pay97 f0 (k0_pay90 b0)) (k0_pay98 (F := Ideal))) : FVec Ideal S1x1x128x512 .f32) (ix4 a b r cc)
      = FloatOps.mulf (d2 (ix2 r cc)) (FloatOps.mulf (valG (f0 (ix2 r cc)) (f1 (ix2 r cc)) (f2 (ix2 r cc)) (IntOp.addi (b0 (ix2 r cc)) 1#32) (IntOp.addi (b1 (ix2 r cc)) 0#32) (IntOp.addi (b2 (ix2 r cc)) 1#32) (m (ix2 r cc))) (ms (ix2 r cc))) := by
  unfold k0_pay106
  refine (up4 _ _ a b r cc).trans ?_
  rfl
theorem dw_piece2_5 (i : grid0.Coords) (x0 : Vec Ideal S3x128x512 .f32) (x1 : Vec Ideal S128x512 .f32) (x2 : Vec Ideal S3x128x512 .f32) (x : S1x1x128x512.Idx) :
    (k0_pay106 (k0_pay105 (k0_pay3 (View.ld x1 r0_3)) (k0_pay6 (View.ld x2 r0_2)) (k0_pay14 (F := Ideal) (k0_pay13 i)) (k0_pay93 (k0_pay90 (k0_pay10 (View.ld x0 r0_0))) (k0_pay91 (k0_pay11 (View.ld x0 r0_1))) (k0_pay92 (k0_pay12 (View.ld x0 r0_2))) 0#32) (k0_pay95 (k0_pay8 (View.ld x0 r0_1)) (k0_pay91 (k0_pay11 (View.ld x0 r0_1)))) (k0_pay96 (k0_pay9 (View.ld x0 r0_2)) (k0_pay92 (k0_pay12 (View.ld x0 r0_2)))) (k0_pay97 (k0_pay7 (View.ld x0 r0_0)) (k0_pay90 (k0_pay10 (View.ld x0 r0_0)))) (k0_pay98 (F := Ideal))) : FVec Ideal S1x1x128x512 .f32) x = dwBlk (i 0).val x0 x1 x2 (r0_32.emb x) := by
  obtain ⟨a, b, r, cc, rfl⟩ : ∃ a b r cc, x = ix4 a b r cc := ⟨x 0, x 1, x 2, x 3, eq_ix4 x⟩
  rw [dw_slot2_5, f0_at, f1_at, f2_at, b0_at, b1_at, b2_at, m_at, ms_at, d2_at, emb4 2 5 (by omega) (by omega), dwBlk_at, dif_pos (show ((⟨2, by omega⟩ : Fin 4)).val < 3 by decide)]
  rfl

theorem dw_slot3_5 (f0 f1 f2 m ms : FVec Ideal S128x512 .f32) (b0 b1 b2 : IVec S128x512 32) (a b : Fin 1) (r : Fin 128) (cc : Fin 512) :
    (k0_pay107 (k0_pay100 ms m (k0_pay93 (k0_pay90 b0) (k0_pay91 b1) (k0_pay92 b2) 0#32) (k0_pay95 f1 (k0_pay91 b1)) (k0_pay96 f2 (k0_pay92 b2)) (k0_pay97 f0 (k0_pay90 b0)) (k0_pay98 (F := Ideal))) : FVec Ideal S1x1x128x512 .f32) (ix4 a b r cc)
      = FloatOps.mulf (valG (f0 (ix2 r cc)) (f1 (ix2 r cc)) (f2 (ix2 r cc)) (IntOp.addi (b0 (ix2 r cc)) 1#32) (IntOp.addi (b1 (ix2 r cc)) 0#32) (IntOp.addi (b2 (ix2 r cc)) 1#32) (m (ix2 r cc))) (ms (ix2 r cc)) := by
  unfold k0_pay107
  refine (up4 _ _ a b r cc).trans ?_
  rfl
theorem dw_piece3_5 (i : grid0.Coords) (x0 : Vec Ideal S3x128x512 .f32) (x1 : Vec Ideal S128x512 .f32) (x2 : Vec Ideal S3x128x512 .f32) (x : S1x1x128x512.Idx) :
    (k0_pay107 (k0_pay100 (k0_pay3 (View.ld x1 r0_3)) (k0_pay14 (F := Ideal) (k0_pay13 i)) (k0_pay93 (k0_pay90 (k0_pay10 (View.ld x0 r0_0))) (k0_pay91 (k0_pay11 (View.ld x0 r0_1))) (k0_pay92 (k0_pay12 (View.ld x0 r0_2))) 0#32) (k0_pay95 (k0_pay8 (View.ld x0 r0_1)) (k0_pay91 (k0_pay11 (View.ld x0 r0_1)))) (k0_pay96 (k0_pay9 (View.ld x0 r0_2)) (k0_pay92 (k0_pay12 (View.ld x0 r0_2)))) (k0_pay97 (k0_pay7 (View.ld x0 r0_0)) (k0_pay90 (k0_pay10 (View.ld x0 r0_0)))) (k0_pay98 (F := Ideal))) : FVec Ideal S1x1x128x512 .f32) x = dwBlk (i 0).val x0 x1 x2 (r0_33.emb x) := by
  obtain ⟨a, b, r, cc, rfl⟩ : ∃ a b r cc, x = ix4 a b r cc := ⟨x 0, x 1, x 2, x 3, eq_ix4 x⟩
  rw [dw_slot3_5, f0_at, f1_at, f2_at, b0_at, b1_at, b2_at, m_at, ms_at, emb4 3 5 (by omega) (by omega), dwBlk_at, dif_neg (show ¬ ((⟨3, by omega⟩ : Fin 4)).val < 3 by decide)]
  rfl

theorem dw_slot0_6 (f0 f1 f2 m ms d0 : FVec Ideal S128x512 .f32) (b0 b1 b2 : IVec S128x512 32) (a b : Fin 1) (r : Fin 128) (cc : Fin 512) :
    (k0_pay121 (k0_pay120 ms d0 f0 f1 f2 m (k0_pay108 b0) (k0_pay109 b1) (k0_pay110 b2) (k0_pay111 b0 b1 b2)) : FVec Ideal S1x1x128x512 .f32) (ix4 a b r cc)
      = FloatOps.mulf (d0 (ix2 r cc)) (FloatOps.mulf (valG (f0 (ix2 r cc)) (f1 (ix2 r cc)) (f2 (ix2 r cc)) (IntOp.addi (b0 (ix2 r cc)) 1#32) (IntOp.addi (b1 (ix2 r cc)) 1#32) (IntOp.addi (b2 (ix2 r cc)) 0#32) (m (ix2 r cc))) (ms (ix2 r cc))) := by
  unfold k0_pay121
  refine (up4 _ _ a b r cc).trans ?_
  rfl
theorem dw_piece0_6 (i : grid0.Coords) (x0 : Vec Ideal S3x128x512 .f32) (x1 : Vec Ideal S128x512 .f32) (x2 : Vec Ideal S3x128x512 .f32) (x : S1x1x128x512.Idx) :
    (k0_pay121 (k0_pay120 (k0_pay3 (View.ld x1 r0_3)) (k0_pay4 (View.ld x2 r0_0)) (k0_pay7 (View.ld x0 r0_0)) (k0_pay8 (View.ld x0 r0_1)) (k0_pay9 (View.ld x0 r0_2)) (k0_pay14 (F := Ideal) (k0_pay13 i)) (k0_pay108 (k0_pay10 (View.ld x0 r0_0))) (k0_pay109 (k0_pay11 (View.ld x0 r0_1))) (k0_pay110 (k0_pay12 (View.ld x0 r0_2))) (k0_pay111 (k0_pay10 (View.ld x0 r0_0)) (k0_pay11 (View.ld x0 r0_1)) (k0_pay12 (View.ld x0 r0_2)))) : FVec Ideal S1x1x128x512 .f32) x = dwBlk (i 0).val x0 x1 x2 (r0_35.emb x) := by
  obtain ⟨a, b, r, cc, rfl⟩ : ∃ a b r cc, x = ix4 a b r cc := ⟨x 0, x 1, x 2, x 3, eq_ix4 x⟩
  rw [dw_slot0_6, f0_at, f1_at, f2_at, b0_at, b1_at, b2_at, m_at, ms_at, d0_at, emb4 0 6 (by omega) (by omega), dwBlk_at, dif_pos (show ((⟨0, by omega⟩ : Fin 4)).val < 3 by decide)]
  rfl

theorem dw_slot1_6 (f0 f1 f2 m ms d1 : FVec Ideal S128x512 .f32) (b0 b1 b2 : IVec S128x512 32) (a b : Fin 1) (r : Fin 128) (cc : Fin 512) :
    (k0_pay122 d1 (k0_pay117 ms f0 f1 f2 m (k0_pay108 b0) (k0_pay109 b1) (k0_pay110 b2) (k0_pay111 b0 b1 b2)) : FVec Ideal S1x1x128x512 .f32) (ix4 a b r cc)
      = FloatOps.mulf (d1 (ix2 r cc)) (FloatOps.mulf (valG (f0 (ix2 r cc)) (f1 (ix2 r cc)) (f2 (ix2 r cc)) (IntOp.addi (b0 (ix2 r cc)) 1#32) (IntOp.addi (b1 (ix2 r cc)) 1#32) (IntOp.addi (b2 (ix2 r cc)) 0#32) (m (ix2 r cc))) (ms (ix2 r cc))) := by
  unfold k0_pay122
  refine (up4 _ _ a b r cc).trans ?_
  rfl
theorem dw_piece1_6 (i : grid0.Coords) (x0 : Vec Ideal S3x128x512 .f32) (x1 : Vec Ideal S128x512 .f32) (x2 : Vec Ideal S3x128x512 .f32) (x : S1x1x128x512.Idx) :
    (k0_pay122 (k0_pay5 (View.ld x2 r0_1)) (k0_pay117 (k0_pay3 (View.ld x1 r0_3)) (k0_pay7 (View.ld x0 r0_0)) (k0_pay8 (View.ld x0 r0_1)) (k0_pay9 (View.ld x0 r0_2)) (k0_pay14 (F := Ideal) (k0_pay13 i)) (k0_pay108 (k0_pay10 (View.ld x0 r0_0))) (k0_pay109 (k0_pay11 (View.ld x0 r0_1))) (k0_pay110 (k0_pay12 (View.ld x0 r0_2))) (k0_pay111 (k0_pay10 (View.ld x0 r0_0)) (k0_pay11 (View.ld x0 r0_1)) (k0_pay12 (View.ld x0 r0_2)))) : FVec Ideal S1x1x128x512 .f32) x = dwBlk (i 0).val x0 x1 x2 (r0_36.emb x) := by
  obtain ⟨a, b, r, cc, rfl⟩ : ∃ a b r cc, x = ix4 a b r cc := ⟨x 0, x 1, x 2, x 3, eq_ix4 x⟩
  rw [dw_slot1_6, f0_at, f1_at, f2_at, b0_at, b1_at, b2_at, m_at, ms_at, d1_at, emb4 1 6 (by omega) (by omega), dwBlk_at, dif_pos (show ((⟨1, by omega⟩ : Fin 4)).val < 3 by decide)]
  rfl

theorem dw_slot2_6 (f0 f1 f2 m ms d2 : FVec Ideal S128x512 .f32) (b0 b1 b2 : IVec S128x512 32) (a b : Fin 1) (r : Fin 128) (cc : Fin 512) :
    (k0_pay123 d2 (k0_pay117 ms f0 f1 f2 m (k0_pay108 b0) (k0_pay109 b1) (k0_pay110 b2) (k0_pay111 b0 b1 b2)) : FVec Ideal S1x1x128x512 .f32) (ix4 a b r cc)
      = FloatOps.mulf (d2 (ix2 r cc)) (FloatOps.mulf (valG (f0 (ix2 r cc)) (f1 (ix2 r cc)) (f2 (ix2 r cc)) (IntOp.addi (b0 (ix2 r cc)) 1#32) (IntOp.addi (b1 (ix2 r cc)) 1#32) (IntOp.addi (b2 (ix2 r cc)) 0#32) (m (ix2 r cc))) (ms (ix2 r cc))) := by
  unfold k0_pay123
  refine (up4 _ _ a b r cc).trans ?_
  rfl
theorem dw_piece2_6 (i : grid0.Coords) (x0 : Vec Ideal S3x128x512 .f32) (x1 : Vec Ideal S128x512 .f32) (x2 : Vec Ideal S3x128x512 .f32) (x : S1x1x128x512.Idx) :
    (k0_pay123 (k0_pay6 (View.ld x2 r0_2)) (k0_pay117 (k0_pay3 (View.ld x1 r0_3)) (k0_pay7 (View.ld x0 r0_0)) (k0_pay8 (View.ld x0 r0_1)) (k0_pay9 (View.ld x0 r0_2)) (k0_pay14 (F := Ideal) (k0_pay13 i)) (k0_pay108 (k0_pay10 (View.ld x0 r0_0))) (k0_pay109 (k0_pay11 (View.ld x0 r0_1))) (k0_pay110 (k0_pay12 (View.ld x0 r0_2))) (k0_pay111 (k0_pay10 (View.ld x0 r0_0)) (k0_pay11 (View.ld x0 r0_1)) (k0_pay12 (View.ld x0 r0_2)))) : FVec Ideal S1x1x128x512 .f32) x = dwBlk (i 0).val x0 x1 x2 (r0_37.emb x) := by
  obtain ⟨a, b, r, cc, rfl⟩ : ∃ a b r cc, x = ix4 a b r cc := ⟨x 0, x 1, x 2, x 3, eq_ix4 x⟩
  rw [dw_slot2_6, f0_at, f1_at, f2_at, b0_at, b1_at, b2_at, m_at, ms_at, d2_at, emb4 2 6 (by omega) (by omega), dwBlk_at, dif_pos (show ((⟨2, by omega⟩ : Fin 4)).val < 3 by decide)]
  rfl

theorem dw_slot3_6 (f0 f1 f2 m ms : FVec Ideal S128x512 .f32) (b0 b1 b2 : IVec S128x512 32) (a b : Fin 1) (r : Fin 128) (cc : Fin 512) :
    (k0_pay124 (k0_pay117 ms f0 f1 f2 m (k0_pay108 b0) (k0_pay109 b1) (k0_pay110 b2) (k0_pay111 b0 b1 b2)) : FVec Ideal S1x1x128x512 .f32) (ix4 a b r cc)
      = FloatOps.mulf (valG (f0 (ix2 r cc)) (f1 (ix2 r cc)) (f2 (ix2 r cc)) (IntOp.addi (b0 (ix2 r cc)) 1#32) (IntOp.addi (b1 (ix2 r cc)) 1#32) (IntOp.addi (b2 (ix2 r cc)) 0#32) (m (ix2 r cc))) (ms (ix2 r cc)) := by
  unfold k0_pay124
  refine (up4 _ _ a b r cc).trans ?_
  rfl
theorem dw_piece3_6 (i : grid0.Coords) (x0 : Vec Ideal S3x128x512 .f32) (x1 : Vec Ideal S128x512 .f32) (x2 : Vec Ideal S3x128x512 .f32) (x : S1x1x128x512.Idx) :
    (k0_pay124 (k0_pay117 (k0_pay3 (View.ld x1 r0_3)) (k0_pay7 (View.ld x0 r0_0)) (k0_pay8 (View.ld x0 r0_1)) (k0_pay9 (View.ld x0 r0_2)) (k0_pay14 (F := Ideal) (k0_pay13 i)) (k0_pay108 (k0_pay10 (View.ld x0 r0_0))) (k0_pay109 (k0_pay11 (View.ld x0 r0_1))) (k0_pay110 (k0_pay12 (View.ld x0 r0_2))) (k0_pay111 (k0_pay10 (View.ld x0 r0_0)) (k0_pay11 (View.ld x0 r0_1)) (k0_pay12 (View.ld x0 r0_2)))) : FVec Ideal S1x1x128x512 .f32) x = dwBlk (i 0).val x0 x1 x2 (r0_38.emb x) := by
  obtain ⟨a, b, r, cc, rfl⟩ : ∃ a b r cc, x = ix4 a b r cc := ⟨x 0, x 1, x 2, x 3, eq_ix4 x⟩
  rw [dw_slot3_6, f0_at, f1_at, f2_at, b0_at, b1_at, b2_at, m_at, ms_at, emb4 3 6 (by omega) (by omega), dwBlk_at, dif_neg (show ¬ ((⟨3, by omega⟩ : Fin 4)).val < 3 by decide)]
  rfl

theorem dw_slot0_7 (f0 f1 f2 m ms d0 : FVec Ideal S128x512 .f32) (b0 b1 b2 : IVec S128x512 32) (a b : Fin 1) (r : Fin 128) (cc : Fin 512) :
    (k0_pay136 ms d0 m (k0_pay130 f0 f1 f2 (k0_pay125 b0) (k0_pay126 b1) (k0_pay127 b2)) (k0_pay131 (k0_pay127 b2) (k0_pay128 b0 b1 b2)) : FVec Ideal S1x1x128x512 .f32) (ix4 a b r cc)
      = FloatOps.mulf (d0 (ix2 r cc)) (FloatOps.mulf (valG (f0 (ix2 r cc)) (f1 (ix2 r cc)) (f2 (ix2 r cc)) (IntOp.addi (b0 (ix2 r cc)) 1#32) (IntOp.addi (b1 (ix2 r cc)) 1#32) (IntOp.addi (b2 (ix2 r cc)) 1#32) (m (ix2 r cc))) (ms (ix2 r cc))) := by
  unfold k0_pay136
  refine (up4 _ _ a b r cc).trans ?_
  rfl
theorem dw_piece0_7 (i : grid0.Coords) (x0 : Vec Ideal S3x128x512 .f32) (x1 : Vec Ideal S128x512 .f32) (x2 : Vec Ideal S3x128x512 .f32) (x : S1x1x128x512.Idx) :
    (k0_pay136 (k0_pay3 (View.ld x1 r0_3)) (k0_pay4 (View.ld x2 r0_0)) (k0_pay14 (F := Ideal) (k0_pay13 i)) (k0_pay130 (k0_pay7 (View.ld x0 r0_0)) (k0_pay8 (View.ld x0 r0_1)) (k0_pay9 (View.ld x0 r0_2)) (k0_pay125 (k0_pay10 (View.ld x0 r0_0))) (k0_pay126 (k0_pay11 (View.ld x0 r0_1))) (k0_pay127 (k0_pay12 (View.ld x0 r0_2)))) (k0_pay131 (k0_pay127 (k0_pay12 (View.ld x0 r0_2))) (k0_pay128 (k0_pay10 (View.ld x0 r0_0)) (k0_pay11 (View.ld x0 r0_1)) (k0_pay12 (View.ld x0 r0_2)))) : FVec Ideal S1x1x128x512 .f32) x = dwBlk (i 0).val x0 x1 x2 (r0_40.emb x) := by
  obtain ⟨a, b, r, cc, rfl⟩ : ∃ a b r cc, x = ix4 a b r cc := ⟨x 0, x 1, x 2, x 3, eq_ix4 x⟩
  rw [dw_slot0_7, f0_at, f1_at, f2_at, b0_at, b1_at, b2_at, m_at, ms_at, d0_at, emb4 0 7 (by omega) (by omega), dwBlk_at, dif_pos (show ((⟨0, by omega⟩ : Fin 4)).val < 3 by decide)]
  rfl

theorem dw_slot1_7 (f0 f1 f2 m ms d1 : FVec Ideal S128x512 .f32) (b0 b1 b2 : IVec S128x512 32) (a b : Fin 1) (r : Fin 128) (cc : Fin 512) :
    (k0_pay137 ms d1 m (k0_pay130 f0 f1 f2 (k0_pay125 b0) (k0_pay126 b1) (k0_pay127 b2)) (k0_pay131 (k0_pay127 b2) (k0_pay128 b0 b1 b2)) : FVec Ideal S1x1x128x512 .f32) (ix4 a b r cc)
      = FloatOps.mulf (d1 (ix2 r cc)) (FloatOps.mulf (valG (f0 (ix2 r cc)) (f1 (ix2 r cc)) (f2 (ix2 r cc)) (IntOp.addi (b0 (ix2 r cc)) 1#32) (IntOp.addi (b1 (ix2 r cc)) 1#32) (IntOp.addi (b2 (ix2 r cc)) 1#32) (m (ix2 r cc))) (ms (ix2 r cc))) := by
  unfold k0_pay137
  refine (up4 _ _ a b r cc).trans ?_
  rfl
theorem dw_piece1_7 (i : grid0.Coords) (x0 : Vec Ideal S3x128x512 .f32) (x1 : Vec Ideal S128x512 .f32) (x2 : Vec Ideal S3x128x512 .f32) (x : S1x1x128x512.Idx) :
    (k0_pay137 (k0_pay3 (View.ld x1 r0_3)) (k0_pay5 (View.ld x2 r0_1)) (k0_pay14 (F := Ideal) (k0_pay13 i)) (k0_pay130 (k0_pay7 (View.ld x0 r0_0)) (k0_pay8 (View.ld x0 r0_1)) (k0_pay9 (View.ld x0 r0_2)) (k0_pay125 (k0_pay10 (View.ld x0 r0_0))) (k0_pay126 (k0_pay11 (View.ld x0 r0_1))) (k0_pay127 (k0_pay12 (View.ld x0 r0_2)))) (k0_pay131 (k0_pay127 (k0_pay12 (View.ld x0 r0_2))) (k0_pay128 (k0_pay10 (View.ld x0 r0_0)) (k0_pay11 (View.ld x0 r0_1)) (k0_pay12 (View.ld x0 r0_2)))) : FVec Ideal S1x1x128x512 .f32) x = dwBlk (i 0).val x0 x1 x2 (r0_41.emb x) := by
  obtain ⟨a, b, r, cc, rfl⟩ : ∃ a b r cc, x = ix4 a b r cc := ⟨x 0, x 1, x 2, x 3, eq_ix4 x⟩
  rw [dw_slot1_7, f0_at, f1_at, f2_at, b0_at, b1_at, b2_at, m_at, ms_at, d1_at, emb4 1 7 (by omega) (by omega), dwBlk_at, dif_pos (show ((⟨1, by omega⟩ : Fin 4)).val < 3 by decide)]
  rfl

theorem dw_slot2_7 (f0 f1 f2 m ms d2 : FVec Ideal S128x512 .f32) (b0 b1 b2 : IVec S128x512 32) (a b : Fin 1) (r : Fin 128) (cc : Fin 512) :
    (k0_pay1 (k0_pay138 ms d2 m (k0_pay130 f0 f1 f2 (k0_pay125 b0) (k0_pay126 b1) (k0_pay127 b2)) (k0_pay131 (k0_pay127 b2) (k0_pay128 b0 b1 b2))) : FVec Ideal S1x1x128x512 .f32) (ix4 a b r cc)
      = FloatOps.mulf (d2 (ix2 r cc)) (FloatOps.mulf (valG (f0 (ix2 r cc)) (f1 (ix2 r cc)) (f2 (ix2 r cc)) (IntOp.addi (b0 (ix2 r cc)) 1#32) (IntOp.addi (b1 (ix2 r cc)) 1#32) (IntOp.addi (b2 (ix2 r cc)) 1#32) (m (ix2 r cc))) (ms (ix2 r cc))) := by
  unfold k0_pay1
  refine (up4 _ _ a b r cc).trans ?_
  rfl
theorem dw_piece2_7 (i : grid0.Coords) (x0 : Vec Ideal S3x128x512 .f32) (x1 : Vec Ideal S128x512 .f32) (x2 : Vec Ideal S3x128x512 .f32) (x : S1x1x128x512.Idx) :
    (k0_pay1 (k0_pay138 (k0_pay3 (View.ld x1 r0_3)) (k0_pay6 (View.ld x2 r0_2)) (k0_pay14 (F := Ideal) (k0_pay13 i)) (k0_pay130 (k0_pay7 (View.ld x0 r0_0)) (k0_pay8 (View.ld x0 r0_1)) (k0_pay9 (View.ld x0 r0_2)) (k0_pay125 (k0_pay10 (View.ld x0 r0_0))) (k0_pay126 (k0_pay11 (View.ld x0 r0_1))) (k0_pay127 (k0_pay12 (View.ld x0 r0_2)))) (k0_pay131 (k0_pay127 (k0_pay12 (View.ld x0 r0_2))) (k0_pay128 (k0_pay10 (View.ld x0 r0_0)) (k0_pay11 (View.ld x0 r0_1)) (k0_pay12 (View.ld x0 r0_2))))) : FVec Ideal S1x1x128x512 .f32) x = dwBlk (i 0).val x0 x1 x2 (r0_42.emb x) := by
  obtain ⟨a, b, r, cc, rfl⟩ : ∃ a b r cc, x = ix4 a b r cc := ⟨x 0, x 1, x 2, x 3, eq_ix4 x⟩
  rw [dw_slot2_7, f0_at, f1_at, f2_at, b0_at, b1_at, b2_at, m_at, ms_at, d2_at, emb4 2 7 (by omega) (by omega), dwBlk_at, dif_pos (show ((⟨2, by omega⟩ : Fin 4)).val < 3 by decide)]
  rfl

theorem dw_slot3_7 (f0 f1 f2 m ms : FVec Ideal S128x512 .f32) (b0 b1 b2 : IVec S128x512 32) (a b : Fin 1) (r : Fin 128) (cc : Fin 512) :
    (k0_pay2 (k0_pay133 ms m (k0_pay130 f0 f1 f2 (k0_pay125 b0) (k0_pay126 b1) (k0_pay127 b2)) (k0_pay131 (k0_pay127 b2) (k0_pay128 b0 b1 b2))) : FVec Ideal S1x1x128x512 .f32) (ix4 a b r cc)
      = FloatOps.mulf (valG (f0 (ix2 r cc)) (f1 (ix2 r cc)) (f2 (ix2 r cc)) (IntOp.addi (b0 (ix2 r cc)) 1#32) (IntOp.addi (b1 (ix2 r cc)) 1#32) (IntOp.addi (b2 (ix2 r cc)) 1#32) (m (ix2 r cc))) (ms (ix2 r cc)) := by
  unfold k0_pay2
  refine (up4 _ _ a b r cc).trans ?_
  rfl
theorem dw_piece3_7 (i : grid0.Coords) (x0 : Vec Ideal S3x128x512 .f32) (x1 : Vec Ideal S128x512 .f32) (x2 : Vec Ideal S3x128x512 .f32) (x : S1x1x128x512.Idx) :
    (k0_pay2 (k0_pay133 (k0_pay3 (View.ld x1 r0_3)) (k0_pay14 (F := Ideal) (k0_pay13 i)) (k0_pay130 (k0_pay7 (View.ld x0 r0_0)) (k0_pay8 (View.ld x0 r0_1)) (k0_pay9 (View.ld x0 r0_2)) (k0_pay125 (k0_pay10 (View.ld x0 r0_0))) (k0_pay126 (k0_pay11 (View.ld x0 r0_1))) (k0_pay127 (k0_pay12 (View.ld x0 r0_2)))) (k0_pay131 (k0_pay127 (k0_pay12 (View.ld x0 r0_2))) (k0_pay128 (k0_pay10 (View.ld x0 r0_0)) (k0_pay11 (View.ld x0 r0_1)) (k0_pay12 (View.ld x0 r0_2))))) : FVec Ideal S1x1x128x512 .f32) x = dwBlk (i 0).val x0 x1 x2 (r0_43.emb x) := by
  obtain ⟨a, b, r, cc, rfl⟩ : ∃ a b r cc, x = ix4 a b r cc := ⟨x 0, x 1, x 2, x 3, eq_ix4 x⟩
  rw [dw_slot3_7, f0_at, f1_at, f2_at, b0_at, b1_at, b2_at, m_at, ms_at, emb4 3 7 (by omega) (by omega), dwBlk_at, dif_neg (show ¬ ((⟨3, by omega⟩ : Fin 4)).val < 3 by decide)]
  rfl

/-- The update buffer after the body is the block's update planes. -/
theorem out5_eq (i : grid0.Coords) (x0 : Vec Ideal S3x128x512 .f32) (x1 : Vec Ideal S128x512 .f32) (x2 : Vec Ideal S3x128x512 .f32) :
    out0_5 i x0 x1 x2 = dwBlk (i 0).val x0 x1 x2 := by
  funext y
  unfold out0_5
  refine View.canon_apply_of_pieces (dwBlk (i 0).val x0 x1 x2) _ ?_ y (cover0_5 _ _ _ _ _ _ _ _ _ _ _ _ _ _ _ _ _ _ _ _ _ _ _ _ _ _ _ _ _ _ _ _ y)
  intro p hp x
  simp only [List.mem_cons, List.not_mem_nil, or_false] at hp
  rcases hp with rfl | rfl | rfl | rfl | rfl | rfl | rfl | rfl | rfl | rfl | rfl | rfl | rfl | rfl | rfl | rfl | rfl | rfl | rfl | rfl | rfl | rfl | rfl | rfl | rfl | rfl | rfl | rfl | rfl | rfl | rfl | rfl
  exacts [dw_piece3_7 i x0 x1 x2 x, dw_piece2_7 i x0 x1 x2 x, dw_piece1_7 i x0 x1 x2 x, dw_piece0_7 i x0 x1 x2 x, dw_piece3_6 i x0 x1 x2 x, dw_piece2_6 i x0 x1 x2 x, dw_piece1_6 i x0 x1 x2 x, dw_piece0_6 i x0 x1 x2 x, dw_piece3_5 i x0 x1 x2 x, dw_piece2_5 i x0 x1 x2 x, dw_piece1_5 i x0 x1 x2 x, dw_piece0_5 i x0 x1 x2 x, dw_piece3_4 i x0 x1 x2 x, dw_piece2_4 i x0 x1 x2 x, dw_piece1_4 i x0 x1 x2 x, dw_piece0_4 i x0 x1 x2 x, dw_piece3_3 i x0 x1 x2 x, dw_piece2_3 i x0 x1 x2 x, dw_piece1_3 i x0 x1 x2 x, dw_piece0_3 i x0 x1 x2 x, dw_piece3_2 i x0 x1 x2 x, dw_piece2_2 i x0 x1 x2 x, dw_piece1_2 i x0 x1 x2 x, dw_piece0_2 i x0 x1 x2 x, dw_piece3_1 i x0 x1 x2 x, dw_piece2_1 i x0 x1 x2 x, dw_piece1_1 i x0 x1 x2 x, dw_piece0_1 i x0 x1 x2 x, dw_piece3_0 i x0 x1 x2 x, dw_piece2_0 i x0 x1 x2 x, dw_piece1_0 i x0 x1 x2 x, dw_piece0_0 i x0 x1 x2 x]

/-! ## From blocks to the arrays -/

/-- The block index maps, decided over the eight grid points: block t of every window is at row block t, at offset 0 on the
    other axes; the grid coordinate of point t is t. -/
theorem idx_facts : ∀ t : Fin cfg0.N,
    (win0_0.index t (0 : Fin 3) = 0 ∧ win0_0.index t (1 : Fin 3) = t.val ∧ win0_0.index t (2 : Fin 3) = 0)
    ∧ (win0_1.index t (0 : Fin 2) = t.val ∧ win0_1.index t (1 : Fin 2) = 0)
    ∧ (win0_2.index t (0 : Fin 3) = 0 ∧ win0_2.index t (1 : Fin 3) = t.val ∧ win0_2.index t (2 : Fin 3) = 0)
    ∧ (win0_3.index t (0 : Fin 3) = 0 ∧ win0_3.index t (1 : Fin 3) = t.val ∧ win0_3.index t (2 : Fin 3) = 0)
    ∧ (win0_4.index t (0 : Fin 3) = 0 ∧ win0_4.index t (1 : Fin 3) = t.val ∧ win0_4.index t (2 : Fin 3) = 0)
    ∧ (win0_5.index t (0 : Fin 4) = 0 ∧ win0_5.index t (1 : Fin 4) = 0 ∧ win0_5.index t (2 : Fin 4) = t.val ∧ win0_5.index t (3 : Fin 4) = 0)
    ∧ (grid0.coords t 0).val = t.val :=
  (by decide +kernel : ∀ t : Fin grid0.N, _)

theorem t_lt (t : Fin cfg0.N) : t.val < 8 := lt_of_lt_of_eq t.isLt N_0

/-- An element of block t of an 8-slot array sits at row 128 t + r. -/
theorem emb_w3 (t : Fin cfg0.N) (k : Fin 8) (r : Fin 128) (cc : Fin 512) (R : Fin 1024) (hR : R.val = 128 * t.val + r.val) :
    (((cfg0.win 3).blk t).view.emb (ix3 k r cc) : T8.Idx) = ix3 k R cc := by
  obtain ⟨-, -, -, ⟨e0, e1, e2⟩, -, -, -⟩ := idx_facts t
  funext d; apply Fin.ext
  match d with
  | ⟨0, _⟩ => show win0_3.index t (0 : Fin 3) * 8 + 1 * k.val = k.val; rw [e0]; omega
  | ⟨1, _⟩ => show win0_3.index t (1 : Fin 3) * 128 + 1 * r.val = R.val; rw [e1, hR]; omega
  | ⟨2, _⟩ => show win0_3.index t (2 : Fin 3) * 512 + 1 * cc.val = cc.val; rw [e2]; omega

/-- An entry of the position block at point t is the position tile's entry at row 128 t + r. -/
theorem iblk0_0_at (c : Dev nD) (t : Fin cfg0.N)
    (a : Fin 3) (r : Fin 128) (cc : Fin 512) (R : Fin 1024) (hR : R.val = 128 * t.val + r.val) :
    (iblk0 V c 0 t : Vec Ideal S3x128x512 .f32) (ix3 a r cc) = (V c main_v4 : FVec Ideal T3 .f32) (ix3 a R cc) := by
  obtain ⟨⟨e0, e1, e2⟩, -⟩ := idx_facts t
  show (V c main_v4 : FVec Ideal T3 .f32) (((cfg0.win 0).blk t).view.emb (ix3 a r cc)) = _
  congr 1
  funext d; apply Fin.ext
  match d with
  | ⟨0, _⟩ => show win0_0.index t (0 : Fin 3) * 3 + 1 * a.val = a.val; rw [e0]; omega
  | ⟨1, _⟩ => show win0_0.index t (1 : Fin 3) * 128 + 1 * r.val = R.val; rw [e1, hR]; omega
  | ⟨2, _⟩ => show win0_0.index t (2 : Fin 3) * 512 + 1 * cc.val = cc.val; rw [e2]; omega

/-- What point t writes back to the cell-number array is block t of the tile's cell numbers. -/
theorem flushed3_eq (c : Dev nD) (t : Fin cfg0.N) :
    (dat0 (F := Ideal) V c).flushed 3 t = ((cfg0.win 3).blk t).view.read (Elt Ideal) (K.nhArr (V c main_v4)) := by
  show (cfg0.win 3).cut (grid0.coords t) ((dat0 V c).after 3 t) = _
  rw [after0_3, out3_eq]
  have key : ∀ j : S8x128x512.Idx, nhBlk (iblk0 V c 0 t) j = K.nhArr (V c main_v4) (((cfg0.win 3).blk t).view.emb j) := by
    intro j
    obtain ⟨k, r, cc, rfl⟩ : ∃ k r cc, j = ix3 k r cc := ⟨j 0, j 1, j 2, eq_ix3 j⟩
    have hR : 128 * t.val + r.val < 1024 := by have := t_lt t; omega
    rw [emb_w3 t k r cc ⟨_, hR⟩ rfl, nhBlk_at, iblk0_0_at V c t 0 r cc ⟨_, hR⟩ rfl, iblk0_0_at V c t 1 r cc ⟨_, hR⟩ rfl,
      iblk0_0_at V c t 2 r cc ⟨_, hR⟩ rfl]
    rfl
  exact funext key

theorem mem_blk3 (t : Fin cfg0.N) (i : T8.Idx) :
    i ∈ ((cfg0.win 3).blk t).view.set ↔ ∀ a : Fin 3, win0_3.index t a * S8x128x512.size a ≤ (i a).val
      ∧ (i a).val < win0_3.index t a * S8x128x512.size a + S8x128x512.size a := by
  show i ∈ ((View.whole main_v8_0).slice (win0_3.rect t)).set ↔ _
  rw [View.set_slice_whole, Rect.mem_set_unit]
  exact Iff.rfl

/-- Row R of the array is in the block of point R / 128. -/
theorem cover3 (i : T8.Idx) : ∃ t : Fin cfg0.N, (cfg0.win 3).flush t = true ∧ i ∈ ((cfg0.win 3).blk t).view.set := by
  have h0 : (i 0).val < 8 := (i 0).isLt
  have h1 : (i 1).val < 1024 := (i 1).isLt
  have h2 : (i 2).val < 512 := (i 2).isLt
  have ht : (i 1).val / 128 < cfg0.N := by rw [show cfg0.N = 8 from N_0]; omega
  refine ⟨⟨(i 1).val / 128, ht⟩, flush0_3 _, ?_⟩
  obtain ⟨-, -, -, ⟨e0, e1, e2⟩, -, -, -⟩ := idx_facts ⟨(i 1).val / 128, ht⟩
  rw [mem_blk3]
  intro a
  match a with
  | ⟨0, _⟩ => show win0_3.index _ (0 : Fin 3) * 8 ≤ (i 0).val ∧ (i 0).val < win0_3.index _ (0 : Fin 3) * 8 + 8; rw [e0]; omega
  | ⟨1, _⟩ => show win0_3.index _ (1 : Fin 3) * 128 ≤ (i 1).val ∧ (i 1).val < win0_3.index _ (1 : Fin 3) * 128 + 128; rw [e1]; show (i 1).val / 128 * 128 ≤ _ ∧ _ < (i 1).val / 128 * 128 + 128; omega
  | ⟨2, _⟩ => show win0_3.index _ (2 : Fin 3) * 512 ≤ (i 2).val ∧ (i 2).val < win0_3.index _ (2 : Fin 3) * 512 + 512; rw [e2]; omega

/-- The cell-number array after the region. -/
theorem nh_eq (c : Dev nD) :
    ((dat0 (F := Ideal) V c).arrAt 3 cfg0.N : IVec T8 32) = K.nhArr (V c main_v4) :=
  (dat0 V c).arrAt_eq_of_cover 3 (K.nhArr (V c main_v4)) (fun t _ => flushed3_eq V c t) cover3

/-- An element of block t of the weight array sits at row 128 t + r. -/
theorem emb_w4 (t : Fin cfg0.N) (k : Fin 8) (r : Fin 128) (cc : Fin 512) (R : Fin 1024) (hR : R.val = 128 * t.val + r.val) :
    (((cfg0.win 4).blk t).view.emb (ix3 k r cc) : T8.Idx) = ix3 k R cc := by
  obtain ⟨-, -, -, -, ⟨e0, e1, e2⟩, -, -⟩ := idx_facts t
  funext d; apply Fin.ext
  match d with
  | ⟨0, _⟩ => show win0_4.index t (0 : Fin 3) * 8 + 1 * k.val = k.val; rw [e0]; omega
  | ⟨1, _⟩ => show win0_4.index t (1 : Fin 3) * 128 + 1 * r.val = R.val; rw [e1, hR]; omega
  | ⟨2, _⟩ => show win0_4.index t (2 : Fin 3) * 512 + 1 * cc.val = cc.val; rw [e2]; omega

/-- The lane number the body computes in block t at row r is the tile's lane number at row 128 t + r. -/
theorem flatB_eq (tt : Nat) (r : Fin 128) (cc : Fin 512) (R : Fin 1024) (hR : R.val = 128 * tt + r.val) :
    flatB tt r cc = K.flat R cc := by
  have h1 : R.val % 128 = r.val := by have := r.isLt; omega
  have h2 : R.val / 128 = tt := by have := r.isLt; omega
  unfold flatB K.flat
  rw [h1, h2]

/-- What point t writes back to the weight array is block t of the tile's weights. -/
theorem flushed4_eq (c : Dev nD) (t : Fin cfg0.N) :
    (dat0 (F := Ideal) V c).flushed 4 t = ((cfg0.win 4).blk t).view.read (Elt Ideal) (K.valArr (V c main_v4)) := by
  show (cfg0.win 4).cut (grid0.coords t) ((dat0 V c).after 4 t) = _
  rw [after0_4, out4_eq]
  have key : ∀ j : S8x128x512.Idx, valBlk (grid0.coords t 0).val (iblk0 V c 0 t) j = K.valArr (V c main_v4) (((cfg0.win 4).blk t).view.emb j) := by
    intro j
    obtain ⟨k, r, cc, rfl⟩ : ∃ k r cc, j = ix3 k r cc := ⟨j 0, j 1, j 2, eq_ix3 j⟩
    have hR : 128 * t.val + r.val < 1024 := by have := t_lt t; omega
    obtain ⟨-, -, -, -, -, -, et⟩ := idx_facts t
    rw [emb_w4 t k r cc ⟨_, hR⟩ rfl, valBlk_at, iblk0_0_at V c t 0 r cc ⟨_, hR⟩ rfl, iblk0_0_at V c t 1 r cc ⟨_, hR⟩ rfl,
      iblk0_0_at V c t 2 r cc ⟨_, hR⟩ rfl, flatB_eq _ r cc ⟨_, hR⟩ (by rw [et])]
    rfl
  exact funext key

theorem mem_blk4 (t : Fin cfg0.N) (i : T8.Idx) :
    i ∈ ((cfg0.win 4).blk t).view.set ↔ ∀ a : Fin 3, win0_4.index t a * S8x128x512.size a ≤ (i a).val
      ∧ (i a).val < win0_4.index t a * S8x128x512.size a + S8x128x512.size a := by
  show i ∈ ((View.whole main_v8_1).slice (win0_4.rect t)).set ↔ _
  rw [View.set_slice_whole, Rect.mem_set_unit]
  exact Iff.rfl

/-- Row R of the weight array is in the block of point R / 128. -/
theorem cover4 (i : T8.Idx) : ∃ t : Fin cfg0.N, (cfg0.win 4).flush t = true ∧ i ∈ ((cfg0.win 4).blk t).view.set := by
  have h0 : (i 0).val < 8 := (i 0).isLt
  have h1 : (i 1).val < 1024 := (i 1).isLt
  have h2 : (i 2).val < 512 := (i 2).isLt
  have ht : (i 1).val / 128 < cfg0.N := by rw [show cfg0.N = 8 from N_0]; omega
  refine ⟨⟨(i 1).val / 128, ht⟩, flush0_4 _, ?_⟩
  obtain ⟨-, -, -, -, ⟨e0, e1, e2⟩, -, -⟩ := idx_facts ⟨(i 1).val / 128, ht⟩
  rw [mem_blk4]
  intro a
  match a with
  | ⟨0, _⟩ => show win0_4.index _ (0 : Fin 3) * 8 ≤ (i 0).val ∧ (i 0).val < win0_4.index _ (0 : Fin 3) * 8 + 8; rw [e0]; omega
  | ⟨1, _⟩ => show win0_4.index _ (1 : Fin 3) * 128 ≤ (i 1).val ∧ (i 1).val < win0_4.index _ (1 : Fin 3) * 128 + 128; rw [e1]; show (i 1).val / 128 * 128 ≤ _ ∧ _ < (i 1).val / 128 * 128 + 128; omega
  | ⟨2, _⟩ => show win0_4.index _ (2 : Fin 3) * 512 ≤ (i 2).val ∧ (i 2).val < win0_4.index _ (2 : Fin 3) * 512 + 512; rw [e2]; omega

/-- The weight array after the region. -/
theorem val_eq (c : Dev nD) :
    ((dat0 (F := Ideal) V c).arrAt 4 cfg0.N : FVec Ideal T8 .f32) = K.valArr (V c main_v4) :=
  (dat0 V c).arrAt_eq_of_cover 4 (K.valArr (V c main_v4)) (fun t _ => flushed4_eq V c t) cover4

/-- An element of block t of the update array sits at row 128 t + r. -/
theorem emb_w5 (t : Fin cfg0.N) (j : Fin 4) (k : Fin 8) (r : Fin 128) (cc : Fin 512) (R : Fin 1024) (hR : R.val = 128 * t.val + r.val) :
    (((cfg0.win 5).blk t).view.emb (ix4 j k r cc) : T48.Idx) = ix4 j k R cc := by
  obtain ⟨-, -, -, -, -, ⟨e0, e1, e2, e3⟩, -⟩ := idx_facts t
  funext d; apply Fin.ext
  match d with
  | ⟨0, _⟩ => show win0_5.index t (0 : Fin 4) * 4 + 1 * j.val = j.val; rw [e0]; omega
  | ⟨1, _⟩ => show win0_5.index t (1 : Fin 4) * 8 + 1 * k.val = k.val; rw [e1]; omega
  | ⟨2, _⟩ => show win0_5.index t (2 : Fin 4) * 128 + 1 * r.val = R.val; rw [e2, hR]; omega
  | ⟨3, _⟩ => show win0_5.index t (3 : Fin 4) * 512 + 1 * cc.val = cc.val; rw [e3]; omega

/-- An entry of the mass block at point t is the mass tile's entry at row 128 t + r. -/
theorem iblk0_1_at (c : Dev nD) (t : Fin cfg0.N) (r : Fin 128) (cc : Fin 512) (R : Fin 1024) (hR : R.val = 128 * t.val + r.val) :
    (iblk0 V c 1 t : Vec Ideal S128x512 .f32) (ix2 r cc) = (V c main_v7 : FVec Ideal T2 .f32) (ix2 R cc) := by
  obtain ⟨-, ⟨e0, e1⟩, -⟩ := idx_facts t
  show (V c main_v7 : FVec Ideal T2 .f32) (((cfg0.win 1).blk t).view.emb (ix2 r cc)) = _
  congr 1
  funext d; apply Fin.ext
  match d with
  | ⟨0, _⟩ => show win0_1.index t (0 : Fin 2) * 128 + 1 * r.val = R.val; rw [e0, hR]; omega
  | ⟨1, _⟩ => show win0_1.index t (1 : Fin 2) * 512 + 1 * cc.val = cc.val; rw [e1]; omega

/-- An entry of the data block at point t is the data tile's entry at row 128 t + r. -/
theorem iblk0_2_at (c : Dev nD) (t : Fin cfg0.N) (a : Fin 3) (r : Fin 128) (cc : Fin 512) (R : Fin 1024) (hR : R.val = 128 * t.val + r.val) :
    (iblk0 V c 2 t : Vec Ideal S3x128x512 .f32) (ix3 a r cc) = (V c main_v6 : FVec Ideal T3 .f32) (ix3 a R cc) := by
  obtain ⟨-, -, ⟨e0, e1, e2⟩, -⟩ := idx_facts t
  show (V c main_v6 : FVec Ideal T3 .f32) (((cfg0.win 2).blk t).view.emb (ix3 a r cc)) = _
  congr 1
  funext d; apply Fin.ext
  match d with
  | ⟨0, _⟩ => show win0_2.index t (0 : Fin 3) * 3 + 1 * a.val = a.val; rw [e0]; omega
  | ⟨1, _⟩ => show win0_2.index t (1 : Fin 3) * 128 + 1 * r.val = R.val; rw [e1, hR]; omega
  | ⟨2, _⟩ => show win0_2.index t (2 : Fin 3) * 512 + 1 * cc.val = cc.val; rw [e2]; omega

theorem dwArr_at (X : FVec Ideal T3 .f32) (M : FVec Ideal T2 .f32) (D : FVec Ideal T3 .f32) (j : Fin 4) (k : Fin 8) (R : Fin 1024) (cc : Fin 512) :
    K.dwArr X M D (ix4 j k R cc) = if h : j.val < 3 then
      FloatOps.mulf (D (ix3 ⟨j.val, h⟩ R cc)) (K.laneW (X (ix3 0 R cc)) (X (ix3 1 R cc)) (X (ix3 2 R cc)) (K.flat R cc) (M (ix2 R cc)) k)
    else K.laneW (X (ix3 0 R cc)) (X (ix3 1 R cc)) (X (ix3 2 R cc)) (K.flat R cc) (M (ix2 R cc)) k := rfl

/-- What point t writes back to the update array is block t of the tile's update planes. -/
theorem flushed5_eq (c : Dev nD) (t : Fin cfg0.N) :
    (dat0 (F := Ideal) V c).flushed 5 t
      = ((cfg0.win 5).blk t).view.read (Elt Ideal) (K.dwArr (V c main_v4) (V c main_v7) (V c main_v6)) := by
  show (cfg0.win 5).cut (grid0.coords t) ((dat0 V c).after 5 t) = _
  rw [after0_5, out5_eq]
  have key : ∀ y : S4x8x128x512.Idx, dwBlk (grid0.coords t 0).val (iblk0 V c 0 t) (iblk0 V c 1 t) (iblk0 V c 2 t) y
      = K.dwArr (V c main_v4) (V c main_v7) (V c main_v6) (((cfg0.win 5).blk t).view.emb y) := by
    intro y
    obtain ⟨j, k, r, cc, rfl⟩ : ∃ j k r cc, y = ix4 j k r cc := ⟨y 0, y 1, y 2, y 3, eq_ix4 y⟩
    have hR : 128 * t.val + r.val < 1024 := by have := t_lt t; omega
    obtain ⟨-, -, -, -, -, -, et⟩ := idx_facts t
    rw [emb_w5 t j k r cc ⟨_, hR⟩ rfl, dwBlk_at, dwArr_at, iblk0_0_at V c t 0 r cc ⟨_, hR⟩ rfl, iblk0_0_at V c t 1 r cc ⟨_, hR⟩ rfl,
      iblk0_0_at V c t 2 r cc ⟨_, hR⟩ rfl, iblk0_1_at V c t r cc ⟨_, hR⟩ rfl, flatB_eq _ r cc ⟨_, hR⟩ (by rw [et])]
    by_cases h : j.val < 3
    · rw [dif_pos h, dif_pos h, iblk0_2_at V c t ⟨j.val, h⟩ r cc ⟨_, hR⟩ rfl]
    · rw [dif_neg h, dif_neg h]
  exact funext key

theorem mem_blk5 (t : Fin cfg0.N) (i : T48.Idx) :
    i ∈ ((cfg0.win 5).blk t).view.set ↔ ∀ a : Fin 4, win0_5.index t a * S4x8x128x512.size a ≤ (i a).val
      ∧ (i a).val < win0_5.index t a * S4x8x128x512.size a + S4x8x128x512.size a := by
  show i ∈ ((View.whole main_v8_2).slice (win0_5.rect t)).set ↔ _
  rw [View.set_slice_whole, Rect.mem_set_unit]
  exact Iff.rfl

/-- Row R of the update array is in the block of point R / 128. -/
theorem cover5 (i : T48.Idx) : ∃ t : Fin cfg0.N, (cfg0.win 5).flush t = true ∧ i ∈ ((cfg0.win 5).blk t).view.set := by
  have h0 : (i 0).val < 4 := (i 0).isLt
  have h1 : (i 1).val < 8 := (i 1).isLt
  have h2 : (i 2).val < 1024 := (i 2).isLt
  have h3 : (i 3).val < 512 := (i 3).isLt
  have ht : (i 2).val / 128 < cfg0.N := by rw [show cfg0.N = 8 from N_0]; omega
  refine ⟨⟨(i 2).val / 128, ht⟩, flush0_5 _, ?_⟩
  obtain ⟨-, -, -, -, -, ⟨e0, e1, e2, e3⟩, -⟩ := idx_facts ⟨(i 2).val / 128, ht⟩
  rw [mem_blk5]
  intro a
  match a with
  | ⟨0, _⟩ => show win0_5.index _ (0 : Fin 4) * 4 ≤ (i 0).val ∧ (i 0).val < win0_5.index _ (0 : Fin 4) * 4 + 4; rw [e0]; omega
  | ⟨1, _⟩ => show win0_5.index _ (1 : Fin 4) * 8 ≤ (i 1).val ∧ (i 1).val < win0_5.index _ (1 : Fin 4) * 8 + 8; rw [e1]; omega
  | ⟨2, _⟩ => show win0_5.index _ (2 : Fin 4) * 128 ≤ (i 2).val ∧ (i 2).val < win0_5.index _ (2 : Fin 4) * 128 + 128; rw [e2]; show (i 2).val / 128 * 128 ≤ _ ∧ _ < (i 2).val / 128 * 128 + 128; omega
  | ⟨3, _⟩ => show win0_5.index _ (3 : Fin 4) * 512 ≤ (i 3).val ∧ (i 3).val < win0_5.index _ (3 : Fin 4) * 512 + 512; rw [e3]; omega

/-- The four update planes after the region. -/
theorem dw_eq (c : Dev nD) :
    ((dat0 (F := Ideal) V c).arrAt 5 cfg0.N : FVec Ideal T48 .f32) = K.dwArr (V c main_v4) (V c main_v7) (V c main_v6) :=
  (dat0 V c).arrAt_eq_of_cover 5 (K.dwArr (V c main_v4) (V c main_v7) (V c main_v6)) (fun t _ => flushed5_eq V c t) cover5

end Cert.KernelIdeal.K0

end
-- ==== Proof.K1.lean ====
/-
  The second region: what its eight grid points leave in the output array.
  Block t holds rows 128 t .. 128 t + 127; each of the three stored planes is, lane by lane, the eight slots' terms added in
  order onto 0, a term being the slot's weight times the fetched channel sum divided by the fetched mass where that exceeds the
  cutoff.
-/
import proofs.«425829_j66365834658392_3_alg».proof.Proof.FrameKI
import proofs.«425829_j66365834658392_3_alg».proof.Proof.Spec
import Idealize.ShloMosaic.Lib.Pipeline.Value
import Idealize.ShloMosaic.Lib.ValueIdx

noncomputable section

namespace Cert.KernelIdeal.K1

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenP Cert.Spec

/-- A block of the fetched rows cut at channel a, slot b and viewed as a plane reads the block there. -/
private theorem ld4_apply (x1 : Vec Ideal S4x8x128x512 .f32) (a b : Nat)
    (inb : ∀ e, (![a, b, 0, 0] : Fin 4 → Nat) e + (![1, 1, 128, 512] : Fin 4 → Nat) e ≤ S4x8x128x512.size e)
    (h : S1x1x128x512.ShapeCasts S128x512) (rl : Fin 128) (cc : Fin 512) :
    shapeCast S128x512 (View.ld x1 (Rect.unit (s := S4x8x128x512) ![a, b, 0, 0] ![1, 1, 128, 512] inb)) h (ix2 rl cc)
      = x1 (ix4 ⟨a, by have := inb 0; simpa using this⟩ ⟨b, by have := inb 1; simpa using this⟩ rl cc) := by
  refine (shapeCast_apply _ h (ix2 rl cc) (ix4 (0 : Fin 1) (0 : Fin 1) rl cc) ?_).trans ?_
  · rw [Shape.rowMajor_val_four, Shape.rowMajor_val_two]
    show (((0 * 1 + 0) * 128 + rl.val) * 512 + cc.val) = rl.val * 512 + cc.val
    omega
  · refine congrArg x1 (funext fun e => Fin.ext ?_)
    match e with
    | ⟨0, _⟩ => show a + 1 * 0 = a; omega
    | ⟨1, _⟩ => show b + 1 * 0 = b; omega
    | ⟨2, _⟩ => show 0 + 1 * rl.val = rl.val; omega
    | ⟨3, _⟩ => show 0 + 1 * cc.val = cc.val; omega

/-- A block of the weights cut at slot a and viewed as a plane reads the block there. -/
private theorem ld3_apply (x0 : Vec Ideal S8x128x512 .f32) (a : Nat)
    (inb : ∀ e, (![a, 0, 0] : Fin 3 → Nat) e + (![1, 128, 512] : Fin 3 → Nat) e ≤ S8x128x512.size e)
    (h : S1x128x512.ShapeCasts S128x512) (rl : Fin 128) (cc : Fin 512) :
    shapeCast S128x512 (View.ld x0 (Rect.unit (s := S8x128x512) ![a, 0, 0] ![1, 128, 512] inb)) h (ix2 rl cc)
      = x0 (ix3 ⟨a, by have := inb 0; simpa using this⟩ rl cc) := by
  refine (shapeCast_apply _ h (ix2 rl cc) (ix3 (0 : Fin 1) rl cc) ?_).trans ?_
  · rw [Shape.rowMajor_val_three, Shape.rowMajor_val_two]
    show ((0 * 128 + rl.val) * 512 + cc.val) = rl.val * 512 + cc.val
    omega
  · refine congrArg x0 (funext fun e => Fin.ext ?_)
    match e with
    | ⟨0, _⟩ => show a + 1 * 0 = a; omega
    | ⟨1, _⟩ => show 0 + 1 * rl.val = rl.val; omega
    | ⟨2, _⟩ => show 0 + 1 * cc.val = cc.val; omega

/-- A plane stored as a block of one plane reads the plane. -/
private theorem cast_add_apply (v : FVec Ideal S128x512 .f32) (h : S128x512.ShapeCasts S1x128x512) (z : Fin 1) (rl : Fin 128) (cc : Fin 512) :
    shapeCast S1x128x512 v h (ix3 z rl cc) = v (ix2 rl cc) := by
  refine shapeCast_apply _ h (ix3 z rl cc) (ix2 rl cc) ?_
  rw [Shape.rowMajor_val_three, Shape.rowMajor_val_two]
  show rl.val * 512 + cc.val = ((z.val * 128 + rl.val) * 512 + cc.val)
  have := z.isLt
  omega

/-- A stored plane's rectangle places lane (rl, cc) of its one plane at lane (rl, cc) of plane a of the block. -/
private theorem emb_plane (a : Nat) (inb : ∀ e, (![a, 0, 0] : Fin 3 → Nat) e + S1x128x512.size e ≤ S3x128x512.size e)
    (z : Fin 1) (rl : Fin 128) (cc : Fin 512) :
    (Rect.unit (s := S3x128x512) ![a, 0, 0] S1x128x512.size inb).emb (ix3 z rl cc)
      = ix3 ⟨a, by have := inb 0; simpa using this⟩ rl cc := by
  funext e
  apply Fin.ext
  have hz := z.isLt
  match e with
  | ⟨0, _⟩ => show a + 1 * z.val = a; omega
  | ⟨1, _⟩ => show 0 + 1 * rl.val = rl.val; omega
  | ⟨2, _⟩ => show 0 + 1 * cc.val = cc.val; omega

/-- One slot's term on one lane of a block: the weight times the fetched channel sum divided by the fetched mass where that
    exceeds the cutoff. -/
private def slotTerm (x0 : Vec Ideal S8x128x512 .f32) (x1 : Vec Ideal S4x8x128x512 .f32) (j : Fin 3) (rl : Fin 128) (cc : Fin 512)
    (k : Fin 8) : Fl :=
  FloatOps.mulf (x0 (ix3 k rl cc)) (norm (x1 (ix4 ⟨j.val, by omega⟩ k rl cc)) (x1 (ix4 3 k rl cc)))

/-- One lane of a block: the eight slots' terms added in order onto 0. -/
private def lane (x0 : Vec Ideal S8x128x512 .f32) (x1 : Vec Ideal S4x8x128x512 .f32) (j : Fin 3) (rl : Fin 128) (cc : Fin 512) : Fl :=
  FloatOps.addf (FloatOps.addf (FloatOps.addf (FloatOps.addf (FloatOps.addf (FloatOps.addf (FloatOps.addf (FloatOps.addf zero
    (slotTerm x0 x1 j rl cc 0)) (slotTerm x0 x1 j rl cc 1)) (slotTerm x0 x1 j rl cc 2)) (slotTerm x0 x1 j rl cc 3))
    (slotTerm x0 x1 j rl cc 4)) (slotTerm x0 x1 j rl cc 5)) (slotTerm x0 x1 j rl cc 6)) (slotTerm x0 x1 j rl cc 7)

/-- The block the body leaves, as a function of the block index. -/
private def blockFn (x0 : Vec Ideal S8x128x512 .f32) (x1 : Vec Ideal S4x8x128x512 .f32) : Vec Ideal S3x128x512 .f32 :=
  fun y => lane x0 x1 (y 0) (y 1) (y 2)

private theorem out_apply (x0 : Vec Ideal S8x128x512 .f32) (x1 : Vec Ideal S4x8x128x512 .f32) (y : S3x128x512.Idx) :
    out1_2 x0 x1 y = blockFn x0 x1 y := by
  unfold out1_2
  refine View.canon_apply_of_pieces (blockFn x0 x1) _ ?_ y (cover1_2 _ _ _ y)
  intro p hp
  simp only [List.mem_cons, List.not_mem_nil, or_false] at hp
  rcases hp with rfl | rfl | rfl
  · intro x
    obtain ⟨z, rl, cc, rfl⟩ : ∃ (z : Fin 1) (rl : Fin 128) (cc : Fin 512), x = ix3 z rl cc := ⟨x 0, x 1, x 2, eq_ix3 x⟩
    dsimp only
    refine Eq.trans ?_ (congrArg (blockFn x0 x1) (emb_plane 2 _ z rl cc)).symm
    simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, addf, mulf, divf, cmpf, select, broadcast, r1_0, r1_1, r1_2, r1_3, r1_4, r1_5, r1_6, r1_7, r1_8, r1_9, r1_10, r1_11, r1_12, r1_13, r1_14, r1_15, r1_16, r1_17, r1_18, r1_19, r1_20, r1_21, r1_22, r1_23, r1_24, r1_25, r1_26, r1_27, r1_28, r1_29, r1_30, r1_31, r1_32, r1_33, r1_34, r1_35, r1_36, r1_37, r1_38, r1_39, ld4_apply x1 0 0, ld4_apply x1 0 1, ld4_apply x1 0 2, ld4_apply x1 0 3, ld4_apply x1 0 4, ld4_apply x1 0 5, ld4_apply x1 0 6, ld4_apply x1 0 7, ld4_apply x1 1 0, ld4_apply x1 1 1, ld4_apply x1 1 2, ld4_apply x1 1 3, ld4_apply x1 1 4, ld4_apply x1 1 5, ld4_apply x1 1 6, ld4_apply x1 1 7, ld4_apply x1 2 0, ld4_apply x1 2 1, ld4_apply x1 2 2, ld4_apply x1 2 3, ld4_apply x1 2 4, ld4_apply x1 2 5, ld4_apply x1 2 6, ld4_apply x1 2 7, ld4_apply x1 3 0, ld4_apply x1 3 1, ld4_apply x1 3 2, ld4_apply x1 3 3, ld4_apply x1 3 4, ld4_apply x1 3 5, ld4_apply x1 3 6, ld4_apply x1 3 7, ld3_apply x0 0, ld3_apply x0 1, ld3_apply x0 2, ld3_apply x0 3, ld3_apply x0 4, ld3_apply x0 5, ld3_apply x0 6, ld3_apply x0 7, cast_add_apply]
    rfl
  · intro x
    obtain ⟨z, rl, cc, rfl⟩ : ∃ (z : Fin 1) (rl : Fin 128) (cc : Fin 512), x = ix3 z rl cc := ⟨x 0, x 1, x 2, eq_ix3 x⟩
    dsimp only
    refine Eq.trans ?_ (congrArg (blockFn x0 x1) (emb_plane 1 _ z rl cc)).symm
    simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, addf, mulf, divf, cmpf, select, broadcast, r1_0, r1_1, r1_2, r1_3, r1_4, r1_5, r1_6, r1_7, r1_8, r1_9, r1_10, r1_11, r1_12, r1_13, r1_14, r1_15, r1_16, r1_17, r1_18, r1_19, r1_20, r1_21, r1_22, r1_23, r1_24, r1_25, r1_26, r1_27, r1_28, r1_29, r1_30, r1_31, r1_32, r1_33, r1_34, r1_35, r1_36, r1_37, r1_38, r1_39, ld4_apply x1 0 0, ld4_apply x1 0 1, ld4_apply x1 0 2, ld4_apply x1 0 3, ld4_apply x1 0 4, ld4_apply x1 0 5, ld4_apply x1 0 6, ld4_apply x1 0 7, ld4_apply x1 1 0, ld4_apply x1 1 1, ld4_apply x1 1 2, ld4_apply x1 1 3, ld4_apply x1 1 4, ld4_apply x1 1 5, ld4_apply x1 1 6, ld4_apply x1 1 7, ld4_apply x1 2 0, ld4_apply x1 2 1, ld4_apply x1 2 2, ld4_apply x1 2 3, ld4_apply x1 2 4, ld4_apply x1 2 5, ld4_apply x1 2 6, ld4_apply x1 2 7, ld4_apply x1 3 0, ld4_apply x1 3 1, ld4_apply x1 3 2, ld4_apply x1 3 3, ld4_apply x1 3 4, ld4_apply x1 3 5, ld4_apply x1 3 6, ld4_apply x1 3 7, ld3_apply x0 0, ld3_apply x0 1, ld3_apply x0 2, ld3_apply x0 3, ld3_apply x0 4, ld3_apply x0 5, ld3_apply x0 6, ld3_apply x0 7, cast_add_apply]
    rfl
  · intro x
    obtain ⟨z, rl, cc, rfl⟩ : ∃ (z : Fin 1) (rl : Fin 128) (cc : Fin 512), x = ix3 z rl cc := ⟨x 0, x 1, x 2, eq_ix3 x⟩
    dsimp only
    refine Eq.trans ?_ (congrArg (blockFn x0 x1) (emb_plane 0 _ z rl cc)).symm
    simp only [k1_pay1, k1_pay2, k1_pay3, k1_pay4, k1_pay5, k1_pay6, k1_pay7, k1_pay8, k1_pay9, k1_pay10, k1_pay11, k1_pay12, k1_pay13, k1_pay14, k1_pay15, k1_pay16, k1_pay17, k1_pay18, k1_pay19, k1_pay20, k1_pay21, k1_pay22, k1_pay23, k1_pay24, k1_pay25, k1_pay26, k1_pay27, k1_pay28, k1_pay29, k1_pay30, k1_pay31, k1_pay32, k1_pay33, k1_pay34, k1_pay35, k1_pay36, k1_pay37, k1_pay38, k1_pay39, k1_pay40, k1_pay41, k1_pay42, k1_pay43, k1_pay44, k1_pay45, k1_pay46, k1_pay47, k1_pay48, k1_pay49, k1_pay50, k1_pay51, k1_pay52, k1_pay53, k1_pay54, k1_pay55, k1_pay56, k1_pay57, k1_pay58, k1_pay59, k1_pay60, k1_pay61, k1_pay62, k1_pay63, k1_pay64, k1_pay65, addf, mulf, divf, cmpf, select, broadcast, r1_0, r1_1, r1_2, r1_3, r1_4, r1_5, r1_6, r1_7, r1_8, r1_9, r1_10, r1_11, r1_12, r1_13, r1_14, r1_15, r1_16, r1_17, r1_18, r1_19, r1_20, r1_21, r1_22, r1_23, r1_24, r1_25, r1_26, r1_27, r1_28, r1_29, r1_30, r1_31, r1_32, r1_33, r1_34, r1_35, r1_36, r1_37, r1_38, r1_39, ld4_apply x1 0 0, ld4_apply x1 0 1, ld4_apply x1 0 2, ld4_apply x1 0 3, ld4_apply x1 0 4, ld4_apply x1 0 5, ld4_apply x1 0 6, ld4_apply x1 0 7, ld4_apply x1 1 0, ld4_apply x1 1 1, ld4_apply x1 1 2, ld4_apply x1 1 3, ld4_apply x1 1 4, ld4_apply x1 1 5, ld4_apply x1 1 6, ld4_apply x1 1 7, ld4_apply x1 2 0, ld4_apply x1 2 1, ld4_apply x1 2 2, ld4_apply x1 2 3, ld4_apply x1 2 4, ld4_apply x1 2 5, ld4_apply x1 2 6, ld4_apply x1 2 7, ld4_apply x1 3 0, ld4_apply x1 3 1, ld4_apply x1 3 2, ld4_apply x1 3 3, ld4_apply x1 3 4, ld4_apply x1 3 5, ld4_apply x1 3 6, ld4_apply x1 3 7, ld3_apply x0 0, ld3_apply x0 1, ld3_apply x0 2, ld3_apply x0 3, ld3_apply x0 4, ld3_apply x0 5, ld3_apply x0 6, ld3_apply x0 7, cast_add_apply]
    rfl

variable (V : (c : Dev nD) → (b : Ref sig .tc) → Buf (Elt Ideal) ((c : Thread nD τ).loc b))

/-- The grid has eight points. -/
private theorem N8 : cfg1.N = 8 := N_1

/-- The printed index maps, decided over the grid: each window's block index is the point's number on the row axis and 0 on
    every other axis. -/
private theorem idx_facts : ∀ t : Fin cfg1.N,
    win1_0.index t (0 : Fin 3) = 0 ∧ win1_0.index t (1 : Fin 3) = t.val ∧ win1_0.index t (2 : Fin 3) = 0
    ∧ win1_1.index t (0 : Fin 4) = 0 ∧ win1_1.index t (1 : Fin 4) = 0 ∧ win1_1.index t (2 : Fin 4) = t.val
    ∧ win1_1.index t (3 : Fin 4) = 0
    ∧ win1_2.index t (0 : Fin 3) = 0 ∧ win1_2.index t (1 : Fin 3) = t.val ∧ win1_2.index t (2 : Fin 3) = 0 :=
  (by decide +kernel : ∀ t : Fin grid1.N, _)

/-- The weights' block at point t is rows 128 t .. 128 t + 127 of the weights. -/
private theorem blk0_apply (c : Dev nD) (t : Fin cfg1.N) (k : Fin 8) (rl : Fin 128) (cc : Fin 512) (r : Fin 1024)
    (hr : r.val = 128 * t.val + rl.val) :
    (iblk1 V c 0 t : Vec Ideal S8x128x512 .f32) (ix3 k rl cc) = (V c main_v8_1 : FVec Ideal T8 .f32) (ix3 k r cc) := by
  obtain ⟨e0, e1, e2, -⟩ := idx_facts t
  unfold iblk1
  rw [View.read_apply]
  show V c main_v8_1 _ = V c main_v8_1 _
  refine congrArg _ (funext fun a => Fin.ext ?_)
  match a with
  | ⟨0, _⟩ => show win1_0.index t (0 : Fin 3) * 8 + 1 * k.val = k.val; rw [e0]; omega
  | ⟨1, _⟩ => show win1_0.index t (1 : Fin 3) * 128 + 1 * rl.val = r.val; rw [e1, hr]; omega
  | ⟨2, _⟩ => show win1_0.index t (2 : Fin 3) * 512 + 1 * cc.val = cc.val; rw [e2]; omega

/-- The fetched rows' block at point t is rows 128 t .. 128 t + 127 of the fetched rows. -/
private theorem blk1_apply (c : Dev nD) (t : Fin cfg1.N) (j : Fin 4) (k : Fin 8) (rl : Fin 128) (cc : Fin 512) (r : Fin 1024)
    (hr : r.val = 128 * t.val + rl.val) :
    (iblk1 V c 1 t : Vec Ideal S4x8x128x512 .f32) (ix4 j k rl cc) = (V c main_v27 : FVec Ideal T48 .f32) (ix4 j k r cc) := by
  obtain ⟨-, -, -, e0, e1, e2, e3, -⟩ := idx_facts t
  unfold iblk1
  rw [View.read_apply]
  show V c main_v27 _ = V c main_v27 _
  refine congrArg _ (funext fun a => Fin.ext ?_)
  match a with
  | ⟨0, _⟩ => show win1_1.index t (0 : Fin 4) * 4 + 1 * j.val = j.val; rw [e0]; omega
  | ⟨1, _⟩ => show win1_1.index t (1 : Fin 4) * 8 + 1 * k.val = k.val; rw [e1]; omega
  | ⟨2, _⟩ => show win1_1.index t (2 : Fin 4) * 128 + 1 * rl.val = r.val; rw [e2, hr]; omega
  | ⟨3, _⟩ => show win1_1.index t (3 : Fin 4) * 512 + 1 * cc.val = cc.val; rw [e3]; omega

/-- Lane (j, rl, cc) of the output's block at point t sits at row 128 t + rl of the output array. -/
private theorem out_emb (t : Fin cfg1.N) (j : Fin 3) (rl : Fin 128) (cc : Fin 512) (r : Fin 1024)
    (hr : r.val = 128 * t.val + rl.val) :
    ((cfg1.win 2).blk t).view.emb (ix3 j rl cc) = (ix3 j r cc : T3.Idx) := by
  obtain ⟨-, -, -, -, -, -, -, e0, e1, e2⟩ := idx_facts t
  refine funext fun a => Fin.ext ?_
  match a with
  | ⟨0, _⟩ => show win1_2.index t (0 : Fin 3) * 3 + 1 * j.val = j.val; rw [e0]; omega
  | ⟨1, _⟩ => show win1_2.index t (1 : Fin 3) * 128 + 1 * rl.val = r.val; rw [e1, hr]; omega
  | ⟨2, _⟩ => show win1_2.index t (2 : Fin 3) * 512 + 1 * cc.val = cc.val; rw [e2]; omega

/-- What point t writes back is block t of the weighted-sum array of the entry arrays. -/
private theorem flushed_eq (c : Dev nD) (t : Fin cfg1.N) :
    (dat1 (F := Ideal) V c).flushed 2 t
      = ((cfg1.win 2).blk t).view.read (Elt Ideal) (K.wsumArr (V c main_v8_1) (V c main_v27)) := by
  show (cfg1.win 2).cut (grid1.coords t) ((dat1 V c).after 2 t) = _
  rw [after1_2]
  funext y
  obtain ⟨j, rl, cc, rfl⟩ : ∃ (j : Fin 3) (rl : Fin 128) (cc : Fin 512), y = ix3 j rl cc := ⟨y 0, y 1, y 2, eq_ix3 y⟩
  have ht : t.val < 8 := Nat.lt_of_lt_of_eq t.isLt N8
  obtain ⟨r, hr⟩ : ∃ r : Fin 1024, r.val = 128 * t.val + rl.val := ⟨⟨128 * t.val + rl.val, by omega⟩, rfl⟩
  rw [View.read_apply]
  show out1_2 (iblk1 V c 0 t) (iblk1 V c 1 t) (ix3 j rl cc)
    = K.wsumArr (V c main_v8_1) (V c main_v27) (((cfg1.win 2).blk t).view.emb (ix3 j rl cc))
  rw [out_emb t j rl cc r hr, out_apply]
  show lane _ _ j rl cc = _
  unfold lane slotTerm
  simp only [blk0_apply V c t _ rl cc r hr, blk1_apply V c t _ _ rl cc r hr]
  rfl

/-- An index of the output array is in point t's block iff each coordinate is in the block's range on its axis. -/
private theorem mem_blk (t : Fin cfg1.N) (i : S3x1024x512.Idx) :
    i ∈ ((cfg1.win 2).blk t).view.set ↔ ∀ a : Fin 3, win1_2.index t a * S3x128x512.size a ≤ (i a).val
      ∧ (i a).val < win1_2.index t a * S3x128x512.size a + S3x128x512.size a := by
  show i ∈ ((View.whole main_v28).slice (win1_2.rect t)).set ↔ _
  rw [View.set_slice_whole, Rect.mem_set_unit]
  exact Iff.rfl

/-- Row r of the output array is in the block of point r / 128, which writes back. -/
private theorem covered (i : S3x1024x512.Idx) :
    ∃ t : Fin cfg1.N, (cfg1.win 2).flush t = true ∧ i ∈ ((cfg1.win 2).blk t).view.set := by
  have h0 : (i 0).val < 3 := (i 0).isLt
  have h1 : (i 1).val < 1024 := (i 1).isLt
  have h2 : (i 2).val < 512 := (i 2).isLt
  obtain ⟨t, htv⟩ : ∃ t : Fin cfg1.N, t.val = (i 1).val / 128 := ⟨⟨(i 1).val / 128, by rw [N8]; omega⟩, rfl⟩
  obtain ⟨-, -, -, -, -, -, -, e0, e1, e2⟩ := idx_facts t
  refine ⟨t, flush1_2 t, ?_⟩
  rw [mem_blk]
  intro a
  match a with
  | ⟨0, _⟩ =>
    show win1_2.index t (0 : Fin 3) * 3 ≤ (i 0).val ∧ (i 0).val < win1_2.index t (0 : Fin 3) * 3 + 3
    rw [e0]; omega
  | ⟨1, _⟩ =>
    show win1_2.index t (1 : Fin 3) * 128 ≤ (i 1).val ∧ (i 1).val < win1_2.index t (1 : Fin 3) * 128 + 128
    rw [e1, htv]; omega
  | ⟨2, _⟩ =>
    show win1_2.index t (2 : Fin 3) * 512 ≤ (i 2).val ∧ (i 2).val < win1_2.index t (2 : Fin 3) * 512 + 512
    rw [e2]; omega

/-- The weighted-sum array after the region. -/
theorem wsum_eq (c : Dev nD) :
    ((dat1 (F := Ideal) V c).arrAt 2 cfg1.N : FVec Ideal T3 .f32) = K.wsumArr (V c main_v8_1) (V c main_v27) :=
  (dat1 V c).arrAt_eq_of_cover 2 (K.wsumArr (V c main_v8_1) (V c main_v27)) (fun t _ => flushed_eq V c t)
    (fun i => covered i)

end Cert.KernelIdeal.K1

end
-- ==== Proof.LibRows.lean ====
/-
  A scatter-add of whole rows into a table, and a gather of whole rows out of one, read at an index.

  The host's accumulating scatter with one index per update row: entry (c, j) of the result is the operand's entry plus the
  sum of column j of every update row whose index, read as a signed integer, is c and lies inside the table; an update row
  whose index lies outside is dropped. The same for a table of scalars (no column).
  The host's gather of rows: entry (…, j) of the result is column j of the table row named by the index at (…), read as a
  signed integer and clamped into the table.
  The four dimension records below are the ones a row scatter and a row gather print as; a printed record is one of them
  with its own well-formedness proof.
-/
import Idealize.ShloMosaic.PureOps.Ideal
import Idealize.ShloMosaic.PureOps.Ideal.Laws
import Idealize.ShloMosaic.Lib.ValueIdx

noncomputable section

namespace Cert.LibRows

open Idealize.ShloMosaic Idealize.ShloMosaic.ValueIdx

/-- The word h, read signed, is the number of row c of a table of N rows. -/
def RowHit {w : Nat} (N : Nat) (h : BitVec w) (c : Fin N) : Prop :=
  0 ≤ h.toInt ∧ h.toInt < (N : Int) ∧ h.toInt.toNat = c.val

instance {w : Nat} (N : Nat) (h : BitVec w) (c : Fin N) : Decidable (RowHit N h c) := by unfold RowHit; infer_instance

/-- The word h, read signed and clamped into a table of N rows. -/
def rowClamp {w : Nat} (N : Nat) (hN : 0 < N) (h : BitVec w) : Fin N := ⟨min h.toInt.toNat (N - 1), by omega⟩

/-- A scatter of M rows of C columns into a table of N rows, one index per row. -/
abbrev rowsScatter (N M C : Nat) (wf : ScatterDims.WF ⟨2, ![N, C]⟩ ⟨2, ![M, 1]⟩ ⟨2, ![M, C]⟩ [1] [0] [0] 1) :
    ScatterDims ⟨2, ![N, C]⟩ ⟨2, ![M, 1]⟩ ⟨2, ![M, C]⟩ where
  updateWindowDims := [1]
  insertedWindowDims := [0]
  scatterDimsToOperandDims := [0]
  indexVectorDim := 1
  wf := wf

/-- A scatter of M scalars into a table of N scalars, one index per scalar. -/
abbrev vecScatter (N M : Nat) (wf : ScatterDims.WF ⟨1, ![N]⟩ ⟨2, ![M, 1]⟩ ⟨1, ![M]⟩ [] [0] [0] 1) :
    ScatterDims ⟨1, ![N]⟩ ⟨2, ![M, 1]⟩ ⟨1, ![M]⟩ where
  updateWindowDims := []
  insertedWindowDims := [0]
  scatterDimsToOperandDims := [0]
  indexVectorDim := 1
  wf := wf

/-- A gather of rows of C columns out of a table of N rows, indexed by an A x B array of indices. -/
abbrev rowsGather3 (N C A B : Nat)
    (wf : GatherDims.WF ⟨2, ![N, C]⟩ ⟨3, ![A, B, 1]⟩ ⟨3, ![A, B, C]⟩ [2] [0] [] [0] [] 2 ![1, C]) :
    GatherDims ⟨2, ![N, C]⟩ ⟨3, ![A, B, 1]⟩ ⟨3, ![A, B, C]⟩ where
  offsetDims := [2]
  collapsedSliceDims := [0]
  operandBatchingDims := []
  startIndicesBatchingDims := []
  startIndexMap := [0]
  indexVectorDim := 2
  sliceSizes := ![1, C]
  wf := wf

/-- A gather of rows of C columns out of a table of N rows, indexed by an A x B x D array of indices. -/
abbrev rowsGather4 (N C A B D : Nat)
    (wf : GatherDims.WF ⟨2, ![N, C]⟩ ⟨4, ![A, B, D, 1]⟩ ⟨4, ![A, B, D, C]⟩ [3] [0] [] [0] [] 3 ![1, C]) :
    GatherDims ⟨2, ![N, C]⟩ ⟨4, ![A, B, D, 1]⟩ ⟨4, ![A, B, D, C]⟩ where
  offsetDims := [3]
  collapsedSliceDims := [0]
  operandBatchingDims := []
  startIndicesBatchingDims := []
  startIndexMap := [0]
  indexVectorDim := 3
  sliceSizes := ![1, C]
  wf := wf

section RowsScatter

variable {N M C w : Nat} (wf : ScatterDims.WF ⟨2, ![N, C]⟩ ⟨2, ![M, 1]⟩ ⟨2, ![M, C]⟩ [1] [0] [0] 1)
  (idx : IVec ⟨2, ![M, 1]⟩ w) (q : Fin M) (j' : Fin C)

/-- On the table's row axis the window of update (q, j') starts at the q-th index, read signed. -/
private theorem rows_start0 : (rowsScatter N M C wf).start (ix2 q j') idx 0 = (idx (ix2 q 0)).toInt := by
  unfold ScatterDims.start
  rw [dif_pos (show (0 : Fin 2) ∈ (rowsScatter N M C wf).scatterDimsToOperandDims from List.mem_singleton.mpr rfl)]
  have hsi : (rowsScatter N M C wf).siIdx (ix2 q j') ⟨List.idxOf (0 : Fin 2) (rowsScatter N M C wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- On the column axis it starts at 0. -/
private theorem rows_start1 : (rowsScatter N M C wf).start (ix2 q j') idx 1 = 0 := by
  unfold ScatterDims.start
  rw [dif_neg (show (1 : Fin 2) ∉ ([0] : List (Fin 2)) by decide)]

/-- The row axis is inserted: no window coordinate. -/
private theorem rows_window0 : (rowsScatter N M C wf).window (ix2 q j') 0 = 0 := by
  have h0 : (0 : Fin 2) ∉ (List.finRange 2).filter (fun a => decide (a ∉ ([0] : List (Fin 2)))) := by decide
  unfold ScatterDims.window
  rw [dif_neg (show (0 : Fin 2) ∉ (rowsScatter N M C wf).sKept from h0)]

/-- The column axis carries the update's column. -/
private theorem rows_window1 : (rowsScatter N M C wf).window (ix2 q j') 1 = j'.val := by
  have h1 : (1 : Fin 2) ∈ (List.finRange 2).filter (fun a => decide (a ∉ ([0] : List (Fin 2)))) := by decide
  unfold ScatterDims.window
  rw [dif_pos (show (1 : Fin 2) ∈ (rowsScatter N M C wf).sKept from h1)]
  rfl

/-- Update (q, j') lands at (c, j) exactly when its index names row c inside the table and j' = j. -/
private theorem rows_hit (c : Fin N) (j : Fin C) :
    (rowsScatter N M C wf).resultIdx? (ix2 q j') idx = some (ix2 c j) ↔ RowHit N (idx (ix2 q 0)) c ∧ j' = j := by
  unfold ScatterDims.resultIdx?
  constructor
  · intro h
    split at h
    · rename_i hall
      have hf := Option.some.inj h
      have h0 : ((rowsScatter N M C wf).start (ix2 q j') idx 0 + ((rowsScatter N M C wf).window (ix2 q j') 0 : Nat)).toNat = c.val :=
        congrArg Fin.val (congrFun hf 0)
      have h1 : ((rowsScatter N M C wf).start (ix2 q j') idx 1 + ((rowsScatter N M C wf).window (ix2 q j') 1 : Nat)).toNat = j.val :=
        congrArg Fin.val (congrFun hf 1)
      have ha : 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int) := hall 0
      rw [rows_start0, rows_window0] at h0 ha
      rw [rows_start1, rows_window1] at h1
      refine ⟨⟨by omega, by omega, by omega⟩, Fin.ext (by omega)⟩
    · exact absurd h (by simp)
  · rintro ⟨⟨h0, h1, h2⟩, rfl⟩
    have hall : ∀ a, 0 ≤ (rowsScatter N M C wf).start (ix2 q j') idx a + ((rowsScatter N M C wf).window (ix2 q j') a : Nat)
        ∧ (rowsScatter N M C wf).start (ix2 q j') idx a + ((rowsScatter N M C wf).window (ix2 q j') a : Nat) < ((⟨2, ![N, C]⟩ : Shape).size a : Int) := by
      intro a
      match a with
      | ⟨0, _⟩ =>
        show 0 ≤ (rowsScatter N M C wf).start (ix2 q j') idx 0 + ((rowsScatter N M C wf).window (ix2 q j') 0 : Nat)
          ∧ (rowsScatter N M C wf).start (ix2 q j') idx 0 + ((rowsScatter N M C wf).window (ix2 q j') 0 : Nat) < (N : Int)
        rw [rows_start0, rows_window0]; omega
      | ⟨1, _⟩ =>
        show 0 ≤ (rowsScatter N M C wf).start (ix2 q j') idx 1 + ((rowsScatter N M C wf).window (ix2 q j') 1 : Nat)
          ∧ (rowsScatter N M C wf).start (ix2 q j') idx 1 + ((rowsScatter N M C wf).window (ix2 q j') 1 : Nat) < (C : Int)
        rw [rows_start1, rows_window1]; have := j'.isLt; omega
    rw [dif_pos hall]
    congr 1
    funext a
    refine Fin.ext ?_
    match a with
    | ⟨0, _⟩ =>
      show ((rowsScatter N M C wf).start (ix2 q j') idx 0 + ((rowsScatter N M C wf).window (ix2 q j') 0 : Nat)).toNat = c.val
      rw [rows_start0, rows_window0]; omega
    | ⟨1, _⟩ =>
      show ((rowsScatter N M C wf).start (ix2 q j') idx 1 + ((rowsScatter N M C wf).window (ix2 q j') 1 : Nat)).toNat = j'.val
      rw [rows_start1, rows_window1]; omega

end RowsScatter

section VecScatter

variable {N M w : Nat} (wf : ScatterDims.WF ⟨1, ![N]⟩ ⟨2, ![M, 1]⟩ ⟨1, ![M]⟩ [] [0] [0] 1)
  (idx : IVec ⟨2, ![M, 1]⟩ w) (q : Fin M)

/-- The window of update q starts at the q-th index, read signed. -/
private theorem vec_start0 : (vecScatter N M wf).start (ix1 q) idx 0 = (idx (ix2 q 0)).toInt := by
  unfold ScatterDims.start
  rw [dif_pos (show (0 : Fin 1) ∈ (vecScatter N M wf).scatterDimsToOperandDims from List.mem_singleton.mpr rfl)]
  have hsi : (vecScatter N M wf).siIdx (ix1 q) ⟨List.idxOf (0 : Fin 1) (vecScatter N M wf).scatterDimsToOperandDims,
      List.idxOf_lt_length_iff.2 (List.mem_singleton.mpr rfl)⟩ = ix2 q 0 := by
    funext b; refine Fin.ext ?_
    match b with
    | ⟨0, _⟩ => rfl
    | ⟨1, _⟩ => rfl
  rw [hsi]

/-- The table's one axis is inserted: no window coordinate. -/
private theorem vec_window0 : (vecScatter N M wf).window (ix1 q) 0 = 0 := by
  have h0 : (0 : Fin 1) ∉ (List.finRange 1).filter (fun a => decide (a ∉ ([0] : List (Fin 1)))) := by decide
  unfold ScatterDims.window
  rw [dif_neg (show (0 : Fin 1) ∉ (vecScatter N M wf).sKept from h0)]

/-- Update q lands at c exactly when its index names entry c inside the table. -/
private theorem vec_hit (c : Fin N) :
    (vecScatter N M wf).resultIdx? (ix1 q) idx = some (ix1 c) ↔ RowHit N (idx (ix2 q 0)) c := by
  unfold ScatterDims.resultIdx?
  constructor
  · intro h
    split at h
    · rename_i hall
      have hf := Option.some.inj h
      have h0 : ((vecScatter N M wf).start (ix1 q) idx 0 + ((vecScatter N M wf).window (ix1 q) 0 : Nat)).toNat = c.val :=
        congrArg Fin.val (congrFun hf 0)
      have ha : 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int) := hall 0
      rw [vec_start0, vec_window0] at h0 ha
      exact ⟨by omega, by omega, by omega⟩
    · exact absurd h (by simp)
  · rintro ⟨h0, h1, h2⟩
    have hall : ∀ a, 0 ≤ (vecScatter N M wf).start (ix1 q) idx a + ((vecScatter N M wf).window (ix1 q) a : Nat)
        ∧ (vecScatter N M wf).start (ix1 q) idx a + ((vecScatter N M wf).window (ix1 q) a : Nat) < ((⟨1, ![N]⟩ : Shape).size a : Int) := by
      intro a
      match a with
      | ⟨0, _⟩ =>
        show 0 ≤ (vecScatter N M wf).start (ix1 q) idx 0 + ((vecScatter N M wf).window (ix1 q) 0 : Nat)
          ∧ (vecScatter N M wf).start (ix1 q) idx 0 + ((vecScatter N M wf).window (ix1 q) 0 : Nat) < (N : Int)
        rw [vec_start0, vec_window0]; omega
    rw [dif_pos hall]
    congr 1
    funext a
    refine Fin.ext ?_
    match a with
    | ⟨0, _⟩ =>
      show ((vecScatter N M wf).start (ix1 q) idx 0 + ((vecScatter N M wf).window (ix1 q) 0 : Nat)).toNat = c.val
      rw [vec_start0, vec_window0]; omega

end VecScatter

/-- THE ROW SCATTER-ADD READ AT (c, j). -/
theorem scatterAdd_rows_apply {N M C w : Nat} {φ : FTy}
    (wf : ScatterDims.WF ⟨2, ![N, C]⟩ ⟨2, ![M, 1]⟩ ⟨2, ![M, C]⟩ [1] [0] [0] 1)
    (x : FVec Ideal ⟨2, ![N, C]⟩ φ) (idx : IVec ⟨2, ![M, 1]⟩ w) (upd : FVec Ideal ⟨2, ![M, C]⟩ φ) (c : Fin N) (j : Fin C) :
    Host.scatterAdd (F := Ideal) (rowsScatter N M C wf) x idx upd (ix2 c j)
      = x (ix2 c j) + ∑ q ∈ Finset.univ.filter (fun q : Fin M => RowHit N (idx (ix2 q 0)) c), upd (ix2 q j) := by
  show Ideal.hostScatterAdd (rowsScatter N M C wf) x idx upd (ix2 c j) = _
  unfold Ideal.hostScatterAdd
  congr 1
  -- an update that lands at (c, j) hits row c and sits in column j
  have key : ∀ i : (⟨2, ![M, C]⟩ : Shape).Idx, (rowsScatter N M C wf).resultIdx? i idx = some (ix2 c j) →
      RowHit N (idx (ix2 (i 0) 0)) c ∧ ix2 (i 0) j = i := by
    intro i hi
    have hi2 : (rowsScatter N M C wf).resultIdx? (ix2 (i 0) (i 1)) idx = some (ix2 c j) :=
      Eq.mp (congrArg (fun t => (rowsScatter N M C wf).resultIdx? t idx = some (ix2 c j)) (eq_ix2 i)) hi
    obtain ⟨hr, hj⟩ := (rows_hit wf idx (i 0) (i 1) c j).mp hi2
    exact ⟨hr, (congrArg (fun t => ix2 (i 0) t) hj).symm.trans (eq_ix2 i).symm⟩
  -- so the updates landing at (c, j) are the (q, j) with q a hit, one for one
  refine Finset.sum_nbij' (fun i => (i 0 : Fin M)) (fun q => ix2 q j) ?_ ?_ ?_ ?_ ?_
  · intro i hi
    exact Finset.mem_filter.mpr ⟨Finset.mem_univ _, (key i (Finset.mem_filter.mp hi).2).1⟩
  · intro q hq
    exact Finset.mem_filter.mpr ⟨Finset.mem_univ _, (rows_hit wf idx q j c j).mpr ⟨(Finset.mem_filter.mp hq).2, rfl⟩⟩
  · intro i hi
    exact (key i (Finset.mem_filter.mp hi).2).2
  · intro q _
    rfl
  · intro i hi
    exact congrArg upd (key i (Finset.mem_filter.mp hi).2).2.symm

/-- THE SCALAR SCATTER-ADD READ AT c. -/
theorem scatterAdd_vec_apply {N M w : Nat} {φ : FTy}
    (wf : ScatterDims.WF ⟨1, ![N]⟩ ⟨2, ![M, 1]⟩ ⟨1, ![M]⟩ [] [0] [0] 1)
    (x : FVec Ideal ⟨1, ![N]⟩ φ) (idx : IVec ⟨2, ![M, 1]⟩ w) (upd : FVec Ideal ⟨1, ![M]⟩ φ) (c : Fin N) :
    Host.scatterAdd (F := Ideal) (vecScatter N M wf) x idx upd (ix1 c)
      = x (ix1 c) + ∑ q ∈ Finset.univ.filter (fun q : Fin M => RowHit N (idx (ix2 q 0)) c), upd (ix1 q) := by
  show Ideal.hostScatterAdd (vecScatter N M wf) x idx upd (ix1 c) = _
  unfold Ideal.hostScatterAdd
  congr 1
  -- an update that lands at c hits entry c
  have key : ∀ i : (⟨1, ![M]⟩ : Shape).Idx, (vecScatter N M wf).resultIdx? i idx = some (ix1 c) →
      RowHit N (idx (ix2 (i 0) 0)) c := by
    intro i hi
    have hi2 : (vecScatter N M wf).resultIdx? (ix1 (i 0)) idx = some (ix1 c) :=
      Eq.mp (congrArg (fun t => (vecScatter N M wf).resultIdx? t idx = some (ix1 c)) (eq_ix1 i)) hi
    exact (vec_hit wf idx (i 0) c).mp hi2
  -- so the updates landing at c are the hits, one for one
  refine Finset.sum_nbij' (fun i => (i 0 : Fin M)) (fun q => ix1 q) ?_ ?_ ?_ ?_ ?_
  · intro i hi
    exact Finset.mem_filter.mpr ⟨Finset.mem_univ _, key i (Finset.mem_filter.mp hi).2⟩
  · intro q hq
    exact Finset.mem_filter.mpr ⟨Finset.mem_univ _, (vec_hit wf idx q c).mpr (Finset.mem_filter.mp hq).2⟩
  · intro i _
    exact (eq_ix1 i).symm
  · intro q _
    rfl
  · intro i _
    exact congrArg upd (eq_ix1 i)

/-- THE ROW GATHER OVER AN A x B ARRAY OF INDICES READ AT (a, b, j). -/
theorem gather_rows3_apply {α : Type} {N C A B w : Nat} (hN : 0 < N)
    (wf : GatherDims.WF ⟨2, ![N, C]⟩ ⟨3, ![A, B, 1]⟩ ⟨3, ![A, B, C]⟩ [2] [0] [] [0] [] 2 ![1, C])
    (x : (⟨2, ![N, C]⟩ : Shape).Idx → α) (idx : IVec ⟨3, ![A, B, 1]⟩ w) (a : Fin A) (b : Fin B) (j : Fin C) :
    Host.gather (rowsGather3 N C A B wf) x idx (ix3 a b j) = x (ix2 (rowClamp N hN (idx (ix3 a b 0))) j) := by
  unfold Host.gather
  congr 1
  funext e
  refine Fin.ext ?_
  match e with
  | ⟨0, _⟩ =>
    show (rowsGather3 N C A B wf).start (ix3 a b j) idx 0 + (rowsGather3 N C A B wf).batchCoord (ix3 a b j) 0
      + (rowsGather3 N C A B wf).offCoord (ix3 a b j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather3 N C A B wf).startIndexMap from List.mem_singleton.mpr rfl)]
    have hsi : (rowsGather3 N C A B wf).siIdx (ix3 a b j) ⟨List.idxOf (0 : Fin 2) (rowsGather3 N C A B wf).startIndexMap,
        List.idxOf_lt_length_iff.2 (List.mem_singleton.mpr rfl)⟩ = ix3 a b 0 := by
      funext b'; refine Fin.ext ?_
      match b' with
      | ⟨0, _⟩ => rfl
      | ⟨1, _⟩ => rfl
      | ⟨2, _⟩ => rfl
    rw [hsi]
    rfl
  | ⟨1, _⟩ =>
    show (rowsGather3 N C A B wf).start (ix3 a b j) idx 1 + (rowsGather3 N C A B wf).batchCoord (ix3 a b j) 1
      + (rowsGather3 N C A B wf).offCoord (ix3 a b j) 1 = j.val
    rw [GatherDims.batchCoord_eq_zero _ _ _ List.not_mem_nil]
    have hs : (rowsGather3 N C A B wf).start (ix3 a b j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

/-- THE ROW GATHER OVER AN A x B x D ARRAY OF INDICES READ AT (a, b, d, j). -/
theorem gather_rows4_apply {α : Type} {N C A B D w : Nat} (hN : 0 < N)
    (wf : GatherDims.WF ⟨2, ![N, C]⟩ ⟨4, ![A, B, D, 1]⟩ ⟨4, ![A, B, D, C]⟩ [3] [0] [] [0] [] 3 ![1, C])
    (x : (⟨2, ![N, C]⟩ : Shape).Idx → α) (idx : IVec ⟨4, ![A, B, D, 1]⟩ w) (a : Fin A) (b : Fin B) (d : Fin D) (j : Fin C) :
    Host.gather (rowsGather4 N C A B D wf) x idx (ix4 a b d j) = x (ix2 (rowClamp N hN (idx (ix4 a b d 0))) j) := by
  unfold Host.gather
  congr 1
  funext e
  refine Fin.ext ?_
  match e with
  | ⟨0, _⟩ =>
    show (rowsGather4 N C A B D wf).start (ix4 a b d j) idx 0 + (rowsGather4 N C A B D wf).batchCoord (ix4 a b d j) 0
      + (rowsGather4 N C A B D wf).offCoord (ix4 a b d j) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGather4 N C A B D wf).startIndexMap from List.mem_singleton.mpr rfl)]
    have hsi : (rowsGather4 N C A B D wf).siIdx (ix4 a b d j) ⟨List.idxOf (0 : Fin 2) (rowsGather4 N C A B D wf).startIndexMap,
        List.idxOf_lt_length_iff.2 (List.mem_singleton.mpr rfl)⟩ = ix4 a b d 0 := by
      funext b'; refine Fin.ext ?_
      match b' with
      | ⟨0, _⟩ => rfl
      | ⟨1, _⟩ => rfl
      | ⟨2, _⟩ => rfl
      | ⟨3, _⟩ => rfl
    rw [hsi]
    rfl
  | ⟨1, _⟩ =>
    show (rowsGather4 N C A B D wf).start (ix4 a b d j) idx 1 + (rowsGather4 N C A B D wf).batchCoord (ix4 a b d j) 1
      + (rowsGather4 N C A B D wf).offCoord (ix4 a b d j) 1 = j.val
    rw [GatherDims.batchCoord_eq_zero _ _ _ List.not_mem_nil]
    have hs : (rowsGather4 N C A B D wf).start (ix4 a b d j) idx 1 = 0 := by
      unfold GatherDims.start
      rw [dif_neg (show (1 : Fin 2) ∉ ([0] : List (Fin 2)) by decide)]
    rw [hs]
    simp only [Nat.add_zero, Nat.zero_add]
    unfold GatherDims.offCoord
    rw [dif_pos ((GatherDims.mem_sKept _ _).mpr ⟨(show (1 : Fin 2) ∉ ([0] : List (Fin 2)) by decide), List.not_mem_nil⟩)]
    rfl

end Cert.LibRows

end
-- ==== Proof.KHost.lean ====
/-
  The host operations around the two regions, read at an index.
  Before the first region: each per-particle array is padded with 24288 entries of 0, transposed to channel-major and cut into
  the 1024 x 512 tile. Between the regions: the cell-number array is flattened slot-major, the update planes are brought to rows
  of four channels in the same order, the rows are added into a table of 2097152 rows of zeros at their cell numbers, and the
  table's rows are fetched back at every (slot, row, column) and brought to channel-major planes. After the second region: the
  result tile is flattened, transposed to particle-major and cut to the first 500000 particles.
-/
import proofs.«425829_j66365834658392_3_alg».proof.Proof.FrameKI
import proofs.«425829_j66365834658392_3_alg».proof.Proof.Spec
import proofs.«425829_j66365834658392_3_alg».proof.Proof.LibRows
import Idealize.ShloMosaic.Lib.Pipeline.Value
import Idealize.ShloMosaic.Lib.ValueIdx
import Idealize.ShloMosaic.Lib.KernelVsHost

noncomputable section

namespace Cert.KernelIdeal.KHost

open Idealize.ShloMosaic Idealize.ShloMosaic.TcCoe Idealize.SL.Sem Idealize.ShloMosaic.ValueIdx
open Idealize.ShloMosaic.Pipeline (Dat Cfg Window)
open Cert.KernelIdeal Cert.KernelIdeal.Gen Cert.KernelIdeal.GenP Cert.Spec Cert.LibRows

variable (m : (ℓ : Loc nD τ sig) → Buf (Elt Ideal) ℓ) (ρ : Dev nD → PrngReg)

/-- The padded array, transposed to channel-major and cut into the tile, read at (channel, row, column): the particle
    numbered row * 512 + column where there is one, the padding value on the last 24288 lanes. -/
private theorem tile3_read (p : FVec Ideal P3 .f32) :
    shapeCast S3x1024x512 (transpose S3x524288 [1, 0]
        (pad S524288x3 ![0, 0] ![24288, 0] ![0, 0] (p : S500000x3.Idx → EReal)
          (sitofp (F := Ideal) .f32 (constantI S_ 32 0#32)) pads_S500000x3_S524288x3_0242880_000 h_S_)
        transposes_S524288x3_S3x524288_1_0) shapeCasts_S3x524288_S3x1024x512 = K.tile3 p := by
  funext j
  obtain ⟨a, r, cc, rfl⟩ : ∃ (a : Fin 3) (r : Fin 1024) (cc : Fin 512), j = ix3 a r cc := ⟨j 0, j 1, j 2, eq_ix3 j⟩
  have hr := r.isLt
  have hcc := cc.isLt
  have ha := a.isLt
  have hn : r.val * 512 + cc.val < 524288 := by omega
  -- the tile entry is entry (a, row * 512 + column) of the channel-major array
  refine (shapeCast_apply _ shapeCasts_S3x524288_S3x1024x512 (ix3 a r cc) (ix2 a (⟨r.val * 512 + cc.val, hn⟩ : Fin 524288)) ?_).trans ?_
  · rw [Shape.rowMajor_val_two, Shape.rowMajor_val_three]
    show a.val * 524288 + (r.val * 512 + cc.val) = (a.val * 1024 + r.val) * 512 + cc.val
    omega
  -- which is entry (row * 512 + column, a) of the padded particle-major array
  refine (transpose_apply [1, 0] _ transposes_S524288x3_S3x524288_1_0 (ix2 a (⟨r.val * 512 + cc.val, hn⟩ : Fin 524288))
    (ix2 (⟨r.val * 512 + cc.val, hn⟩ : Fin 524288) a) ?_).trans ?_
  · intro b
    match b with
    | ⟨0, _⟩ => rfl
    | ⟨1, _⟩ => rfl
  show _ = (if h : r.val * 512 + cc.val < 500000 then p (ix2 ⟨r.val * 512 + cc.val, h⟩ a) else K.padv)
  by_cases h : r.val * 512 + cc.val < 500000
  · rw [dif_pos h]
    exact pad_apply_of_inside _ _ _ _ _ pads_S500000x3_S524288x3_0242880_000 h_S_ _ (ix2 (⟨r.val * 512 + cc.val, h⟩ : Fin 500000) a)
      (fun b => match b with
        | ⟨0, _⟩ => by show r.val * 512 + cc.val = 0 + (r.val * 512 + cc.val) * (0 + 1); omega
        | ⟨1, _⟩ => by show a.val = 0 + a.val * (0 + 1); omega)
  · rw [dif_neg h]
    refine (pad_apply_of_not_inside _ _ _ _ _ pads_S500000x3_S524288x3_0242880_000 h_S_ _ (0 : Fin 2) ?_).trans ?_
    · show ¬(0 ≤ r.val * 512 + cc.val ∧ (r.val * 512 + cc.val - 0) % (0 + 1) = 0 ∧ (r.val * 512 + cc.val - 0) / (0 + 1) < 500000)
      omega
    · rfl

/-- The position tile the first region is entered with. -/
theorem tile_pos (c : Dev nD) :
    (V7 (F := Ideal) m ρ c main_v4 : FVec Ideal T3 .f32) = K.tile3 (m ((c.tc : Thread nD τ).loc main_arg0)) := by
  have e : (V7 (F := Ideal) m ρ c main_v4 : S3x1024x512.Idx → EReal) =
      shapeCast S3x1024x512 (transpose S3x524288 [1, 0]
        (pad S524288x3 ![0, 0] ![24288, 0] ![0, 0] (m ((c.tc : Thread nD τ).loc main_arg0) : S500000x3.Idx → EReal)
          (sitofp (F := Ideal) .f32 (constantI S_ 32 0#32)) pads_S500000x3_S524288x3_0242880_000 h_S_)
        transposes_S524288x3_S3x524288_1_0) shapeCasts_S3x524288_S3x1024x512 := by
    dsimp only [V7, W7, W6, W5, W4, W3, W2, W1, W0, hostOps0_6, hostOps0_5, hostOps0_4, hostOps0_3, hostOps0_2, hostOps0_1, hostOps0]
    after_results
    rfl
  exact e.trans (tile3_read _)

/-- The data tile the first region is entered with. -/
theorem tile_dat (c : Dev nD) :
    (V7 (F := Ideal) m ρ c main_v6 : FVec Ideal T3 .f32) = K.tile3 (m ((c.tc : Thread nD τ).loc main_arg1)) := by
  have e : (V7 (F := Ideal) m ρ c main_v6 : S3x1024x512.Idx → EReal) =
      shapeCast S3x1024x512 (transpose S3x524288 [1, 0]
        (pad S524288x3 ![0, 0] ![24288, 0] ![0, 0] (m ((c.tc : Thread nD τ).loc main_arg1) : S500000x3.Idx → EReal)
          (sitofp (F := Ideal) .f32 (constantI S_ 32 0#32)) pads_S500000x3_S524288x3_0242880_000 h_S_)
        transposes_S524288x3_S3x524288_1_0) shapeCasts_S3x524288_S3x1024x512 := by
    dsimp only [V7, W7, W6, W5, W4, W3, W2, W1, W0, hostOps0_6, hostOps0_5, hostOps0_4, hostOps0_3, hostOps0_2, hostOps0_1, hostOps0]
    after_results
    rfl
  exact e.trans (tile3_read _)

/-- The padded mass array cut into the tile, read at (row, column). -/
private theorem tile1_read (p : FVec Ideal P1 .f32) :
    shapeCast S1024x512
        (pad S524288 ![0] ![24288] ![0] (p : S500000.Idx → EReal)
          (sitofp (F := Ideal) .f32 (constantI S_ 32 0#32)) pads_S500000_S524288_0242880 h_S_)
        shapeCasts_S524288_S1024x512 = K.tile1 p := by
  funext j
  obtain ⟨r, cc, rfl⟩ : ∃ (r : Fin 1024) (cc : Fin 512), j = ix2 r cc := ⟨j 0, j 1, eq_ix2 j⟩
  have hr := r.isLt
  have hcc := cc.isLt
  have hn : r.val * 512 + cc.val < 524288 := by omega
  refine (shapeCast_apply _ shapeCasts_S524288_S1024x512 (ix2 r cc) (ix1 (⟨r.val * 512 + cc.val, hn⟩ : Fin 524288)) ?_).trans ?_
  · rw [Shape.rowMajor_val_one, Shape.rowMajor_val_two]
    rfl
  show _ = (if h : r.val * 512 + cc.val < 500000 then p (ix1 ⟨r.val * 512 + cc.val, h⟩) else K.padv)
  by_cases h : r.val * 512 + cc.val < 500000
  · rw [dif_pos h]
    exact pad_apply_of_inside _ _ _ _ _ pads_S500000_S524288_0242880 h_S_ _ (ix1 (⟨r.val * 512 + cc.val, h⟩ : Fin 500000))
      (fun b => match b with
        | ⟨0, _⟩ => by show r.val * 512 + cc.val = 0 + (r.val * 512 + cc.val) * (0 + 1); omega)
  · rw [dif_neg h]
    refine (pad_apply_of_not_inside _ _ _ _ _ pads_S500000_S524288_0242880 h_S_ _ (0 : Fin 1) ?_).trans ?_
    · show ¬(0 ≤ r.val * 512 + cc.val ∧ (r.val * 512 + cc.val - 0) % (0 + 1) = 0 ∧ (r.val * 512 + cc.val - 0) / (0 + 1) < 500000)
      omega
    · rfl

/-- The mass tile the first region is entered with. -/
theorem tile_mass (c : Dev nD) :
    (V7 (F := Ideal) m ρ c main_v7 : FVec Ideal T2 .f32) = K.tile1 (m ((c.tc : Thread nD τ).loc main_arg2)) := by
  have e : (V7 (F := Ideal) m ρ c main_v7 : S1024x512.Idx → EReal) =
      shapeCast S1024x512
        (pad S524288 ![0] ![24288] ![0] (m ((c.tc : Thread nD τ).loc main_arg2) : S500000.Idx → EReal)
          (sitofp (F := Ideal) .f32 (constantI S_ 32 0#32)) pads_S500000_S524288_0242880 h_S_)
        shapeCasts_S524288_S1024x512 := by
    dsimp only [V7, W7, W6, W5, W4, W3, W2, W1, W0, hostOps0_6, hostOps0_5, hostOps0_4, hostOps0_3, hostOps0_2, hostOps0_1, hostOps0]
    after_results
    rfl
  exact e.trans (tile1_read _)

/-- A cell number as the scatter and the gather see it, over a whole array: a negative one is counted from the end. -/
private def wrapV {s : Shape} (bz : (⟨0, ![]⟩ : Shape).BroadcastsInDim s (![] : Fin 0 → Fin s.rank)) (h : IVec s 32) : IVec s 32 :=
  select (cmpi .slt h (broadcastInDim s ![] bz (constantI S_ 32 0#32)))
    (addi h (broadcastInDim s ![] bz (constantI S_ 32 2097152#32))) h

/-- The (slot, row, column) triples numbered slot-major: (k, r, cc) is number (k * 1024 + r) * 512 + cc. -/
private def flatEquiv : Fin 8 × Fin 1024 × Fin 512 ≃ Fin 4194304 where
  toFun x := ⟨(x.1.val * 1024 + x.2.1.val) * 512 + x.2.2.val, by
    have h1 := x.1.isLt; have h2 := x.2.1.isLt; have h3 := x.2.2.isLt; omega⟩
  invFun q := (⟨q.val / 524288, by have := q.isLt; omega⟩, ⟨q.val / 512 % 1024, by omega⟩, ⟨q.val % 512, by omega⟩)
  left_inv x := by
    have h1 := x.1.isLt; have h2 := x.2.1.isLt; have h3 := x.2.2.isLt
    refine Prod.ext (Fin.ext ?_) (Prod.ext (Fin.ext ?_) (Fin.ext ?_))
    · show ((x.1.val * 1024 + x.2.1.val) * 512 + x.2.2.val) / 524288 = x.1.val
      omega
    · show ((x.1.val * 1024 + x.2.1.val) * 512 + x.2.2.val) / 512 % 1024 = x.2.1.val
      omega
    · show ((x.1.val * 1024 + x.2.1.val) * 512 + x.2.2.val) % 512 = x.2.2.val
      omega
  right_inv q := by
    have := q.isLt
    refine Fin.ext ?_
    show (q.val / 524288 * 1024 + q.val / 512 % 1024) * 512 + q.val % 512 = q.val
    omega

/-- A row index names cell c exactly when the cell number does. -/
private theorem hit_iff (h : BitVec 32) (c : Fin 2097152) : RowHit 2097152 (wrap h) c ↔ Hit h c := Iff.rfl

/-- The row a fetch reads is the cell the cell number names. -/
private theorem gidx_eq (h : BitVec 32) : rowClamp 2097152 (by decide) (wrap h) = gidx h := rfl

/-- The flattened, wrapped cell numbers, as a one-column index array, read at a triple's number. -/
private theorem idx_read (NH : IVec T8 32) (k : Fin 8) (r : Fin 1024) (cc : Fin 512) (q : Fin 4194304)
    (hq : q.val = (k.val * 1024 + r.val) * 512 + cc.val) :
    broadcastInDim S4194304x1 ![0] bcast_S4194304_S4194304x1_0
      (wrapV bcast_S_S4194304 (shapeCast S4194304 (NH : S8x1024x512.Idx → BitVec 32) shapeCasts_S8x1024x512_S4194304))
      (ix2 q (0 : Fin 1)) = wrap (NH (ix3 k r cc)) := by
  refine (broadcastInDim_apply _ bcast_S4194304_S4194304x1_0 _ (ix2 q (0 : Fin 1)) (ix1 q) ?_).trans ?_
  · intro a
    match a with
    | ⟨0, _⟩ => rfl
  show wrap (shapeCast S4194304 (NH : S8x1024x512.Idx → BitVec 32) shapeCasts_S8x1024x512_S4194304 (ix1 q)) = _
  exact congrArg wrap (shapeCast_apply _ shapeCasts_S8x1024x512_S4194304 (ix1 q) (ix3 k r cc) (by
    rw [Shape.rowMajor_val_three, Shape.rowMajor_val_one]
    exact hq.symm))

/-- The update planes brought to rows of four channels, read at a triple's number and a channel. -/
private theorem upd_read (DW : FVec Ideal T48 .f32) (j : Fin 4) (k : Fin 8) (r : Fin 1024) (cc : Fin 512) (q : Fin 4194304)
    (hq : q.val = (k.val * 1024 + r.val) * 512 + cc.val) :
    shapeCast S4194304x4
      (transpose S8x1024x512x4 [1, 2, 3, 0] (DW : S4x8x1024x512.Idx → EReal) transposes_S4x8x1024x512_S8x1024x512x4_1_2_3_0)
      shapeCasts_S8x1024x512x4_S4194304x4 (ix2 q j) = DW (ix4 j k r cc) := by
  refine (shapeCast_apply _ shapeCasts_S8x1024x512x4_S4194304x4 (ix2 q j) (ix4 k r cc j) ?_).trans ?_
  · rw [Shape.rowMajor_val_four, Shape.rowMajor_val_two]
    show ((k.val * 1024 + r.val) * 512 + cc.val) * 4 + j.val = q.val * 4 + j.val
    omega
  exact transpose_apply [1, 2, 3, 0] _ transposes_S4x8x1024x512_S8x1024x512x4_1_2_3_0 (ix4 k r cc j) (ix4 j k r cc)
    (fun b => match b with
      | ⟨0, _⟩ => rfl
      | ⟨1, _⟩ => rfl
      | ⟨2, _⟩ => rfl
      | ⟨3, _⟩ => rfl)

/-- The table between the regions: the rows of zeros with every update row added at its cell number. -/
private def tab (NH : IVec T8 32) (DW : FVec Ideal T48 .f32) : S2097152x4.Idx → EReal :=
  Host.scatterAdd (F := Ideal) scatter_S2097152x4_S4194304x1_S4194304x4_1_0_0_1
    (broadcastInDim S2097152x4 ![] bcast_S_S2097152x4 (constant (F := Ideal) S_ .f32 0x00000000#32))
    (broadcastInDim S4194304x1 ![0] bcast_S4194304_S4194304x1_0
      (wrapV bcast_S_S4194304 (shapeCast S4194304 (NH : S8x1024x512.Idx → BitVec 32) shapeCasts_S8x1024x512_S4194304)))
    (shapeCast S4194304x4
      (transpose S8x1024x512x4 [1, 2, 3, 0] (DW : S4x8x1024x512.Idx → EReal) transposes_S4x8x1024x512_S8x1024x512x4_1_2_3_0)
      shapeCasts_S8x1024x512x4_S4194304x4)

/-- Entry (c, j) of the table is channel j of cell c: the sum over the update rows whose index names c, re-indexed from the
    rows' numbers to the (slot, row, column) triples. -/
private theorem tab_read (NH : IVec T8 32) (DW : FVec Ideal T48 .f32) (c : Fin 2097152) (j : Fin 4) :
    tab NH DW (ix2 c j) = K.cell NH DW c j := by
  have hd : scatter_S2097152x4_S4194304x1_S4194304x4_1_0_0_1
      = rowsScatter 2097152 4194304 4 scatter_S2097152x4_S4194304x1_S4194304x4_1_0_0_1_wf := rfl
  unfold tab
  rw [hd]
  refine (scatterAdd_rows_apply scatter_S2097152x4_S4194304x1_S4194304x4_1_0_0_1_wf _ _ _ c j).trans ?_
  unfold K.cell
  refine congrArg₂ (· + ·) rfl ?_
  symm
  refine Finset.sum_equiv flatEquiv ?_ ?_
  · intro x
    simp only [Finset.mem_filter, Finset.mem_univ, true_and]
    rw [idx_read NH x.1 x.2.1 x.2.2 (flatEquiv x) rfl]
    exact (hit_iff _ _).symm
  · intro x _
    exact (upd_read DW j x.1 x.2.1 x.2.2 (flatEquiv x) rfl).symm

/-- The fetched rows brought to channel-major planes, read at (channel, slot, row, column). -/
private theorem mid_read (NH : IVec T8 32) (DW : FVec Ideal T48 .f32) (j : Fin 4) (k : Fin 8) (r : Fin 1024) (cc : Fin 512) :
    transpose S4x8x1024x512 [3, 0, 1, 2]
      (Host.gather gather_S2097152x4_S8x1024x512x1_S8x1024x512x4_3_0_n_n_0_3_14 (tab NH DW)
        (broadcastInDim S8x1024x512x1 ![0, 1, 2] bcast_S8x1024x512_S8x1024x512x1_0_1_2
          (wrapV bcast_S_S8x1024x512 (NH : S8x1024x512.Idx → BitVec 32))))
      transposes_S8x1024x512x4_S4x8x1024x512_3_0_1_2 (ix4 j k r cc)
    = K.cell NH DW (gidx (NH (ix3 k r cc))) j := by
  refine (transpose_apply [3, 0, 1, 2] _ transposes_S8x1024x512x4_S4x8x1024x512_3_0_1_2 (ix4 j k r cc) (ix4 k r cc j)
    (fun b => match b with
      | ⟨0, _⟩ => rfl
      | ⟨1, _⟩ => rfl
      | ⟨2, _⟩ => rfl
      | ⟨3, _⟩ => rfl)).trans ?_
  have hd : gather_S2097152x4_S8x1024x512x1_S8x1024x512x4_3_0_n_n_0_3_14
      = rowsGather4 2097152 4 8 1024 512 gather_S2097152x4_S8x1024x512x1_S8x1024x512x4_3_0_n_n_0_3_14_wf := rfl
  rw [hd]
  refine (gather_rows4_apply (by decide) gather_S2097152x4_S8x1024x512x1_S8x1024x512x4_3_0_n_n_0_3_14_wf _ _ k r cc j).trans ?_
  have hi : broadcastInDim S8x1024x512x1 ![0, 1, 2] bcast_S8x1024x512_S8x1024x512x1_0_1_2
      (wrapV bcast_S_S8x1024x512 (NH : S8x1024x512.Idx → BitVec 32)) (ix4 k r cc (0 : Fin 1)) = wrap (NH (ix3 k r cc)) := by
    refine (broadcastInDim_apply _ bcast_S8x1024x512_S8x1024x512x1_0_1_2 _ (ix4 k r cc (0 : Fin 1)) (ix3 k r cc) ?_).trans rfl
    intro a
    match a with
    | ⟨0, _⟩ => rfl
    | ⟨1, _⟩ => rfl
    | ⟨2, _⟩ => rfl
  rw [hi, gidx_eq]
  exact tab_read NH DW _ j

/-- The fetched rows the second region is entered with, from the first region's cell numbers and update planes. -/
theorem nv_eq (c : Dev nD) :
    (V9 (F := Ideal) m ρ c main_v27 : FVec Ideal T48 .f32) = K.nvArr (V8 m ρ c main_v8_0) (V8 m ρ c main_v8_2) := by
  have e : (V9 (F := Ideal) m ρ c main_v27 : S4x8x1024x512.Idx → EReal) =
      transpose S4x8x1024x512 [3, 0, 1, 2]
        (Host.gather gather_S2097152x4_S8x1024x512x1_S8x1024x512x4_3_0_n_n_0_3_14
          (tab (V8 m ρ c main_v8_0) (V8 m ρ c main_v8_2))
          (broadcastInDim S8x1024x512x1 ![0, 1, 2] bcast_S8x1024x512_S8x1024x512x1_0_1_2
            (wrapV bcast_S_S8x1024x512 (V8 m ρ c main_v8_0 : S8x1024x512.Idx → BitVec 32))))
        transposes_S8x1024x512x4_S4x8x1024x512_3_0_1_2 := by
    dsimp only [V9, W9, hostOps1]
    after_results_simp
    rfl
  refine e.trans (funext fun i => ?_)
  obtain ⟨j, k, r, cc, rfl⟩ : ∃ (j : Fin 4) (k : Fin 8) (r : Fin 1024) (cc : Fin 512), i = ix4 j k r cc :=
    ⟨i 0, i 1, i 2, i 3, eq_ix4 i⟩
  exact mid_read _ _ j k r cc

/-- The weights pass between the regions untouched. -/
theorem val_kept (c : Dev nD) :
    (V9 (F := Ideal) m ρ c main_v8_1 : FVec Ideal T8 .f32) = V8 m ρ c main_v8_1 := by
  -- none of the operations between the regions writes the weights' buffer
  show StableHlo.after hostOps1 (W8 m ρ c) (Proc.devRef .tc main_v8_1) = W8 m ρ c (Proc.devRef .tc main_v8_1)
  exact StableHlo.after_of_forall_not_mem (b := Proc.devRef .tc main_v8_1) _ _ (List.forall_iff_forall_mem.mp (by
    simp only [hostOps1, List.Forall, StableHlo.nullary_writes, StableHlo.unary_writes, StableHlo.binary_writes,
      StableHlo.ternary_writes, StableHlo.quaternary_writes, StableHlo.reshape_writes, StableHlo.binaryIndexed_writes,
      Finset.mem_singleton]
    repeat' apply And.intro
    all_goals exact StableHlo.devRef_ne_of_ne (by decide)))

/-- The result tile flattened, transposed to particle-major and cut to the first 500000 particles, read at (particle, channel):
    the tile's entry at row n / 512, column n % 512 of that channel. -/
private theorem untile_read (O : FVec Ideal T3 .f32) :
    extractStridedSlice S500000x3 ![0, 0]
      (transpose S524288x3 [1, 0] (shapeCast S3x524288 (O : S3x1024x512.Idx → EReal) shapeCasts_S3x1024x512_S3x524288)
        transposes_S3x524288_S524288x3_1_0) slices_S524288x3_S500000x3_0_0 = K.untile O := by
  funext i
  obtain ⟨n, j, rfl⟩ : ∃ (n : Fin 500000) (j : Fin 3), i = ix2 n j := ⟨i 0, i 1, eq_ix2 i⟩
  have hn := n.isLt
  have hj := j.isLt
  have hn' : n.val < 524288 := by omega
  refine (extractStridedSlice_apply ![0, 0] _ slices_S524288x3_S500000x3_0_0 (ix2 n j) (ix2 (⟨n.val, hn'⟩ : Fin 524288) j) ?_).trans ?_
  · intro a
    match a with
    | ⟨0, _⟩ => show n.val = 0 + n.val; omega
    | ⟨1, _⟩ => show j.val = 0 + j.val; omega
  refine (transpose_apply [1, 0] _ transposes_S3x524288_S524288x3_1_0 (ix2 (⟨n.val, hn'⟩ : Fin 524288) j)
    (ix2 j (⟨n.val, hn'⟩ : Fin 524288)) ?_).trans ?_
  · intro b
    match b with
    | ⟨0, _⟩ => rfl
    | ⟨1, _⟩ => rfl
  refine (shapeCast_apply _ shapeCasts_S3x1024x512_S3x524288 (ix2 j (⟨n.val, hn'⟩ : Fin 524288))
    (ix3 j (⟨n.val / 512, by omega⟩ : Fin 1024) (⟨n.val % 512, Nat.mod_lt _ (by decide)⟩ : Fin 512)) ?_).trans ?_
  · rw [Shape.rowMajor_val_three, Shape.rowMajor_val_two]
    show (j.val * 1024 + n.val / 512) * 512 + n.val % 512 = j.val * 524288 + n.val
    omega
  rfl

/-- The result array, from the second region's output tile. -/
theorem out_eq (c : Dev nD) :
    (W11 (F := Ideal) m ρ c (Proc.devRef .tc main_v31) : FVec Ideal P3 .f32) = K.untile (V10 m ρ c main_v28) := by
  have e : (W11 (F := Ideal) m ρ c (Proc.devRef .tc main_v31) : S500000x3.Idx → EReal) =
      extractStridedSlice S500000x3 ![0, 0]
        (transpose S524288x3 [1, 0]
          (shapeCast S3x524288 (V10 m ρ c main_v28 : S3x1024x512.Idx → EReal) shapeCasts_S3x1024x512_S3x524288)
          transposes_S3x524288_S524288x3_1_0) slices_S524288x3_S500000x3_0_0 := by
    dsimp only [W11, hostOps2]
    after_results
    rfl
  exact e.trans (untile_read _)

end Cert.KernelIdeal.KHost

end
-- ==== Proof.KValue.lean ====
/-
  The tiled program's result array as one function of its three argument arrays: the host operations before, between and after
  the two regions composed with what the regions leave in their output arrays.
-/
import proofs.«425829_j66365834658392_3_alg».proof.Proof.FrameKI
import proofs.«425829_j66365834658392_3_alg».proof.Proof.Spec
import proofs.«425829_j66365834658392_3_alg».proof.Proof.K0
import proofs.«425829_j66365834658392_3_alg».proof.Proof.K1
import proofs.«425829_j66365834658392_3_alg».proof.Proof.KHost

noncomputable section

namespace Cert.KernelIdeal.KValue

open Idealize.ShloMosaic Idealize.ShloMosaic.TcCoe Idealize.SL.Sem Idealize.ShloMosaic.ValueIdx
open Cert.KernelIdeal Cert.KernelIdeal.Gen Cert.KernelIdeal.GenP Cert.Spec

variable (m : (ℓ : Loc nD τ sig) → Buf (Elt Ideal) ℓ) (ρ : Dev nD → PrngReg)

/-- The result buffer after the run is the tiled arrangement of the three argument arrays. -/
theorem kernel_value (c : Dev nD) :
    (W11 (F := Ideal) m ρ c (Proc.devRef .tc main_v31) : FVec Ideal P3 .f32)
      = K.outArr (m ((c.tc : Thread nD τ).loc main_arg0)) (m ((c.tc : Thread nD τ).loc main_arg1))
          (m ((c.tc : Thread nD τ).loc main_arg2)) := by
  have h28 : (V10 (F := Ideal) m ρ c main_v28 : FVec Ideal T3 .f32) = (dat1 (V9 m ρ) c).arrAt 2 cfg1.N := (hF1 m ρ c 2).symm
  have h80 : (V8 (F := Ideal) m ρ c main_v8_0 : IVec T8 32) = (dat0 (V7 m ρ) c).arrAt 3 cfg0.N := (hF0 m ρ c 3).symm
  have h81 : (V8 (F := Ideal) m ρ c main_v8_1 : FVec Ideal T8 .f32) = (dat0 (V7 m ρ) c).arrAt 4 cfg0.N := (hF0 m ρ c 4).symm
  have h82 : (V8 (F := Ideal) m ρ c main_v8_2 : FVec Ideal T48 .f32) = (dat0 (V7 m ρ) c).arrAt 5 cfg0.N := (hF0 m ρ c 5).symm
  rw [KHost.out_eq, h28, K1.wsum_eq, KHost.val_kept, KHost.nv_eq, h80, h81, h82, K0.nh_eq, K0.val_eq, K0.dw_eq,
    KHost.tile_pos, KHost.tile_dat, KHost.tile_mass]
  rfl

end Cert.KernelIdeal.KValue

end
-- ==== Proof.RefLane.lean ====
/-
  The reference's per-(particle, slot) quantities read at an index: the cell number, the weight, the weight times the mass and
  that times each data channel, as the lane-level functions of the particle's three coordinates. The stencil's offset table
  (an iota broadcast along each of three axes, joined and flattened) holds bit (2 - a) of the slot number k at (k, a).
-/
import proofs.«425829_j66365834658392_3_alg».proof.Proof.Gen.ReferenceIdeal.Run
import proofs.«425829_j66365834658392_3_alg».proof.Proof.Gen.ReferenceIdeal.Read
import proofs.«425829_j66365834658392_3_alg».proof.Proof.Spec
import Idealize.ShloMosaic.Lib.Pipeline.Value
import Idealize.ShloMosaic.Lib.ValueIdx
import Idealize.ShloMosaic.PureOps.Reduce
import Mathlib.Data.Finset.Fold

noncomputable section

namespace Cert.ReferenceIdeal.RefLane

open Idealize.ShloMosaic Idealize.ShloMosaic.TcCoe Idealize.SL.Sem Idealize.ShloMosaic.ValueIdx
open Cert.ReferenceIdeal Cert.ReferenceIdeal.Gen Cert.ReferenceIdeal.Read Cert.Spec

variable (x0 x1 : FVec Ideal P3 .f32) (x2 : FVec Ideal P1 .f32)

/-- The flat (particle, slot) number. -/
abbrev pk (n : Fin 500000) (k : Fin 8) : Fin 4000000 := ⟨n.val * 8 + k.val, by omega⟩

/-! ## The stencil's offset table

The table is the 2 x 2 x 2 x 3 array whose entry (j0, j1, j2, a) is coordinate a of (j0, j1, j2), three arrays of extent one
along the last axis laid end to end; flattened to 8 x 3, row k = 4 j0 + 2 j1 + j2 holds the three binary digits of k. -/

/-- Piece 0 of the joined table: the first coordinate. -/
private theorem tab0 (j0 j1 j2 : Fin 2) : val_main_v7 (F := Ideal) (ix4 j0 j1 j2 (0 : Fin 3)) = BitVec.ofNat 32 j0.val := by
  unfold val_main_v7
  refine Eq.trans (concatenate_apply_piece (t := S2x2x2x3) (3 : Fin 4)
    [⟨S2x2x2x1, val_main_v4 (F := Ideal)⟩, ⟨S2x2x2x1, val_main_v5 (F := Ideal)⟩, ⟨S2x2x2x1, val_main_v6 (F := Ideal)⟩]
    concatenates_S2x2x2x1_S2x2x2x1_S2x2x2x1_S2x2x2x3_d3 (ix4 j0 j1 j2 (0 : Fin 3)) 0 (by decide) S2x2x2x1
    (val_main_v4 (F := Ideal)) rfl rfl 0 rfl (ix4 j0 j1 j2 (0 : Fin 1)) ?_ rfl) ?_
  · intro b hb
    match b with
    | ⟨0, _⟩ => rfl
    | ⟨1, _⟩ => rfl
    | ⟨2, _⟩ => rfl
    | ⟨3, _⟩ => exact absurd rfl hb
  · rw [val_main_v4_apply, val_main_v1_apply, val_main_v0_apply]

/-- Piece 1 of the joined table: the second coordinate. -/
private theorem tab1 (j0 j1 j2 : Fin 2) : val_main_v7 (F := Ideal) (ix4 j0 j1 j2 (1 : Fin 3)) = BitVec.ofNat 32 j1.val := by
  unfold val_main_v7
  refine Eq.trans (concatenate_apply_piece (t := S2x2x2x3) (3 : Fin 4)
    [⟨S2x2x2x1, val_main_v4 (F := Ideal)⟩, ⟨S2x2x2x1, val_main_v5 (F := Ideal)⟩, ⟨S2x2x2x1, val_main_v6 (F := Ideal)⟩]
    concatenates_S2x2x2x1_S2x2x2x1_S2x2x2x1_S2x2x2x3_d3 (ix4 j0 j1 j2 (1 : Fin 3)) 1 (by decide) S2x2x2x1
    (val_main_v5 (F := Ideal)) rfl rfl 1 rfl (ix4 j0 j1 j2 (0 : Fin 1)) ?_ rfl) ?_
  · intro b hb
    match b with
    | ⟨0, _⟩ => rfl
    | ⟨1, _⟩ => rfl
    | ⟨2, _⟩ => rfl
    | ⟨3, _⟩ => exact absurd rfl hb
  · rw [val_main_v5_apply, val_main_v2_apply, val_main_v0_apply]

/-- Piece 2 of the joined table: the third coordinate. -/
private theorem tab2 (j0 j1 j2 : Fin 2) : val_main_v7 (F := Ideal) (ix4 j0 j1 j2 (2 : Fin 3)) = BitVec.ofNat 32 j2.val := by
  unfold val_main_v7
  refine Eq.trans (concatenate_apply_piece (t := S2x2x2x3) (3 : Fin 4)
    [⟨S2x2x2x1, val_main_v4 (F := Ideal)⟩, ⟨S2x2x2x1, val_main_v5 (F := Ideal)⟩, ⟨S2x2x2x1, val_main_v6 (F := Ideal)⟩]
    concatenates_S2x2x2x1_S2x2x2x1_S2x2x2x1_S2x2x2x3_d3 (ix4 j0 j1 j2 (2 : Fin 3)) 2 (by decide) S2x2x2x1
    (val_main_v6 (F := Ideal)) rfl rfl 2 rfl (ix4 j0 j1 j2 (0 : Fin 1)) ?_ rfl) ?_
  · intro b hb
    match b with
    | ⟨0, _⟩ => rfl
    | ⟨1, _⟩ => rfl
    | ⟨2, _⟩ => rfl
    | ⟨3, _⟩ => exact absurd rfl hb
  · rw [val_main_v6_apply, val_main_v3_apply, val_main_v0_apply]

/-- Row k, column a of the flattened table is entry (k / 4, k / 2 mod 2, k mod 2, a) of the joined one. -/
private theorem idx8 (k : Fin 8) (a : Fin 3) :
    idx_main_v8 (ix2 k a) = ix4 (⟨k.val / 4, by omega⟩ : Fin 2) (⟨k.val / 2 % 2, by omega⟩ : Fin 2)
      (⟨k.val % 2, by omega⟩ : Fin 2) a := by
  have hk := k.isLt
  have ha := a.isLt
  funext b
  match b with
  | ⟨0, _⟩ => exact Fin.ext (by show (k.val * 3 + a.val) / 12 = k.val / 4; omega)
  | ⟨1, _⟩ => exact Fin.ext (by show (k.val * 3 + a.val) / 6 % 2 = k.val / 2 % 2; omega)
  | ⟨2, _⟩ => exact Fin.ext (by show (k.val * 3 + a.val) / 3 % 2 = k.val % 2; omega)
  | ⟨3, _⟩ => exact Fin.ext (by show (k.val * 3 + a.val) % 3 = a.val; omega)

/-- The binary digits of k < 8 are bits 2, 1, 0 of k. -/
private theorem off0 (k : Fin 8) : BitVec.ofNat 32 (k.val / 4) = off k 0 := by revert k; decide
private theorem off1 (k : Fin 8) : BitVec.ofNat 32 (k.val / 2 % 2) = off k 1 := by revert k; decide
private theorem off2 (k : Fin 8) : BitVec.ofNat 32 (k.val % 2) = off k 2 := by revert k; decide

/-- The offset table at (k, a) is bit (2 - a) of k. -/
theorem off_eq (k : Fin 8) (a : Fin 3) : val_main_v8 (F := Ideal) (ix2 k a) = off k a := by
  refine (val_main_v8_apply _).trans ((congrArg (val_main_v7 (F := Ideal)) (idx8 k a)).trans ?_)
  match a with
  | ⟨0, _⟩ => exact (tab0 _ _ _).trans (off0 k)
  | ⟨1, _⟩ => exact (tab1 _ _ _).trans (off1 k)
  | ⟨2, _⟩ => exact (tab2 _ _ _).trans (off2 k)

/-! ## The node of slot k on axis a -/

private theorem i13 (n : Fin 500000) (a : Fin 3) : idx_main_v13 (ix3 n (0 : Fin 1) a) = ix2 n a :=
  funext fun b => match b with | ⟨0, _⟩ => rfl | ⟨1, _⟩ => rfl
private theorem i15 (n : Fin 500000) (k : Fin 8) (a : Fin 3) : idx_main_v15 (ix3 n k a) = ix3 n (0 : Fin 1) a :=
  funext fun b => match b with | ⟨0, _⟩ => rfl | ⟨1, _⟩ => rfl | ⟨2, _⟩ => rfl
private theorem i14 (k : Fin 8) (a : Fin 3) : idx_main_v14 (ix3 (0 : Fin 1) k a) = ix2 k a :=
  funext fun b => match b with | ⟨0, _⟩ => rfl | ⟨1, _⟩ => rfl
private theorem i16 (n : Fin 500000) (k : Fin 8) (a : Fin 3) : idx_main_v16 (ix3 n k a) = ix3 (0 : Fin 1) k a :=
  funext fun b => match b with | ⟨0, _⟩ => rfl | ⟨1, _⟩ => rfl | ⟨2, _⟩ => rfl

/-- The coordinate in cell units. -/
theorem bpos_eq (n : Fin 500000) (a : Fin 3) : val_main_v10 (F := Ideal) x0 (ix2 n a) = bpos (x0 (ix2 n a)) := by
  rw [val_main_v10_apply, val_main_v9_apply, val_main_cst_apply]
  rfl

/-- The base node: the host's floor is the floor of the extended reals. -/
theorem bidx_eq (n : Fin 500000) (a : Fin 3) : val_main_v12 (F := Ideal) x0 (ix2 n a) = bidx (x0 (ix2 n a)) := by
  rw [val_main_v12_apply, val_main_v11_apply, bpos_eq]
  rfl

/-- The node of slot k on axis a: the base node plus the table's offset. -/
theorem node_eq (n : Fin 500000) (k : Fin 8) (a : Fin 3) :
    val_main_v17 (F := Ideal) x0 (ix3 n k a) = node (x0 (ix2 n a)) k a := by
  rw [val_main_v17_apply, val_main_v15_apply, i15, val_main_v13_apply, i13, bidx_eq, val_main_v16_apply, i16,
    val_main_v14_apply, i14, off_eq]
  rfl

/-- The clamped node. -/
theorem clip_eq (n : Fin 500000) (k : Fin 8) (a : Fin 3) :
    val_main_v24 (F := Ideal) x0 (ix3 n k a) = clip (node (x0 (ix2 n a)) k a) := by
  rw [val_main_v24_apply, val_main_call0_v4_apply, val_main_call0_v3_apply, val_main_c_3_apply, val_main_call0_v2_apply,
    val_main_call0_v1_apply, val_main_call0_v0_apply, val_main_c_2_apply, node_eq]
  rfl

/-! ## The cell number -/

/-- A [500000, 8, 1] array flattened to [500000, 8] reads (n, k) at (n, k, 0). -/
private theorem i26 (n : Fin 500000) (k : Fin 8) : idx_main_v26 (ix2 n k) = ix3 n k (0 : Fin 1) := by
  have hn := n.isLt
  have hk := k.isLt
  funext b
  match b with
  | ⟨0, _⟩ => exact Fin.ext (by show (n.val * 8 + k.val) / 8 = n.val; omega)
  | ⟨1, _⟩ => exact Fin.ext (by show (n.val * 8 + k.val) / 1 % 8 = k.val; omega)
  | ⟨2, _⟩ => rfl
/-- The slice at offset a of the last axis reads (n, k, 0) at (n, k, a). -/
private theorem i25 (n : Fin 500000) (k : Fin 8) : idx_main_v25 (ix3 n k (0 : Fin 1)) = ix3 n k (0 : Fin 3) :=
  funext fun b => match b with | ⟨0, _⟩ => rfl | ⟨1, _⟩ => rfl | ⟨2, _⟩ => rfl
private theorem i29 (n : Fin 500000) (k : Fin 8) : idx_main_v29 (ix3 n k (0 : Fin 1)) = ix3 n k (1 : Fin 3) :=
  funext fun b => match b with | ⟨0, _⟩ => rfl | ⟨1, _⟩ => rfl | ⟨2, _⟩ => rfl
private theorem i34 (n : Fin 500000) (k : Fin 8) : idx_main_v34 (ix3 n k (0 : Fin 1)) = ix3 n k (2 : Fin 3) :=
  funext fun b => match b with | ⟨0, _⟩ => rfl | ⟨1, _⟩ => rfl | ⟨2, _⟩ => rfl

/-- The other flattenings of a [500000, 8, 1] array read the same entry. -/
private theorem i30 (n : Fin 500000) (k : Fin 8) : idx_main_v30 (ix2 n k) = ix3 n k (0 : Fin 1) := i26 n k
private theorem i35 (n : Fin 500000) (k : Fin 8) : idx_main_v35 (ix2 n k) = ix3 n k (0 : Fin 1) := i26 n k

private theorem cx_eq (n : Fin 500000) (k : Fin 8) :
    val_main_v26 (F := Ideal) x0 (ix2 n k) = clip (node (x0 (ix2 n 0)) k 0) := by
  rw [val_main_v26_apply, i26, val_main_v25_apply, i25, clip_eq]
private theorem cy_eq (n : Fin 500000) (k : Fin 8) :
    val_main_v30 (F := Ideal) x0 (ix2 n k) = clip (node (x0 (ix2 n 1)) k 1) := by
  rw [val_main_v30_apply, i30, val_main_v29_apply, i29, clip_eq]
private theorem cz_eq (n : Fin 500000) (k : Fin 8) :
    val_main_v35 (F := Ideal) x0 (ix2 n k) = clip (node (x0 (ix2 n 2)) k 2) := by
  rw [val_main_v35_apply, i35, val_main_v34_apply, i34, clip_eq]

/-- The cell number at (particle, slot). -/
theorem hash_eq (n : Fin 500000) (k : Fin 8) : val_main_v36 (F := Ideal) x0 (ix2 n k) = R.hash x0 n k := by
  rw [val_main_v36_apply, val_main_v33_apply, val_main_v31_apply, val_main_v28_apply, cx_eq, cy_eq, cz_eq,
    val_main_v27_apply, val_main_c_4_apply, val_main_v32_apply, val_main_c_5_apply]
  rfl

/-! ## The weight -/

private theorem i37 (n : Fin 500000) (a : Fin 3) : idx_main_v37 (ix3 n (0 : Fin 1) a) = ix2 n a :=
  funext fun b => match b with | ⟨0, _⟩ => rfl | ⟨1, _⟩ => rfl
private theorem i39 (n : Fin 500000) (k : Fin 8) (a : Fin 3) : idx_main_v39 (ix3 n k a) = ix3 n (0 : Fin 1) a :=
  funext fun b => match b with | ⟨0, _⟩ => rfl | ⟨1, _⟩ => rfl | ⟨2, _⟩ => rfl

/-- The hat function of axis a at slot k's node: the host's absolute value is that of the extended reals. -/
theorem hat_eq (n : Fin 500000) (k : Fin 8) (a : Fin 3) :
    val_main_v45 (F := Ideal) x0 (ix3 n k a) = hat (x0 (ix2 n a)) (node (x0 (ix2 n a)) k a) := by
  rw [val_main_v45_apply, val_main_v44_apply, val_main_cst_7_apply, val_main_v43_apply, val_main_v42_apply,
    val_main_cst_6_apply, val_main_v41_apply, val_main_v40_apply, val_main_v39_apply, i39, val_main_v37_apply, i37,
    bpos_eq, val_main_v38_apply, node_eq]
  rfl

private theorem i53 (n : Fin 500000) (k : Fin 8) : idx_main_v53 (ix3 n k (0 : Fin 1)) = ix3 n k (0 : Fin 3) :=
  funext fun b => match b with | ⟨0, _⟩ => rfl | ⟨1, _⟩ => rfl | ⟨2, _⟩ => rfl
private theorem i55 (n : Fin 500000) (k : Fin 8) : idx_main_v55 (ix3 n k (0 : Fin 1)) = ix3 n k (1 : Fin 3) :=
  funext fun b => match b with | ⟨0, _⟩ => rfl | ⟨1, _⟩ => rfl | ⟨2, _⟩ => rfl
private theorem i58 (n : Fin 500000) (k : Fin 8) : idx_main_v58 (ix3 n k (0 : Fin 1)) = ix3 n k (2 : Fin 3) :=
  funext fun b => match b with | ⟨0, _⟩ => rfl | ⟨1, _⟩ => rfl | ⟨2, _⟩ => rfl

private theorem i54 (n : Fin 500000) (k : Fin 8) : idx_main_v54 (ix2 n k) = ix3 n k (0 : Fin 1) := i26 n k
private theorem i56 (n : Fin 500000) (k : Fin 8) : idx_main_v56 (ix2 n k) = ix3 n k (0 : Fin 1) := i26 n k
private theorem i59 (n : Fin 500000) (k : Fin 8) : idx_main_v59 (ix2 n k) = ix3 n k (0 : Fin 1) := i26 n k

private theorem hx_eq (n : Fin 500000) (k : Fin 8) :
    val_main_v54 (F := Ideal) x0 (ix2 n k) = hat (x0 (ix2 n 0)) (node (x0 (ix2 n 0)) k 0) := by
  rw [val_main_v54_apply, i54, val_main_v53_apply, i53, hat_eq]
private theorem hy_eq (n : Fin 500000) (k : Fin 8) :
    val_main_v56 (F := Ideal) x0 (ix2 n k) = hat (x0 (ix2 n 1)) (node (x0 (ix2 n 1)) k 1) := by
  rw [val_main_v56_apply, i56, val_main_v55_apply, i55, hat_eq]
private theorem hz_eq (n : Fin 500000) (k : Fin 8) :
    val_main_v59 (F := Ideal) x0 (ix2 n k) = hat (x0 (ix2 n 2)) (node (x0 (ix2 n 2)) k 2) := by
  rw [val_main_v59_apply, i59, val_main_v58_apply, i58, hat_eq]

/-- The product of the three axes' hat functions. -/
theorem lanehat_eq (n : Fin 500000) (k : Fin 8) :
    val_main_v60 (F := Ideal) x0 (ix2 n k) = laneHat (x0 (ix2 n 0)) (x0 (ix2 n 1)) (x0 (ix2 n 2)) k := by
  rw [val_main_v60_apply, val_main_v57_apply, hx_eq, hy_eq, hz_eq]
  rfl

/-- One axis's test at slot k's node. -/
theorem inb_eq (n : Fin 500000) (k : Fin 8) (a : Fin 3) :
    val_main_v22 (F := Ideal) x0 (ix3 n k a) = inb (node (x0 (ix2 n a)) k a) := by
  rw [val_main_v22_apply, val_main_v19_apply, val_main_v21_apply, val_main_v18_apply, val_main_c_apply, val_main_v20_apply,
    val_main_c_0_apply, node_eq]
  rfl

/-- A fold of a commutative, associative operation over three terms, in order. -/
private theorem fold_univ_fin3 {α : Type} (f : α → α → α) [Std.Commutative f] [Std.Associative f] (b : α) (g : Fin 3 → α) :
    (Finset.univ : Finset (Fin 3)).fold f b g = f (f (f b (g 0)) (g 1)) (g 2) := by
  have hu : (Finset.univ : Finset (Fin 3)) = insert 2 (insert 1 {0}) := by decide
  rw [hu, Finset.fold_insert (by decide), Finset.fold_insert (by decide), Finset.fold_singleton]
  rw [Std.Commutative.comm (op := f) (g 2), Std.Commutative.comm (op := f) (g 1), Std.Commutative.comm (op := f) (g 0)]

/-- The reduced index (n, k) with coordinate a put back on the last axis is (n, k, a). -/
private theorem lift_eq (h : S500000x8x3.Reduces [2] S500000x8) (n : Fin 500000) (k : Fin 8) (a : Fin 3) :
    h.lift (ix2 n k) a = ix3 n k a := by
  funext c; apply Fin.ext
  match c with
  | ⟨0, _⟩ => rfl
  | ⟨1, _⟩ => rfl
  | ⟨2, _⟩ => rfl

/-- Inside the grid on all three axes: the and-reduce over the axis of three, from 1. -/
theorem valid_eq (n : Fin 500000) (k : Fin 8) : val_main_v23 (F := Ideal) x0 (ix2 n k) = R.valid x0 n k := by
  have h : S500000x8x3.Reduces [2] S500000x8 := by decide
  unfold val_main_v23
  refine (Host.reduce_eq_fold_single IntOp.andi (val_main_v22 (F := Ideal) x0) (val_main_c_1 (F := Ideal))
    reducesTo_S500000x8x3_S500000x8_d2 h h_S_ (ix2 n k)).trans ?_
  refine (fold_univ_fin3 IntOp.andi _ _).trans ?_
  have e : ∀ a : Fin 3, (val_main_v22 (F := Ideal) x0 ∘ h.lift (ix2 n k)) a = inb (node (x0 (ix2 n a)) k a) := fun a =>
    (congrArg (val_main_v22 (F := Ideal) x0) (lift_eq h n k a)).trans (inb_eq x0 n k a)
  exact congrArg₂ IntOp.andi (congrArg₂ IntOp.andi (congrArg (IntOp.andi 1#1) (e 0)) (e 1)) (e 2)

/-- The weight at (particle, slot). -/
theorem val_eq (n : Fin 500000) (k : Fin 8) : val_main_v92 (F := Ideal) x0 (ix2 n k) = R.val x0 n k := by
  rw [val_main_v92_apply, val_main_v91_apply, lanehat_eq, valid_eq]
  rfl

/-! ## Flattened over the (particle, slot) pairs -/

/-- Entry n * 8 + k of a flattened [500000, 8] array is its entry (n, k). -/
private theorem i96 (n : Fin 500000) (k : Fin 8) : idx_main_v96 (ix1 (pk n k)) = ix2 n k := by
  have hn := n.isLt
  have hk := k.isLt
  funext b
  match b with
  | ⟨0, _⟩ => exact Fin.ext (by show (n.val * 8 + k.val) / 8 = n.val; omega)
  | ⟨1, _⟩ => exact Fin.ext (by show (n.val * 8 + k.val) % 8 = k.val; omega)

/-- The flattened cell numbers. -/
theorem hflat_eq (n : Fin 500000) (k : Fin 8) : val_main_v96 (F := Ideal) x0 (ix1 (pk n k)) = R.hash x0 n k := by
  rw [val_main_v96_apply, i96, hash_eq]

private theorem i97 (n : Fin 500000) : idx_main_v97 (ix2 n (0 : Fin 1)) = ix1 n :=
  funext fun b => match b with | ⟨0, _⟩ => rfl
private theorem i98 (n : Fin 500000) (k : Fin 8) : idx_main_v98 (ix2 n k) = ix2 n (0 : Fin 1) :=
  funext fun b => match b with | ⟨0, _⟩ => rfl | ⟨1, _⟩ => rfl

/-- The mass-weight at (particle, slot). -/
private theorem w_eq (n : Fin 500000) (k : Fin 8) : val_main_v99 (F := Ideal) x0 x2 (ix2 n k) = R.w x0 x2 n k := by
  rw [val_main_v99_apply, val_eq, val_main_v98_apply, i98, val_main_v97_apply, i97]
  rfl

private theorem i100 (n : Fin 500000) (k : Fin 8) : idx_main_v100 (ix1 (pk n k)) = ix2 n k := i96 n k

/-- The flattened mass-weights. -/
theorem wflat_eq (n : Fin 500000) (k : Fin 8) : val_main_v100 (F := Ideal) x0 x2 (ix1 (pk n k)) = R.w x0 x2 n k := by
  rw [val_main_v100_apply, i100, w_eq]

private theorem i101 (n : Fin 500000) (k : Fin 8) (j : Fin 3) : idx_main_v101 (ix3 n k j) = ix2 n j :=
  funext fun b => match b with | ⟨0, _⟩ => rfl | ⟨1, _⟩ => rfl
/-- Row n * 8 + k, column j of a flattened [500000, 8, 3] array is its entry (n, k, j). -/
private theorem i102 (n : Fin 500000) (k : Fin 8) (j : Fin 3) : idx_main_v102 (ix2 (pk n k) j) = ix3 n k j := by
  have hn := n.isLt
  have hk := k.isLt
  have hj := j.isLt
  funext b
  match b with
  | ⟨0, _⟩ => exact Fin.ext (by show ((n.val * 8 + k.val) * 3 + j.val) / 24 = n.val; omega)
  | ⟨1, _⟩ => exact Fin.ext (by show ((n.val * 8 + k.val) * 3 + j.val) / 3 % 8 = k.val; omega)
  | ⟨2, _⟩ => exact Fin.ext (by show ((n.val * 8 + k.val) * 3 + j.val) % 3 = j.val; omega)
private theorem i103 (p : Fin 4000000) : idx_main_v103 (ix2 p (0 : Fin 1)) = ix1 p :=
  funext fun b => match b with | ⟨0, _⟩ => rfl
private theorem i104 (p : Fin 4000000) (j : Fin 3) : idx_main_v104 (ix2 p j) = ix2 p (0 : Fin 1) :=
  funext fun b => match b with | ⟨0, _⟩ => rfl | ⟨1, _⟩ => rfl

/-- The flattened data-weighted rows. -/
theorem wd_eq (n : Fin 500000) (k : Fin 8) (j : Fin 3) :
    val_main_v105 (F := Ideal) x0 x1 x2 (ix2 (pk n k) j) = FloatOps.mulf (x1 (ix2 n j)) (R.w x0 x2 n k) := by
  rw [val_main_v105_apply, val_main_v102_apply, i102, val_main_v101_apply, i101, val_main_v104_apply, i104,
    val_main_v103_apply, i103, wflat_eq]

end Cert.ReferenceIdeal.RefLane

end
-- ==== Proof.RefTable.lean ====
/-
  The reference's cell tables and its result read at an index: the two scatter-adds give every cell its mass and its three
  channel sums over the (particle, slot) pairs naming it; the normalised table is fetched back at every pair's cell, multiplied
  by the pair's weight and summed over the eight slots.
-/
import proofs.«425829_j66365834658392_3_alg».proof.Proof.Gen.ReferenceIdeal.Run
import proofs.«425829_j66365834658392_3_alg».proof.Proof.Gen.ReferenceIdeal.Read
import proofs.«425829_j66365834658392_3_alg».proof.Proof.Spec
import proofs.«425829_j66365834658392_3_alg».proof.Proof.LibRows
import proofs.«425829_j66365834658392_3_alg».proof.Proof.RefLane
import Idealize.ShloMosaic.Lib.Pipeline.Value
import Idealize.ShloMosaic.Lib.ValueIdx
import Mathlib.Algebra.BigOperators.Group.Finset.Defs

noncomputable section

namespace Cert.ReferenceIdeal.RefTable

open Idealize.ShloMosaic Idealize.ShloMosaic.TcCoe Idealize.SL.Sem Idealize.ShloMosaic.ValueIdx
open Cert.ReferenceIdeal Cert.ReferenceIdeal.Read Cert.Spec Cert.LibRows Cert.ReferenceIdeal.RefLane

variable (x0 x1 : FVec Ideal P3 .f32) (x2 : FVec Ideal P1 .f32)

/-! ## The (particle, slot) pairs and the flat numbers -/

/-- The pair (n, k) and the flat number 8 n + k correspond one to one: a flat number q is the pair (q / 8, q mod 8). -/
private def pkEquiv : Fin 500000 × Fin 8 ≃ Fin 4000000 where
  toFun x := pk x.1 x.2
  invFun q := (⟨q.val / 8, by omega⟩, ⟨q.val % 8, by omega⟩)
  left_inv x := by
    obtain ⟨n, k⟩ := x
    refine Prod.ext (Fin.ext ?_) (Fin.ext ?_)
    · show (n.val * 8 + k.val) / 8 = n.val; omega
    · show (n.val * 8 + k.val) % 8 = k.val; omega
  right_inv q := Fin.ext (by show q.val / 8 * 8 + q.val % 8 = q.val; omega)

/-! ## A cell number as the table sees it -/

/-- A pair names cell c exactly when its wrapped cell number, read signed, is row c of the table of 2097152 rows. -/
private theorem hit_iff (h : BitVec 32) (c : Fin 2097152) : Hit h c ↔ RowHit 2097152 (wrap h) c := Iff.rfl

/-- The cell a fetch reads is the wrapped cell number read signed and clamped into the table of 2097152 rows. -/
private theorem gidx_eq (h : BitVec 32) : gidx h = rowClamp 2097152 (by omega) (wrap h) := rfl

/-! ## The index columns: a negative cell number is counted from the end -/

/-- The index column of the channel-sum scatter at flat number q is the wrapped flattened cell number. -/
private theorem idx112 (q : Fin 4000000) :
    val_main_v112 (F := Ideal) x0 (ix2 q 0) = wrap (val_main_v96 (F := Ideal) x0 (ix1 q)) := by
  refine (val_main_v112_apply (F := Ideal) x0 _).trans ?_
  have hi : idx_main_v112 (ix2 q (0 : Fin 1)) = ix1 q := by
    funext a; match a with | ⟨0, _⟩ => rfl
  rw [hi, val_main_v111_apply, val_main_v108_apply, val_main_v110_apply, val_main_v107_apply, val_main_v109_apply]
  rfl

/-- The index column of the mass scatter at flat number q is the wrapped flattened cell number. -/
private theorem idx120 (q : Fin 4000000) :
    val_main_v120 (F := Ideal) x0 (ix2 q 0) = wrap (val_main_v96 (F := Ideal) x0 (ix1 q)) := by
  refine (val_main_v120_apply (F := Ideal) x0 _).trans ?_
  have hi : idx_main_v120 (ix2 q (0 : Fin 1)) = ix1 q := by
    funext a; match a with | ⟨0, _⟩ => rfl
  rw [hi, val_main_v119_apply, val_main_v116_apply, val_main_v118_apply, val_main_v115_apply, val_main_v117_apply]
  rfl

/-- The index array of the fetch at (particle, slot) is the wrapped cell number of the pair. -/
private theorem idx135 (n : Fin 500000) (k : Fin 8) :
    val_main_v135 (F := Ideal) x0 (ix3 n k 0) = wrap (R.hash x0 n k) := by
  refine (val_main_v135_apply (F := Ideal) x0 _).trans ?_
  have hi : idx_main_v135 (ix3 n k (0 : Fin 1)) = ix2 n k := by
    funext a; match a with | ⟨0, _⟩ => rfl | ⟨1, _⟩ => rfl
  rw [hi, val_main_v134_apply, val_main_v131_apply, val_main_v133_apply, val_main_v130_apply, val_main_v132_apply,
    hash_eq]
  rfl

/-! ## The two cell tables -/

/-- The mass of cell c: 0 plus the mass-weights of the pairs naming c. The scatter's sum over the flat numbers whose index
    is row c is carried to the pairs by q = 8 n + k. -/
theorem cw_eq (c : Fin 2097152) : val_main_v121 (F := Ideal) x0 x2 (ix1 c) = R.cw x0 x2 c := by
  unfold val_main_v121
  refine (scatterAdd_vec_apply (N := 2097152) (M := 4000000) Facts₀.scatter_S2097152_S4000000x1_S4000000_n_0_0_1_wf
    (val_main_v114 (F := Ideal)) (val_main_v120 (F := Ideal) x0) (val_main_v100 (F := Ideal) x0 x2) c).trans ?_
  unfold R.cw
  refine congrArg₂ (· + ·) ((val_main_v114_apply (F := Ideal) _).trans rfl) ?_
  refine (Finset.sum_equiv pkEquiv ?_ ?_).symm
  · intro x
    have e : val_main_v120 (F := Ideal) x0 (ix2 (pkEquiv x) 0) = wrap (R.hash x0 x.1 x.2) :=
      (idx120 x0 (pk x.1 x.2)).trans (congrArg wrap (hflat_eq x0 x.1 x.2))
    simp only [Finset.mem_filter, Finset.mem_univ, true_and]
    exact (hit_iff _ c).trans (iff_of_eq (congrArg (fun h => RowHit 2097152 h c) e.symm))
  · intro x _
    exact (wflat_eq x0 x2 x.1 x.2).symm

/-- Channel j's sum of cell c: 0 plus the data-weighted mass-weights of the pairs naming c. -/
theorem ca_eq (c : Fin 2097152) (j : Fin 3) : val_main_v113 (F := Ideal) x0 x1 x2 (ix2 c j) = R.ca x0 x1 x2 c j := by
  unfold val_main_v113
  refine (scatterAdd_rows_apply (N := 2097152) (M := 4000000) (C := 3)
    Facts₀.scatter_S2097152x3_S4000000x1_S4000000x3_1_0_0_1_wf
    (val_main_v106 (F := Ideal)) (val_main_v112 (F := Ideal) x0) (val_main_v105 (F := Ideal) x0 x1 x2) c j).trans ?_
  unfold R.ca
  refine congrArg₂ (· + ·) ((val_main_v106_apply (F := Ideal) _).trans rfl) ?_
  refine (Finset.sum_equiv pkEquiv ?_ ?_).symm
  · intro x
    have e : val_main_v112 (F := Ideal) x0 (ix2 (pkEquiv x) 0) = wrap (R.hash x0 x.1 x.2) :=
      (idx112 x0 (pk x.1 x.2)).trans (congrArg wrap (hflat_eq x0 x.1 x.2))
    simp only [Finset.mem_filter, Finset.mem_univ, true_and]
    exact (hit_iff _ c).trans (iff_of_eq (congrArg (fun h => RowHit 2097152 h c) e.symm))
  · intro x _
    exact (wd_eq x0 x1 x2 x.1 x.2 j).symm

/-! ## The normalised table -/

/-- The test "the cell's mass exceeds the cutoff" at cell c. -/
private theorem mask_eq (c : Fin 2097152) :
    val_main_v123 (F := Ideal) x0 x2 (ix1 c) = FloatOps.cmpf .ogt (R.cw x0 x2 c) eps := by
  rw [val_main_v123_apply, cw_eq, val_main_v122_apply]
  rfl

/-- The divisor at cell c: the mass where it exceeds the cutoff, 1 elsewhere. -/
private theorem safe_eq (c : Fin 2097152) :
    val_main_v124 (F := Ideal) x0 x2 (ix1 c)
      = Scalar.select (FloatOps.cmpf .ogt (R.cw x0 x2 c) eps) (R.cw x0 x2 c) one := by
  rw [val_main_v124_apply, mask_eq, cw_eq, val_main_call1_v1_apply]
  rfl

/-- The normalised table at (c, j): the channel sum over the divisor where the mass exceeds the cutoff, 0 elsewhere. -/
theorem norm_eq (c : Fin 2097152) (j : Fin 3) :
    val_main_v129 (F := Ideal) x0 x1 x2 (ix2 c j) = norm (R.ca x0 x1 x2 c j) (R.cw x0 x2 c) := by
  have h1 : idx_main_v125 (idx_main_call2_v1 (ix2 c j)) = ix1 c := by
    funext a; match a with | ⟨0, _⟩ => rfl
  have h2 : idx_main_v126 (idx_main_v127 (ix2 c j)) = ix1 c := by
    funext a; match a with | ⟨0, _⟩ => rfl
  rw [val_main_v129_apply, val_main_call2_v1_apply, val_main_v125_apply, h1, mask_eq, val_main_v128_apply,
    val_main_v127_apply, val_main_v126_apply, h2, safe_eq, ca_eq, val_main_call2_v2_apply]
  rfl

/-! ## The fetch and the weighted sum -/

/-- The fetched value at (particle, slot, channel): the normalised table at the pair's cell. -/
theorem gather_eq (n : Fin 500000) (k : Fin 8) (j : Fin 3) :
    val_main_v136 (F := Ideal) x0 x1 x2 (ix3 n k j)
      = norm (R.ca x0 x1 x2 (gidx (R.hash x0 n k)) j) (R.cw x0 x2 (gidx (R.hash x0 n k))) := by
  unfold val_main_v136
  refine (gather_rows3_apply (N := 2097152) (C := 3) (A := 500000) (B := 8) (by omega)
    Facts₀.gather_S2097152x3_S500000x8x1_S500000x8x3_2_0_n_n_0_2_13_wf
    (val_main_v129 (F := Ideal) x0 x1 x2) (val_main_v135 (F := Ideal) x0) n k j).trans ?_
  rw [idx135, ← gidx_eq]
  exact norm_eq x0 x1 x2 _ j

/-- The reference's result is the particle-major arrangement. -/
theorem ref_value : val_main_v140 (F := Ideal) x0 x1 x2 = R.outArr x0 x1 x2 := by
  funext i
  obtain ⟨n, j, rfl⟩ : ∃ (n : Fin 500000) (j : Fin 3), i = ix2 n j := ⟨i 0, i 1, eq_ix2 i⟩
  refine (val_main_v140_apply x0 x1 x2 _).trans ?_
  unfold R.outArr
  refine Eq.trans ?_ (arr2_ix2 _ n j).symm
  refine congrArg₂ (· + ·) rfl (Finset.sum_congr rfl fun k _ => ?_)
  have hi : idx_main_v140 (ix2 n j) k = ix3 n k j := by
    funext a; match a with | ⟨0, _⟩ => rfl | ⟨1, _⟩ => rfl | ⟨2, _⟩ => rfl
  have h2 : idx_main_v137 (idx_main_v138 (ix3 n k j)) = ix2 n k := by
    funext a; match a with | ⟨0, _⟩ => rfl | ⟨1, _⟩ => rfl
  rw [hi, val_main_v139_apply, gather_eq, val_main_v138_apply, val_main_v137_apply, h2, val_eq]

end Cert.ReferenceIdeal.RefTable

end
-- ==== Proof.Bridge.lean ====
/-
  The two arrangements give one array.
  A real particle n sits in the tile at row n / 512, column n % 512, where the tile holds its coordinates, data and mass and the
  lane number is n, so the lane's factor is 1 and its cell numbers, weights and update rows are the particle's; a padding lane's
  factor is 0, so its weights and all its update rows are 0. A cell's sum over the (slot, row, column) triples is therefore its
  sum over the (particle, slot) pairs (the padding triples add 0, the others correspond one to one), channel 3 being the mass.
  The eight terms added in order onto 0 are 0 plus their sum. Addition of extended reals is commutative and associative and
  x * 1 = x, x * 0 = 0 hold for every extended real, so nothing here needs the inputs to be finite.
-/
import proofs.«425829_j66365834658392_3_alg».proof.Proof.Spec
import Idealize.ShloMosaic.Lib.ValueIdx
import Mathlib.Algebra.BigOperators.Fin
import Mathlib.Algebra.BigOperators.Group.Finset.Basic

noncomputable section

namespace Cert.Bridge

open Idealize.ShloMosaic Idealize.ShloMosaic.ValueIdx Cert.Spec

/-! ## A particle's place in the tile -/

/-- The row of particle n in the tile. -/
def row (n : Fin 500000) : Fin 1024 := ⟨n.val / 512, by omega⟩
/-- The column of particle n in the tile. -/
def col (n : Fin 500000) : Fin 512 := ⟨n.val % 512, Nat.mod_lt _ (by decide)⟩

/-- Row times 512 plus column is the particle's number. -/
theorem row_col (n : Fin 500000) : (row n).val * 512 + (col n).val = n.val := by
  show n.val / 512 * 512 + n.val % 512 = n.val
  omega

/-- The lane below 500000 at row r, column cc is the lane of the particle r * 512 + cc: its row is r … -/
theorem row_mk (r : Fin 1024) (cc : Fin 512) (h : r.val * 512 + cc.val < 500000) : row ⟨r.val * 512 + cc.val, h⟩ = r :=
  Fin.ext (by show (r.val * 512 + cc.val) / 512 = r.val; have := cc.isLt; omega)
/-- … and its column is cc. -/
theorem col_mk (r : Fin 1024) (cc : Fin 512) (h : r.val * 512 + cc.val < 500000) : col ⟨r.val * 512 + cc.val, h⟩ = cc :=
  Fin.ext (by show (r.val * 512 + cc.val) % 512 = cc.val; have := cc.isLt; omega)

/-- The three-channel tile holds a particle's channel a at the particle's place. -/
theorem tile3_real (p : FVec Ideal P3 .f32) (a : Fin 3) (n : Fin 500000) :
    K.tile3 p (ix3 a (row n) (col n)) = p (ix2 n a) := by
  have h : (row n).val * 512 + (col n).val < 500000 := by rw [row_col]; exact n.isLt
  show (if h : (row n).val * 512 + (col n).val < 500000 then p (ix2 ⟨(row n).val * 512 + (col n).val, h⟩ a) else K.padv) = _
  rw [dif_pos h]
  congr 2
  exact Fin.ext (row_col n)

/-- The one-channel tile holds a particle's entry at the particle's place. -/
theorem tile1_real (p : FVec Ideal P1 .f32) (n : Fin 500000) :
    K.tile1 p (ix2 (row n) (col n)) = p (ix1 n) := by
  have h : (row n).val * 512 + (col n).val < 500000 := by rw [row_col]; exact n.isLt
  show (if h : (row n).val * 512 + (col n).val < 500000 then p (ix1 ⟨(row n).val * 512 + (col n).val, h⟩) else K.padv) = _
  rw [dif_pos h]
  congr 2
  exact Fin.ext (row_col n)

/-! ## The lane number and the lane's factor -/

/-- The lane number the body computes, (r % 128 + (r / 128) * 128) * 512 + cc in 32-bit words, is the word of r * 512 + cc:
    every intermediate value is below 2 ^ 32. -/
theorem flat_eq (r : Fin 1024) (cc : Fin 512) : K.flat r cc = BitVec.ofNat 32 (r.val * 512 + cc.val) := by
  unfold K.flat IntOp.addi IntOp.muli
  apply BitVec.eq_of_toNat_eq
  simp only [BitVec.toNat_add, BitVec.toNat_mul, BitVec.toNat_ofNat]
  have := r.isLt; have := cc.isLt
  omega

/-- A word below 2 ^ 31, read signed, is its number. -/
theorem toInt_small (L : Nat) (h : L < 2147483648) : (BitVec.ofNat 32 L).toInt = (L : Int) := by
  rw [BitVec.toInt_eq_toNat_of_lt (by rw [BitVec.toNat_ofNat]; omega), BitVec.toNat_ofNat]
  omega

/-- A lane below 500000 has factor 1. -/
theorem real_lt (L : Nat) (h : L < 500000) : K.real (BitVec.ofNat 32 L) = 1 := by
  unfold K.real IntOp.cmpi
  have h1 : (BitVec.ofNat 32 L).slt 500000#32 = true := by
    rw [BitVec.slt_iff_toInt_lt, toInt_small L (by omega), toInt_small 500000 (by omega)]
    omega
  simp only [h1]
  show ((((BitVec.ofBool true).setWidth 32).toInt : ℝ) : EReal) = (1 : EReal)
  have : ((BitVec.ofBool true).setWidth 32).toInt = 1 := by decide
  rw [this]; simp

/-- A lane from 500000 up (a padding lane of the tile) has factor 0. -/
theorem real_ge (L : Nat) (h : 500000 ≤ L) (h2 : L < 524288) : K.real (BitVec.ofNat 32 L) = 0 := by
  unfold K.real IntOp.cmpi
  have h1 : (BitVec.ofNat 32 L).slt 500000#32 = false := by
    rw [Bool.eq_false_iff, Ne, BitVec.slt_iff_toInt_lt, toInt_small L (by omega), toInt_small 500000 (by omega)]
    omega
  simp only [h1]
  show ((((BitVec.ofBool false).setWidth 32).toInt : ℝ) : EReal) = (0 : EReal)
  have : ((BitVec.ofBool false).setWidth 32).toInt = 0 := by decide
  rw [this]; simp

/-! ## The inside-the-grid bit -/

/-- The particle-major inside-the-grid bit, over three coordinates. -/
def validR (x y z : Fl) (k : Fin 8) : BitVec 1 :=
  IntOp.andi (IntOp.andi (IntOp.andi 1#1 (inb (node x k 0))) (inb (node y k 1))) (inb (node z k 2))

/-- Six one-bit words joined in a row are 1 joined with the three pairs. -/
theorem and6 (a b c d e f : BitVec 1) :
    ((((a &&& b) &&& c) &&& d) &&& e) &&& f = ((1#1 &&& (a &&& b)) &&& (c &&& d)) &&& (e &&& f) := by
  revert a b c d e f; decide

/-- The tiled arrangement's bit is the particle-major one. -/
theorem laneValid_eq (x y z : Fl) (k : Fin 8) : K.laneValid x y z k = validR x y z k := by
  unfold K.laneValid validR inb IntOp.andi
  exact and6 _ _ _ _ _ _

/-- A one-bit word widened to 32 bits and read signed is the word read unsigned: 0 or 1 either way. -/
theorem bit_conv (v : BitVec 1) : (FloatOps.sitofp .f32 (v.setWidth 32) : Fl) = FloatOps.uitofp .f32 v := by
  show ((((v.setWidth 32).toInt : ℝ)) : EReal) = (((v.toNat : ℝ)) : EReal)
  rcases BitVec.eq_zero_or_eq_one v with h | h <;> subst h
  · have : ((0#1).setWidth 32).toInt = 0 := by decide
    rw [this]; simp
  · have : ((1#1).setWidth 32).toInt = 1 := by decide
    rw [this]; simp

/-! ## One lane's weight -/

/-- On a particle's lane the weight is the hat product times the inside-the-grid bit (times the factor 1). -/
theorem laneVal_real (x y z : Fl) (k : Fin 8) (n : Fin 500000) :
    K.laneVal x y z (K.flat (row n) (col n)) k
      = FloatOps.mulf (laneHat x y z k) (FloatOps.uitofp .f32 (validR x y z k)) := by
  unfold K.laneVal
  rw [flat_eq, row_col, real_lt n.val n.isLt, laneValid_eq, bit_conv]
  exact mul_one _

/-- On a padding lane the weight is 0 (times the factor 0), whatever the lane holds. -/
theorem laneVal_pad (x y z : Fl) (k : Fin 8) (r : Fin 1024) (cc : Fin 512) (h : 500000 ≤ r.val * 512 + cc.val) :
    K.laneVal x y z (K.flat r cc) k = 0 := by
  unfold K.laneVal
  rw [flat_eq, real_ge _ h (by have := r.isLt; have := cc.isLt; omega)]
  exact mul_zero _

/-! ## The tiled arrays at a particle's lane and at a padding lane -/

variable (pos dat : FVec Ideal P3 .f32) (mass : FVec Ideal P1 .f32)

/-- The cell numbers at a particle's lane are the particle's. -/
theorem nhArr_real (n : Fin 500000) (k : Fin 8) :
    K.nhArr (K.tile3 pos) (ix3 k (row n) (col n)) = R.hash pos n k := by
  show laneHash (K.tile3 pos (ix3 0 (row n) (col n))) (K.tile3 pos (ix3 1 (row n) (col n)))
    (K.tile3 pos (ix3 2 (row n) (col n))) k = _
  rw [tile3_real, tile3_real, tile3_real]
  rfl

/-- The weights at a particle's lane are the particle's. -/
theorem valArr_real (n : Fin 500000) (k : Fin 8) :
    K.valArr (K.tile3 pos) (ix3 k (row n) (col n)) = R.val pos n k := by
  show K.laneVal (K.tile3 pos (ix3 0 (row n) (col n))) (K.tile3 pos (ix3 1 (row n) (col n)))
    (K.tile3 pos (ix3 2 (row n) (col n))) (K.flat (row n) (col n)) k = _
  rw [tile3_real, tile3_real, tile3_real, laneVal_real]
  rfl

/-- The mass-weight at a particle's lane is the particle's. -/
theorem laneW_real (n : Fin 500000) (k : Fin 8) :
    K.laneW (K.tile3 pos (ix3 0 (row n) (col n))) (K.tile3 pos (ix3 1 (row n) (col n)))
      (K.tile3 pos (ix3 2 (row n) (col n))) (K.flat (row n) (col n)) (K.tile1 mass (ix2 (row n) (col n))) k
      = R.w pos mass n k := by
  unfold K.laneW
  rw [tile3_real, tile3_real, tile3_real, tile1_real, laneVal_real]
  rfl

/-- The mass-weight at a padding lane is 0. -/
theorem laneW_pad (x y z ms : Fl) (k : Fin 8) (r : Fin 1024) (cc : Fin 512) (h : 500000 ≤ r.val * 512 + cc.val) :
    K.laneW x y z (K.flat r cc) ms k = 0 := by
  unfold K.laneW
  rw [laneVal_pad x y z k r cc h]
  exact zero_mul _

/-- A data plane at a particle's lane: the particle's channel times its mass-weight. -/
theorem dwArr_real (n : Fin 500000) (k : Fin 8) (j : Fin 3) :
    K.dwArr (K.tile3 pos) (K.tile1 mass) (K.tile3 dat) (ix4 ⟨j.val, by omega⟩ k (row n) (col n))
      = FloatOps.mulf (dat (ix2 n j)) (R.w pos mass n k) := by
  show (if h : j.val < 3 then
      FloatOps.mulf (K.tile3 dat (ix3 ⟨j.val, h⟩ (row n) (col n)))
        (K.laneW (K.tile3 pos (ix3 0 (row n) (col n))) (K.tile3 pos (ix3 1 (row n) (col n)))
          (K.tile3 pos (ix3 2 (row n) (col n))) (K.flat (row n) (col n)) (K.tile1 mass (ix2 (row n) (col n))) k)
    else K.laneW (K.tile3 pos (ix3 0 (row n) (col n))) (K.tile3 pos (ix3 1 (row n) (col n)))
          (K.tile3 pos (ix3 2 (row n) (col n))) (K.flat (row n) (col n)) (K.tile1 mass (ix2 (row n) (col n))) k) = _
  rw [dif_pos j.isLt, laneW_real, tile3_real]

/-- The mass plane at a particle's lane: the particle's mass-weight. -/
theorem dwArr_real3 (n : Fin 500000) (k : Fin 8) :
    K.dwArr (K.tile3 pos) (K.tile1 mass) (K.tile3 dat) (ix4 3 k (row n) (col n)) = R.w pos mass n k := by
  show (if h : (3 : Fin 4).val < 3 then
      FloatOps.mulf (K.tile3 dat (ix3 ⟨(3 : Fin 4).val, h⟩ (row n) (col n)))
        (K.laneW (K.tile3 pos (ix3 0 (row n) (col n))) (K.tile3 pos (ix3 1 (row n) (col n)))
          (K.tile3 pos (ix3 2 (row n) (col n))) (K.flat (row n) (col n)) (K.tile1 mass (ix2 (row n) (col n))) k)
    else K.laneW (K.tile3 pos (ix3 0 (row n) (col n))) (K.tile3 pos (ix3 1 (row n) (col n)))
          (K.tile3 pos (ix3 2 (row n) (col n))) (K.flat (row n) (col n)) (K.tile1 mass (ix2 (row n) (col n))) k) = _
  rw [dif_neg (by decide), laneW_real]

/-- Every plane at a padding lane is 0. -/
theorem dwArr_pad (j : Fin 4) (k : Fin 8) (r : Fin 1024) (cc : Fin 512) (h : 500000 ≤ r.val * 512 + cc.val) :
    K.dwArr (K.tile3 pos) (K.tile1 mass) (K.tile3 dat) (ix4 j k r cc) = 0 := by
  show (if h : j.val < 3 then
      FloatOps.mulf (K.tile3 dat (ix3 ⟨j.val, h⟩ r cc))
        (K.laneW (K.tile3 pos (ix3 0 r cc)) (K.tile3 pos (ix3 1 r cc)) (K.tile3 pos (ix3 2 r cc)) (K.flat r cc)
          (K.tile1 mass (ix2 r cc)) k)
    else K.laneW (K.tile3 pos (ix3 0 r cc)) (K.tile3 pos (ix3 1 r cc)) (K.tile3 pos (ix3 2 r cc)) (K.flat r cc)
          (K.tile1 mass (ix2 r cc)) k) = 0
  rw [laneW_pad _ _ _ _ k r cc h]
  split
  · exact mul_zero _
  · rfl

/-! ## The cell sums -/

/-- A filtered sum over the (slot, row, column) triples whose summand vanishes on the padding lanes is the filtered sum over
    the (particle, slot) pairs, when filter and summand agree at every particle's lane: the pair (n, k) goes to the triple
    (k, n / 512, n % 512), one to one, onto the triples below lane 500000. -/
theorem sum_tile (f : Fin 8 → Fin 1024 → Fin 512 → Fl) (P : Fin 8 → Fin 1024 → Fin 512 → Prop)
    [∀ k r cc, Decidable (P k r cc)]
    (g : Fin 500000 → Fin 8 → Fl) (Q : Fin 500000 → Fin 8 → Prop) [∀ n k, Decidable (Q n k)]
    (hpad : ∀ k r cc, 500000 ≤ r.val * 512 + cc.val → f k r cc = 0)
    (hreal : ∀ n k, f k (row n) (col n) = g n k)
    (hP : ∀ n k, P k (row n) (col n) ↔ Q n k) :
    ∑ x ∈ Finset.univ.filter (fun x : Fin 8 × Fin 1024 × Fin 512 => P x.1 x.2.1 x.2.2), f x.1 x.2.1 x.2.2
      = ∑ x ∈ Finset.univ.filter (fun x : Fin 500000 × Fin 8 => Q x.1 x.2), g x.1 x.2 := by
  symm
  refine Finset.sum_of_injOn (fun x : Fin 500000 × Fin 8 => (x.2, row x.1, col x.1)) ?_ ?_ ?_ ?_
  · rintro ⟨n, k⟩ _ ⟨n', k'⟩ _ h
    simp only [Prod.mk.injEq] at h
    obtain ⟨hk, hr, hc⟩ := h
    have h1 := row_col n; have h2 := row_col n'
    rw [hr, hc] at h1
    exact Prod.ext (Fin.ext (by simp only; omega)) hk
  · rintro ⟨n, k⟩ hx
    simp only [Finset.coe_filter, Finset.mem_univ, true_and, Set.mem_setOf_eq] at hx ⊢
    exact (hP n k).2 hx
  · rintro ⟨k, r, cc⟩ hx hni
    simp only [Finset.mem_filter, Finset.mem_univ, true_and] at hx
    apply hpad
    by_contra hge
    have hlt : r.val * 512 + cc.val < 500000 := Nat.lt_of_not_le hge
    apply hni
    refine ⟨(⟨r.val * 512 + cc.val, hlt⟩, k), ?_, ?_⟩
    · simp only [Finset.coe_filter, Finset.mem_univ, true_and, Set.mem_setOf_eq]
      rw [← hP, row_mk r cc hlt, col_mk r cc hlt]; exact hx
    · simp only [row_mk r cc hlt, col_mk r cc hlt]
  · rintro ⟨n, k⟩ _
    exact (hreal n k).symm

/-- A cell's data channel j in the tiled arrangement is the particle-major channel sum. -/
theorem cell_ca (c : Fin 2097152) (j : Fin 3) :
    K.cell (K.nhArr (K.tile3 pos)) (K.dwArr (K.tile3 pos) (K.tile1 mass) (K.tile3 dat)) c ⟨j.val, by omega⟩
      = R.ca pos dat mass c j := by
  unfold K.cell R.ca
  refine congrArg (fun s => zero + s) ?_
  exact sum_tile
    (fun k r cc => K.dwArr (K.tile3 pos) (K.tile1 mass) (K.tile3 dat) (ix4 ⟨j.val, by omega⟩ k r cc))
    (fun k r cc => Hit (K.nhArr (K.tile3 pos) (ix3 k r cc)) c)
    (fun n k => FloatOps.mulf (dat (ix2 n j)) (R.w pos mass n k))
    (fun n k => Hit (R.hash pos n k) c)
    (fun k r cc h => dwArr_pad pos dat mass _ k r cc h)
    (fun n k => dwArr_real pos dat mass n k j)
    (fun n k => by rw [nhArr_real])

/-- A cell's channel 3 in the tiled arrangement is the particle-major cell mass. -/
theorem cell_cw (c : Fin 2097152) :
    K.cell (K.nhArr (K.tile3 pos)) (K.dwArr (K.tile3 pos) (K.tile1 mass) (K.tile3 dat)) c 3 = R.cw pos mass c := by
  unfold K.cell R.cw
  refine congrArg (fun s => zero + s) ?_
  exact sum_tile
    (fun k r cc => K.dwArr (K.tile3 pos) (K.tile1 mass) (K.tile3 dat) (ix4 3 k r cc))
    (fun k r cc => Hit (K.nhArr (K.tile3 pos) (ix3 k r cc)) c)
    (fun n k => R.w pos mass n k)
    (fun n k => Hit (R.hash pos n k) c)
    (fun k r cc h => dwArr_pad pos dat mass _ k r cc h)
    (fun n k => dwArr_real3 pos dat mass n k)
    (fun n k => by rw [nhArr_real])

/-! ## The weighted sum -/

/-- One slot's term at a particle's lane is the particle-major summand. -/
theorem term_real (n : Fin 500000) (j : Fin 3) (k : Fin 8) :
    K.term (K.valArr (K.tile3 pos))
      (K.nvArr (K.nhArr (K.tile3 pos)) (K.dwArr (K.tile3 pos) (K.tile1 mass) (K.tile3 dat))) j (row n) (col n) k
      = FloatOps.mulf (R.val pos n k)
          (norm (R.ca pos dat mass (gidx (R.hash pos n k)) j) (R.cw pos mass (gidx (R.hash pos n k)))) := by
  show FloatOps.mulf (K.valArr (K.tile3 pos) (ix3 k (row n) (col n)))
    (norm
      (K.cell (K.nhArr (K.tile3 pos)) (K.dwArr (K.tile3 pos) (K.tile1 mass) (K.tile3 dat))
        (gidx (K.nhArr (K.tile3 pos) (ix3 k (row n) (col n)))) ⟨j.val, by omega⟩)
      (K.cell (K.nhArr (K.tile3 pos)) (K.dwArr (K.tile3 pos) (K.tile1 mass) (K.tile3 dat))
        (gidx (K.nhArr (K.tile3 pos) (ix3 k (row n) (col n)))) 3)) = _
  rw [valArr_real, nhArr_real, cell_ca, cell_cw]

/-- The tiled arrangement's result is the particle-major arrangement's. -/
theorem bridge : K.outArr pos dat mass = R.outArr pos dat mass := by
  funext i
  obtain ⟨n, j, rfl⟩ : ∃ (n : Fin 500000) (j : Fin 3), i = ix2 n j := ⟨i 0, i 1, eq_ix2 i⟩
  show FloatOps.addf (FloatOps.addf (FloatOps.addf (FloatOps.addf (FloatOps.addf (FloatOps.addf (FloatOps.addf (FloatOps.addf zero
      (K.term _ _ j (row n) (col n) 0)) (K.term _ _ j (row n) (col n) 1)) (K.term _ _ j (row n) (col n) 2))
      (K.term _ _ j (row n) (col n) 3)) (K.term _ _ j (row n) (col n) 4)) (K.term _ _ j (row n) (col n) 5))
      (K.term _ _ j (row n) (col n) 6)) (K.term _ _ j (row n) (col n) 7)
    = zero + ∑ k : Fin 8, FloatOps.mulf (R.val pos n k)
        (norm (R.ca pos dat mass (gidx (R.hash pos n k)) j) (R.cw pos mass (gidx (R.hash pos n k))))
  simp only [term_real, Fin.sum_univ_eight, Ideal.addf_def, add_assoc]

end Cert.Bridge

end
-- ==== Proof.lean ====
/-
  The certificate's claim.

  The program lays 500000 particles out in a 1024 x 512 tile (padding the last 24288 lanes with zeros), computes per lane the
  eight stencil cells, weights and update rows in a first tiled pass, adds the update rows into a table of cells and fetches the
  cells' rows back on the host, and in a second tiled pass divides each fetched channel sum by the fetched mass and sums the eight
  weighted terms. The reference does the same particle-major, normalising the table once per cell before fetching. Over the
  extended reals the two results are one array (Proof/Bridge.lean): the padding lanes add zeros to the cell sums, the remaining
  terms correspond one to one, and dividing before or after the fetch is the same.

  The frames of the two tiled programs are the frame certificates of Proof/FrameK.lean and Proof/FrameKI.lean; the reference's frame
  is its run with the result dropped. No operation was rewritten when the program was idealized, so there is nothing to preserve.
  The equality of results: the tiled program's run names its result buffer at the last boundary's contents, which
  Proof/KValue.lean reads as the tiled arrangement of the arguments; the reference's run names its result as its operations'
  composed term, which Proof/RefTable.lean reads as the particle-major arrangement.
-/
import proofs.«425829_j66365834658392_3_alg».proof.Defs
import proofs.«425829_j66365834658392_3_alg».proof.Proof.Gen.Kernel
import proofs.«425829_j66365834658392_3_alg».proof.Proof.Gen.KernelIdeal
import proofs.«425829_j66365834658392_3_alg».proof.Proof.Gen.ReferenceIdeal
import proofs.«425829_j66365834658392_3_alg».proof.Proof.Gen.Pre_finite_inputs
import proofs.«425829_j66365834658392_3_alg».proof.Proof.Gen.ReferenceIdeal.Run
import proofs.«425829_j66365834658392_3_alg».proof.Proof.Gen.ReferenceIdeal.Read
import proofs.«425829_j66365834658392_3_alg».proof.Proof.FrameK
import proofs.«425829_j66365834658392_3_alg».proof.Proof.FrameKI
import proofs.«425829_j66365834658392_3_alg».proof.Proof.KValue
import proofs.«425829_j66365834658392_3_alg».proof.Proof.RefTable
import proofs.«425829_j66365834658392_3_alg».proof.Proof.Bridge
import Idealize.ShloMosaic.Adequacy
import Idealize.ShloMosaic.Init

noncomputable section

namespace Cert.Proof

open Idealize.ShloMosaic Idealize.SL.Sem

theorem frame_k : @Cert.frame_Kernel Cert.Kernel.Gen.facts Cert.Pre_finite_inputs.Gen.facts :=
  fun m ρ _ => Cert.Kernel.GenP.frame m ρ

theorem frame_ki : @Cert.frame_KernelIdeal Cert.KernelIdeal.Gen.facts Cert.Pre_finite_inputs.Gen.facts :=
  fun m ρ _ => Cert.KernelIdeal.GenP.frame m ρ

theorem frame_ri : @Cert.frame_ReferenceIdeal Cert.ReferenceIdeal.Gen.facts Cert.Pre_finite_inputs.Gen.facts :=
  fun m ρ _ => (θ_run Cert.ReferenceIdeal.defs _ _).mono (fun _ h c => (h c).2) (Cert.ReferenceIdeal.Value.run (F := Ideal) m ρ)

/-- Both programs end with the particle-major arrangement of the (agreeing) arguments in their result buffers. -/
theorem algebraic : @Cert.algebraic_KernelIdeal_ReferenceIdeal Cert.KernelIdeal.Gen.facts Cert.ReferenceIdeal.Gen.facts
    Cert.Pre_finite_inputs.Gen.facts := by
  intro m ρ m' ρ' _ hagree
  refine ⟨fun c => Cert.Spec.R.outArr (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · refine (θ_run Cert.KernelIdeal.defs _ _).mono (fun _ h c => ⟨(h c).1.trans ?_, (h c).2⟩)
      (Cert.KernelIdeal.GenP.run (F := Ideal) m ρ)
    exact (Cert.KernelIdeal.KValue.kernel_value m ρ c).trans (Cert.Bridge.bridge _ _ _)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v140_eq, (hagree c).1, (hagree c).2.1, (hagree c).2.2]
    exact Cert.ReferenceIdeal.RefTable.ref_value _ _ _

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
